-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v14_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512x2048 : Shape := ⟨2, ![512, 2048]⟩
abbrev S2048x2048 : Shape := ⟨2, ![2048, 2048]⟩
abbrev S6144x1024 : Shape := ⟨2, ![6144, 1024]⟩
abbrev S6144 : Shape := ⟨1, ![6144]⟩
abbrev S6144x2048 : Shape := ⟨2, ![6144, 2048]⟩
abbrev S1x2048 : Shape := ⟨2, ![1, 2048]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x1024 : S_.BroadcastsInDim S6144x1024 (![] : Fin 0 → Fin S6144x1024.rank)
  reducesTo_S6144x1024_S_d0_1 : S6144x1024.ReducesTo [0, 1] S_
  bcast_S_S6144 : S_.BroadcastsInDim S6144 (![] : Fin 0 → Fin S6144.rank)
  reducesTo_S6144_S_d0 : S6144.ReducesTo [0] S_
  bcast_S_S6144x2048 : S_.BroadcastsInDim S6144x2048 (![] : Fin 0 → Fin S6144x2048.rank)
  reducesTo_S6144x2048_S_d0_1 : S6144x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S6144x2048 .f32) (main_arg8 : FVec F S6144 .f32) (main_arg9 : FVec F S1x2048 .f32) (main_v33 : IVec S_ 1) : IVec S_ 1 :=
  let main_v34 : FVec F S6144x2048 .f32 := Host.absf main_arg7
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  main_v48

def fn_part1 {F : FTy → Type} [FloatOps F] (main_arg4 : FVec F S512x2048 .f32) (main_arg5 : FVec F S6144x1024 .f32) (main_arg6 : FVec F S6144 .f32) (main_arg7 : FVec F S6144x2048 .f32) (main_arg8 : FVec F S6144 .f32) (main_arg9 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S6144x1024 .f32 := Host.absf main_arg5
  let main_cst_8 : FVec F S_ .f32 := constant S_ .f32 0x7F800000#32
  let main_v25 : FVec F S6144x1024 .f32 := broadcastInDim S6144x1024 ![] bcast_S_S6144x1024 main_cst_8
  let main_v26 : IVec S6144x1024 1 := cmpf .olt main_v24 main_v25
  let main_c_9 : IVec S_ 1 := constantI S_ 1 1#1
  let main_v27 : IVec S_ 1 := (fun x v => Host.reduce IntOp.andi x v reducesTo_S6144x1024_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_v33

def fn {F : FTy → Type} [FloatOps F] (main_arg0 : FVec F S512x1024 .f32) (main_arg1 : FVec F S512x2048 .f32) (main_arg2 : FVec F S512x2048 .f32) (main_arg3 : FVec F S2048x2048 .f32) (main_arg4 : FVec F S512x2048 .f32) (main_arg5 : FVec F S6144x1024 .f32) (main_arg6 : FVec F S6144 .f32) (main_arg7 : FVec F S6144x2048 .f32) (main_arg8 : FVec F S6144 .f32) (main_arg9 : FVec F S1x2048 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S512x1024 : Shape := ⟨2, ![512, 1024]⟩
abbrev S512x2048 : Shape := ⟨2, ![512, 2048]⟩
abbrev S2048x2048 : Shape := ⟨2, ![2048, 2048]⟩
abbrev S6144x1024 : Shape := ⟨2, ![6144, 1024]⟩
abbrev S6144 : Shape := ⟨1, ![6144]⟩
abbrev S6144x2048 : Shape := ⟨2, ![6144, 2048]⟩
abbrev S1x2048 : Shape := ⟨2, ![1, 2048]⟩
abbrev S2048x1024 : Shape := ⟨2, ![2048, 1024]⟩
abbrev S1x6144 : Shape := ⟨2, ![1, 6144]⟩
abbrev S512x128 : Shape := ⟨2, ![512, 128]⟩
abbrev S1x128 : Shape := ⟨2, ![1, 128]⟩
abbrev S128x2048 : Shape := ⟨2, ![128, 2048]⟩
abbrev S128x1024 : Shape := ⟨2, ![128, 1024]⟩
abbrev S512x512 : Shape := ⟨2, ![512, 512]⟩

abbrev nBuf : Space → Nat
  | .hbm => 28
  | .vmem => 52
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S512x2048, .f32⟩
  | .hbm, ⟨3, _⟩ => ⟨S2048x2048, .f32⟩
  | .hbm, ⟨4, _⟩ => ⟨S512x2048, .f32⟩
  | .hbm, ⟨5, _⟩ => ⟨S6144x1024, .f32⟩
  | .hbm, ⟨6, _⟩ => ⟨S6144, .f32⟩
  | .hbm, ⟨7, _⟩ => ⟨S6144x2048, .f32⟩
  | .hbm, ⟨8, _⟩ => ⟨S6144, .f32⟩
  | .hbm, ⟨9, _⟩ => ⟨S1x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S1x6144, .f32⟩
  | .hbm, ⟨17, _⟩ => ⟨S1x6144, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S2048x2048, .f32⟩
  | .local _ .vmem, ⟨0, _⟩ => ⟨S512x1024, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S128x2048, .f32⟩
  | .local _ .vmem, ⟨9, _⟩ => ⟨S128x2048, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc1_stg0_0 : Ref sig .tc := ⟨.vmem, 40, rfl⟩
abbrev cc1_stg0_1 : Ref sig .tc := ⟨.vmem, 41, rfl⟩
abbrev cc1_stg1_0 : Ref sig .tc := ⟨.vmem, 42, rfl⟩
abbrev cc1_stg1_1 : Ref sig .tc := ⟨.vmem, 43, rfl⟩
abbrev cc1_stg2_0 : Ref sig .tc := ⟨.vmem, 44, rfl⟩
abbrev cc1_stg2_1 : Ref sig .tc := ⟨.vmem, 45, rfl⟩
abbrev cc1_stg3_0 : Ref sig .tc := ⟨.vmem, 46, rfl⟩
abbrev cc1_stg3_1 : Ref sig .tc := ⟨.vmem, 47, rfl⟩
abbrev cc1_stg4_0 : Ref sig .tc := ⟨.vmem, 48, rfl⟩
abbrev cc1_stg4_1 : Ref sig .tc := ⟨.vmem, 49, rfl⟩
abbrev cc1_stg5_0 : Ref sig .tc := ⟨.vmem, 50, rfl⟩
abbrev cc1_stg5_1 : Ref sig .tc := ⟨.vmem, 51, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc1_sem0_0 : DmaSem sig := 40
abbrev cc1_sem0_1 : DmaSem sig := 41
abbrev cc1_sem1_0 : DmaSem sig := 42
abbrev cc1_sem1_1 : DmaSem sig := 43
abbrev cc1_sem2_0 : DmaSem sig := 44
abbrev cc1_sem2_1 : DmaSem sig := 45
abbrev cc1_sem3_0 : DmaSem sig := 46
abbrev cc1_sem3_1 : DmaSem sig := 47
abbrev cc1_sem4_0 : DmaSem sig := 48
abbrev cc1_sem4_1 : DmaSem sig := 49
abbrev cc1_sem5_0 : DmaSem sig := 50
abbrev cc1_sem5_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S6144x1024_S2048x1024_0_0 : S6144x1024.Slices ![0, 0] S2048x1024
  slices_S6144x1024_S2048x1024_2048_0 : S6144x1024.Slices ![2048, 0] S2048x1024
  slices_S6144x1024_S2048x1024_4096_0 : S6144x1024.Slices ![4096, 0] S2048x1024
  slices_S6144x2048_S2048x2048_0_0 : S6144x2048.Slices ![0, 0] S2048x2048
  slices_S6144x2048_S2048x2048_2048_0 : S6144x2048.Slices ![2048, 0] S2048x2048
  slices_S6144x2048_S2048x2048_4096_0 : S6144x2048.Slices ![4096, 0] S2048x2048
  shapeCasts_S6144_S1x6144 : S6144.ShapeCasts S1x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S512x128_S512x128_0_0 : ∀ a, (![0, 0] : Fin 2 → Nat) a + S512x128.size a ≤ S512x128.size a
  h_S512x128 : 0 < S512x128.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S512x1024_S128x1024_S512x128_1_1_0_0_n_n_wf : DotDims.WF S512x1024 S128x1024 S512x128 [1] [1] [0] [0] [] []
  dot_S512x2048_S128x2048_S512x128_1_1_0_0_n_n_wf : DotDims.WF S512x2048 S128x2048 S512x128 [1] [1] [0] [0] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x2048.size a
  hwx0_2 : ∀ i : grid0.Coords, EltTy.bits .f32 = 32 ∨ (Rect.block (s := S512x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x2048.size a
  hwx0_3 : ∀ i : grid0.Coords, EltTy.bits .f32 = 32 ∨ (Rect.block (s := S512x2048) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S2048x1024.size a
  hwx0_6 : ∀ i : grid0.Coords, EltTy.bits .f32 = 32 ∨ (Rect.block (s := S2048x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S2048x1024.size a
  hwx0_7 : ∀ i : grid0.Coords, EltTy.bits .f32 = 32 ∨ (Rect.block (s := S2048x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S2048x1024.size a
  hwx0_8 : ∀ i : grid0.Coords, EltTy.bits .f32 = 32 ∨ (Rect.block (s := S2048x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .f32 = 32 ∨ (Rect.block (s := S2048x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x2048.size a
  hwx0_15 : ∀ i : grid0.Coords, EltTy.bits .f32 = 32 ∨ (Rect.block (s := S1x2048) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x2048.size a
  hwx0_16 : ∀ i : grid0.Coords, EltTy.bits .f32 = 32 ∨ (Rect.block (s := S1x2048) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x2048.size a
  hwx0_17 : ∀ i : grid0.Coords, EltTy.bits .f32 = 32 ∨ (Rect.block (s := S1x2048) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S512x2048.size a
  hwx0_18 : ∀ i : grid0.Coords, EltTy.bits .f32 = 32 ∨ (Rect.block (s := S512x2048) S512x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x128.size a ≤ S512x2048.size a
  hwx0_19 : ∀ i : grid0.Coords, EltTy.bits .f32 = 32 ∨ (Rect.block (s := S512x2048) S512x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x128.size a ≤ S512x2048.size a
  hwx0_20 : ∀ i : grid0.Coords, EltTy.bits .f32 = 32 ∨ (Rect.block (s := S512x2048) S512x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x2048.size a
  hwx1_0 : ∀ i : grid1.Coords, EltTy.bits .f32 = 32 ∨ (Rect.block (s := S512x2048) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x2048.size a
  hwx1_1 : ∀ i : grid1.Coords, EltTy.bits .f32 = 32 ∨ (Rect.block (s := S512x2048) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x2048.size a
  hwx1_2 : ∀ i : grid1.Coords, EltTy.bits .f32 = 32 ∨ (Rect.block (s := S512x2048) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x2048.size a
  hwx1_3 : ∀ i : grid1.Coords, EltTy.bits .f32 = 32 ∨ (Rect.block (s := S512x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S2048x2048.size a
  hwx1_4 : ∀ i : grid1.Coords, EltTy.bits .f32 = 32 ∨ (Rect.block (s := S2048x2048) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S2048x2048.size a
  hwx1_5 : ∀ i : grid1.Coords, EltTy.bits .f32 = 32 ∨ (Rect.block (s := S2048x2048) S512x512.size (cc1_transform_5 i) (hinb1_5 i)).WholeWords (EltTy.packing .f32)

variable [Facts₀]

def dot_S512x1024_S128x1024_S512x128_1_1_0_0_n_n : DotDims S512x1024 S128x1024 S512x128 where
  lhsContracting := [1]
  rhsContracting := [1]
  lhsNonContracting := [0]
  rhsNonContracting := [0]
  lhsBatch := []
  rhsBatch := []
  wf := dot_S512x1024_S128x1024_S512x128_1_1_0_0_n_n_wf
def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S128x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4) S128x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v11) S1x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12) S1x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v13) S1x128.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_0) S512x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_1) S512x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v14_2) S512x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_v14_1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x1024 : Shape := ⟨2, ![512, 1024]⟩
abbrev S512x2048 : Shape := ⟨2, ![512, 2048]⟩
abbrev S2048x2048 : Shape := ⟨2, ![2048, 2048]⟩
abbrev S6144x1024 : Shape := ⟨2, ![6144, 1024]⟩
abbrev S6144 : Shape := ⟨1, ![6144]⟩
abbrev S6144x2048 : Shape := ⟨2, ![6144, 2048]⟩
abbrev S1x2048 : Shape := ⟨2, ![1, 2048]⟩
abbrev S1024x6144 : Shape := ⟨2, ![1024, 6144]⟩
abbrev S512x6144 : Shape := ⟨2, ![512, 6144]⟩
abbrev S1x6144 : Shape := ⟨2, ![1, 6144]⟩
abbrev S2048x6144 : Shape := ⟨2, ![2048, 6144]⟩
abbrev S_ : Shape := ⟨0, ![]⟩
abbrev S2048x512 : Shape := ⟨2, ![2048, 512]⟩

abbrev nBuf : Space → Nat
  | .hbm => 93
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x2048, .f32⟩
  | .hbm, ⟨2, _⟩ => ⟨S512x2048, .f32⟩
  | .hbm, ⟨3, _⟩ => ⟨S2048x2048, .f32⟩
  | .hbm, ⟨4, _⟩ => ⟨S512x2048, .f32⟩
  | .hbm, ⟨5, _⟩ => ⟨S6144x1024, .f32⟩
  | .hbm, ⟨6, _⟩ => ⟨S6144, .f32⟩
  | .hbm, ⟨7, _⟩ => ⟨S6144x2048, .f32⟩
  | .hbm, ⟨8, _⟩ => ⟨S6144, .f32⟩
  | .hbm, ⟨9, _⟩ => ⟨S1x2048, .f32⟩
  | .hbm, ⟨10, _⟩ => ⟨S1024x6144, .f32⟩
  | .hbm, ⟨11, _⟩ => ⟨S512x6144, .f32⟩
  | .hbm, ⟨12, _⟩ => ⟨S1x6144, .f32⟩
  | .hbm, ⟨13, _⟩ => ⟨S512x6144, .f32⟩
  | .hbm, ⟨14, _⟩ => ⟨S512x6144, .f32⟩
  | .hbm, ⟨15, _⟩ => ⟨S2048x6144, .f32⟩
  | .hbm, ⟨16, _⟩ => ⟨S512x6144, .f32⟩
  | .hbm, ⟨17, _⟩ => ⟨S1x6144, .f32⟩
  | .hbm, ⟨18, _⟩ => ⟨S512x6144, .f32⟩
  | .hbm, ⟨19, _⟩ => ⟨S512x6144, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S2048x2048, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S1x2048, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S_, .f32⟩
  | .hbm, ⟨53, _⟩ => ⟨S512x2048, .f32⟩
  | .hbm, ⟨54, _⟩ => ⟨S512x2048, .f32⟩
  | .hbm, ⟨55, _⟩ => ⟨S512x2048, .f32⟩
  | .hbm, ⟨56, _⟩ => ⟨S512x2048, .f32⟩
  | .hbm, ⟨57, _⟩ => ⟨S512x2048, .f32⟩
  | .hbm, ⟨58, _⟩ => ⟨S_, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S_, .f32⟩
  | .hbm, ⟨64, _⟩ => ⟨S512x2048, .f32⟩
  | .hbm, ⟨65, _⟩ => ⟨S512x2048, .f32⟩
  | .hbm, ⟨66, _⟩ => ⟨S2048x512, .f32⟩
  | .hbm, ⟨67, _⟩ => ⟨S2048x2048, .f32⟩
  | .hbm, ⟨68, _⟩ => ⟨S2048x512, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S512x2048, .f32⟩
  | .hbm, ⟨73, _⟩ => ⟨S512x2048, .f32⟩
  | .hbm, ⟨74, _⟩ => ⟨S512x2048, .f32⟩
  | .hbm, ⟨75, _⟩ => ⟨S512x2048, .f32⟩
  | .hbm, ⟨76, _⟩ => ⟨S512x2048, .f32⟩
  | .hbm, ⟨77, _⟩ => ⟨S512x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S2048x2048, .f32⟩
  | .hbm, ⟨89, _⟩ => ⟨S2048x2048, .f32⟩
  | .hbm, ⟨90, _⟩ => ⟨S_, .f32⟩
  | .hbm, ⟨91, _⟩ => ⟨S2048x2048, .f32⟩
  | .hbm, ⟨92, _⟩ => ⟨S2048x2048, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_cst_9 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  transposes_S6144x1024_S1024x6144_1_0 : S6144x1024.Transposes [1, 0] S1024x6144
  bcast_S6144_S1x6144_1 : S6144.BroadcastsInDim S1x6144 (![1] : Fin 1 → Fin S1x6144.rank)
  bcast_S1x6144_S512x6144_0_1 : S1x6144.BroadcastsInDim S512x6144 (![0, 1] : Fin 2 → Fin S512x6144.rank)
  transposes_S6144x2048_S2048x6144_1_0 : S6144x2048.Transposes [1, 0] S2048x6144
  slices_S512x6144_S512x2048_0_0 : S512x6144.Slices ![0, 0] S512x2048
  bcast_S_S512x2048 : S_.BroadcastsInDim S512x2048 (![] : Fin 0 → Fin S512x2048.rank)
  slices_S512x6144_S512x2048_0_2048 : S512x6144.Slices ![0, 2048] S512x2048
  transposes_S2048x2048_S2048x2048_1_0 : S2048x2048.Transposes [1, 0] S2048x2048
  slices_S512x6144_S512x2048_0_4096 : S512x6144.Slices ![0, 4096] S512x2048
  bcast_S1x2048_S512x2048_0_1 : S1x2048.BroadcastsInDim S512x2048 (![0, 1] : Fin 2 → Fin S512x2048.rank)
  transposes_S512x2048_S2048x512_1_0 : S512x2048.Transposes [1, 0] S2048x512
  bcast_S_S2048x2048 : S_.BroadcastsInDim S2048x2048 (![] : Fin 0 → Fin S2048x2048.rank)
  dot_S512x1024_S1024x6144_S512x6144_1_0_0_1_n_n_wf : DotDims.WF S512x1024 S1024x6144 S512x6144 [1] [0] [0] [1] [] []
  dot_S512x2048_S2048x6144_S512x6144_1_0_0_1_n_n_wf : DotDims.WF S512x2048 S2048x6144 S512x6144 [1] [0] [0] [1] [] []
  dot_S512x2048_S2048x2048_S512x2048_1_0_0_1_n_n_wf : DotDims.WF S512x2048 S2048x2048 S512x2048 [1] [0] [0] [1] [] []
  dot_S2048x512_S512x2048_S2048x2048_1_0_0_1_n_n_wf : DotDims.WF S2048x512 S512x2048 S2048x2048 [1] [0] [0] [1] [] []

variable [Facts₀]

def dot_S512x1024_S1024x6144_S512x6144_1_0_0_1_n_n : DotDims S512x1024 S1024x6144 S512x6144 where
  lhsContracting := [1]
  rhsContracting := [0]
  lhsNonContracting := [0]
  rhsNonContracting := [1]
  lhsBatch := []
  rhsBatch := []
  wf := dot_S512x1024_S1024x6144_S512x6144_1_0_0_1_n_n_wf
def dot_S512x2048_S2048x6144_S512x6144_1_0_0_1_n_n : DotDims S512x2048 S2048x6144 S512x6144 where
  lhsContracting := [1]
  rhsContracting := [0]
  lhsNonContracting := [0]
  rhsNonContracting := [1]
  lhsBatch := []
  rhsBatch := []
  wf := dot_S512x2048_S2048x6144_S512x6144_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

class Facts : Prop extends Facts₀ where

variable [Facts]
-- ==== Proof.GateBody.lean ====
import proofs.«137782_j89696097009958_1_alg».proof.Proof.Gen.KernelIdeal.Launch
import proofs.«137782_j89696097009958_1_alg».proof.Proof.Gen.KernelIdeal.Skeleton
import proofs.«137782_j89696097009958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-!
  Region 0 of the program: the gate kernel, one grid point per block of 128 hidden units.

  At a point the body is handed eighteen input blocks (the whole of x and of h; the point's 128 columns of v, of the
  trace and of alpha; the point's 128 rows of the plastic matrix and of the six weight slices; the point's 128 entries of
  the six bias slices) and writes three output blocks, each by ONE whole-block store. What it stores is a composition of
  the kernel's named payloads over those eighteen blocks (outV, outH, outT below): the block of the new membrane
  values, of the new hidden values and of the new trace. The proof data of the pipeline says exactly that, for any
  contents V the region is entered with, and the body obligation is the body's run at a generic point.
-/
namespace Cert.KernelIdeal.Gate
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores, as functions of the eighteen blocks it loads -/

section Stored

variable (x : Vec F S512x1024 .f32) (h : Vec F S512x2048 .f32) (v tr : Vec F S512x128 .f32) (al : Vec F S1x128 .f32) (du : Vec F S128x2048 .f32)
  (wxz wxr wxv : Vec F S128x1024 .f32) (whz whr whv : Vec F S128x2048 .f32) (bxz bxr bxv bhz bhr bhv : Vec F S1x128 .f32)

/-- The update gate on the block: the logistic of the two affine maps' sum (x against the block's rows of the first
    weight slice, h against the block's rows of the fourth). -/
def zGate : FVec F S512x128 .f32 := k0_pay10 (k0_pay5 x wxz bxz) (k0_pay8 h whz) (k0_pay9 bhz)
/-- The reset gate on the block. -/
def rGate : FVec F S512x128 .f32 := k0_pay11 (k0_pay4 h) (k0_pay6 x wxr bxr) whr bhr
/-- The block of new membrane values. -/
def outV : FVec F S512x128 .f32 := k0_pay12 (k0_pay4 h) (k0_pay5 x wxz bxz) (k0_pay6 x wxr bxr) (k0_pay7 x wxv bxv) (k0_pay8 h whz) (k0_pay9 bhz) whr bhr whv bhv du al v
/-- Its positive part. -/
def rect : FVec F S512x128 .f32 := k0_pay13 (k0_pay4 h) (k0_pay5 x wxz bxz) (k0_pay6 x wxr bxr) (k0_pay7 x wxv bxv) (k0_pay8 h whz) (k0_pay9 bhz) whr bhr whv bhv du al v
/-- The block of new hidden values. -/
def outH : FVec F S512x128 .f32 := k0_pay1 (rect x h v al du wxz wxr wxv whz whr whv bxz bxr bxv bhz bhr bhv) k0_pay14
/-- The block of the new trace. -/
def outT : FVec F S512x128 .f32 :=
  k0_pay2 (zGate x h wxz whz bxz bhz) (rGate x h wxr whr bxr bhr) (rect x h v al du wxz wxr wxv whz whr whv bxz bxr bxv bhz bhr bhv) k0_pay14 tr

end Stored

/-! ## Whole-block loads and stores

Every access of the body is through the rectangle of its buffer's own extents at zero offsets. -/

/-- The offsets of a whole-block access of a two-axis buffer are all zero. -/
theorem off0 : (![0, 0] : Fin 2 → ℕ) = fun _ => 0 := funext fun a => by fin_cases a <;> rfl

section Whole

variable {sg : RefSig} {κ : Kind} {sp : Space} {e : EltTy}

/-- A load through the whole-block rectangle of a two-axis buffer reads the buffer's contents. -/
theorem readAt_whole {sz : Fin 2 → ℕ} (v : View sg κ sp ⟨2, sz⟩ e) (f : v.ty.Contents (Elt F))
    (inb : ∀ a, (![0, 0] : Fin 2 → ℕ) a + sz a ≤ (⟨2, sz⟩ : Shape).size a) :
    v.readAt (Elt F) (Rect.unit (s := ⟨2, sz⟩) ![0, 0] sz inb).toLoadRect f = v.read (Elt F) f := by
  rw [View.readAt_eq_ld]; exact View.ld_unit_zero (S := ⟨2, sz⟩) off0 inb _

/-- One store through the whole-block rectangle leaves its payload, whatever the buffer held: the rectangle holds every
    index, so the store covers the buffer, and what a covering list of stores leaves is read off the stores alone. -/
theorem read_store_whole {S : Shape} (v : View sg κ sp S e) (f : v.ty.Contents (Elt F)) {off : Fin S.rank → ℕ} (hoff : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hoff inb y⟩),
    View.canon_unit_zero hoff inb w]

end Whole

/-! ## The body's triple -/

set_option maxHeartbeats 2000000 in
/-- The kernel on whole staging buffers, the eighteen inputs' at read contents and the three outputs' at anything, runs to
    the continuation holding the inputs' as they were and the outputs' at the three stored blocks of the inputs' contents.
    After the run each output's buffer holds one whole-block store over what it held, and the store's payload is the
    kernel's composition of payloads over whole-block loads of the inputs' buffers: such a store leaves its payload, such a
    load reads the contents, and the two sides are then the same term. -/
theorem sound_kernel (c : Dev nD) (E : Set ℕ) (i : grid0.Coords)
    (a_x : Memref sig .tc .vmem S512x1024 .f32) (h_x : a_x.IsWhole) (a_h : Memref sig .tc .vmem S512x2048 .f32) (h_h : a_h.IsWhole)
    (a_v : Memref sig .tc .vmem S512x128 .f32) (h_v : a_v.IsWhole) (a_tr : Memref sig .tc .vmem S512x128 .f32) (h_tr : a_tr.IsWhole)
    (a_al : Memref sig .tc .vmem S1x128 .f32) (h_al : a_al.IsWhole) (a_du : Memref sig .tc .vmem S128x2048 .f32) (h_du : a_du.IsWhole)
    (a_wxz : Memref sig .tc .vmem S128x1024 .f32) (h_wxz : a_wxz.IsWhole) (a_wxr : Memref sig .tc .vmem S128x1024 .f32) (h_wxr : a_wxr.IsWhole)
    (a_wxv : Memref sig .tc .vmem S128x1024 .f32) (h_wxv : a_wxv.IsWhole)
    (a_whz : Memref sig .tc .vmem S128x2048 .f32) (h_whz : a_whz.IsWhole) (a_whr : Memref sig .tc .vmem S128x2048 .f32) (h_whr : a_whr.IsWhole)
    (a_whv : Memref sig .tc .vmem S128x2048 .f32) (h_whv : a_whv.IsWhole)
    (a_bxz : Memref sig .tc .vmem S1x128 .f32) (h_bxz : a_bxz.IsWhole) (a_bxr : Memref sig .tc .vmem S1x128 .f32) (h_bxr : a_bxr.IsWhole)
    (a_bxv : Memref sig .tc .vmem S1x128 .f32) (h_bxv : a_bxv.IsWhole)
    (a_bhz : Memref sig .tc .vmem S1x128 .f32) (h_bhz : a_bhz.IsWhole) (a_bhr : Memref sig .tc .vmem S1x128 .f32) (h_bhr : a_bhr.IsWhole)
    (a_bhv : Memref sig .tc .vmem S1x128 .f32) (h_bhv : a_bhv.IsWhole)
    (a_ov : Memref sig .tc .vmem S512x128 .f32) (h_ov : a_ov.IsWhole) (a_oh : Memref sig .tc .vmem S512x128 .f32) (h_oh : a_oh.IsWhole)
    (a_ot : Memref sig .tc .vmem S512x128 .f32) (h_ot : a_ot.IsWhole)
    (x : Vec F S512x1024 .f32) (h : Vec F S512x2048 .f32) (v tr : Vec F S512x128 .f32) (al : Vec F S1x128 .f32) (du : Vec F S128x2048 .f32)
    (wxz wxr wxv : Vec F S128x1024 .f32) (whz whr whv : Vec F S128x2048 .f32) (bxz bxr bxv bhz bhr bhv : Vec F S1x128 .f32)
    (K : PUnit → sProp 𝕄) :
    iprop(owns (c : Thread nD τ) a_x fullShare x ∗ owns (c : Thread nD τ) a_h fullShare h ∗ owns (c : Thread nD τ) a_v fullShare v
        ∗ owns (c : Thread nD τ) a_tr fullShare tr ∗ owns (c : Thread nD τ) a_al fullShare al ∗ owns (c : Thread nD τ) a_du fullShare du
        ∗ owns (c : Thread nD τ) a_wxz fullShare wxz ∗ owns (c : Thread nD τ) a_wxr fullShare wxr ∗ owns (c : Thread nD τ) a_wxv fullShare wxv
        ∗ owns (c : Thread nD τ) a_whz fullShare whz ∗ owns (c : Thread nD τ) a_whr fullShare whr ∗ owns (c : Thread nD τ) a_whv fullShare whv
        ∗ owns (c : Thread nD τ) a_bxz fullShare bxz ∗ owns (c : Thread nD τ) a_bxr fullShare bxr ∗ owns (c : Thread nD τ) a_bxv fullShare bxv
        ∗ owns (c : Thread nD τ) a_bhz fullShare bhz ∗ owns (c : Thread nD τ) a_bhr fullShare bhr ∗ owns (c : Thread nD τ) a_bhv fullShare bhv
        ∗ (∃ d, owns (c : Thread nD τ) a_ov fullShare d) ∗ (∃ d, owns (c : Thread nD τ) a_oh fullShare d) ∗ (∃ d, owns (c : Thread nD τ) a_ot fullShare d)
        ∗ (iprop(owns (c : Thread nD τ) a_x fullShare x ∗ owns (c : Thread nD τ) a_h fullShare h ∗ owns (c : Thread nD τ) a_v fullShare v
            ∗ owns (c : Thread nD τ) a_tr fullShare tr ∗ owns (c : Thread nD τ) a_al fullShare al ∗ owns (c : Thread nD τ) a_du fullShare du
            ∗ owns (c : Thread nD τ) a_wxz fullShare wxz ∗ owns (c : Thread nD τ) a_wxr fullShare wxr ∗ owns (c : Thread nD τ) a_wxv fullShare wxv
            ∗ owns (c : Thread nD τ) a_whz fullShare whz ∗ owns (c : Thread nD τ) a_whr fullShare whr ∗ owns (c : Thread nD τ) a_whv fullShare whv
            ∗ owns (c : Thread nD τ) a_bxz fullShare bxz ∗ owns (c : Thread nD τ) a_bxr fullShare bxr ∗ owns (c : Thread nD τ) a_bxv fullShare bxv
            ∗ owns (c : Thread nD τ) a_bhz fullShare bhz ∗ owns (c : Thread nD τ) a_bhr fullShare bhr ∗ owns (c : Thread nD τ) a_bhv fullShare bhv
            ∗ owns (c : Thread nD τ) a_ov fullShare (outV x h v al du wxz wxr wxv whz whr whv bxz bxr bxv bhz bhr bhv)
            ∗ owns (c : Thread nD τ) a_oh fullShare (outH x h v al du wxz wxr wxv whz whr whv bxz bxr bxv bhz bhr bhv)
            ∗ owns (c : Thread nD τ) a_ot fullShare (outT x h v tr al du wxz wxr wxv whz whr whv bxz bxr bxv bhz bhr bhv)) -∗ K ⟨⟩))
      ⊢ wp frame (wpE (defs₀ (F := F)) Variants.none c none) E
          (cc0__gate_kernel i a_x h_x a_h h_h a_v h_v a_tr h_tr a_al h_al a_du h_du a_wxz h_wxz a_wxr h_wxr a_wxv h_wxv a_whz h_whz a_whr h_whr
            a_whv h_whv a_bxz h_bxz a_bxr h_bxr a_bxv h_bxv a_bhz h_bhz a_bhr h_bhr a_bhv h_bhv a_ov h_ov a_oh h_oh a_ot h_ot) K := by
  simp only [cc0__gate_kernel_eq_skeleton]; unfold cc0__gate_kernel_skel
  unfold owns
  iintro ⟨⟨%f_x, %hf_x, H_x⟩, ⟨%f_h, %hf_h, H_h⟩, ⟨%f_v, %hf_v, H_v⟩, ⟨%f_tr, %hf_tr, H_tr⟩, ⟨%f_al, %hf_al, H_al⟩, ⟨%f_du, %hf_du, H_du⟩,
    ⟨%f_wxz, %hf_wxz, H_wxz⟩, ⟨%f_wxr, %hf_wxr, H_wxr⟩, ⟨%f_wxv, %hf_wxv, H_wxv⟩, ⟨%f_whz, %hf_whz, H_whz⟩, ⟨%f_whr, %hf_whr, H_whr⟩,
    ⟨%f_whv, %hf_whv, H_whv⟩, ⟨%f_bxz, %hf_bxz, H_bxz⟩, ⟨%f_bxr, %hf_bxr, H_bxr⟩, ⟨%f_bxv, %hf_bxv, H_bxv⟩, ⟨%f_bhz, %hf_bhz, H_bhz⟩,
    ⟨%f_bhr, %hf_bhr, H_bhr⟩, ⟨%f_bhv, %hf_bhv, H_bhv⟩, ⟨%d_ov, %f_ov, -, H_ov⟩, ⟨%d_oh, %f_oh, -, H_oh⟩, ⟨%d_ot, %f_ot, -, H_ot⟩, Hk⟩
  subst hf_x; subst hf_h; subst hf_v; subst hf_tr; subst hf_al; subst hf_du; subst hf_wxz; subst hf_wxr; subst hf_wxv; subst hf_whz; subst hf_whr
  subst hf_whv; subst hf_bxz; subst hf_bxr; subst hf_bxv; subst hf_bhz; subst hf_bhr; subst hf_bhv
  sl_exec
  sl_step
  sl_unfold_run_names
  iapply Hk
  isplitl [H_x]
  · iexists f_x; isplitr; · ipureintro; rfl
    iexact H_x
  isplitl [H_h]
  · iexists f_h; isplitr; · ipureintro; rfl
    iexact H_h
  isplitl [H_v]
  · iexists f_v; isplitr; · ipureintro; rfl
    iexact H_v
  isplitl [H_tr]
  · iexists f_tr; isplitr; · ipureintro; rfl
    iexact H_tr
  isplitl [H_al]
  · iexists f_al; isplitr; · ipureintro; rfl
    iexact H_al
  isplitl [H_du]
  · iexists f_du; isplitr; · ipureintro; rfl
    iexact H_du
  isplitl [H_wxz]
  · iexists f_wxz; isplitr; · ipureintro; rfl
    iexact H_wxz
  isplitl [H_wxr]
  · iexists f_wxr; isplitr; · ipureintro; rfl
    iexact H_wxr
  isplitl [H_wxv]
  · iexists f_wxv; isplitr; · ipureintro; rfl
    iexact H_wxv
  isplitl [H_whz]
  · iexists f_whz; isplitr; · ipureintro; rfl
    iexact H_whz
  isplitl [H_whr]
  · iexists f_whr; isplitr; · ipureintro; rfl
    iexact H_whr
  isplitl [H_whv]
  · iexists f_whv; isplitr; · ipureintro; rfl
    iexact H_whv
  isplitl [H_bxz]
  · iexists f_bxz; isplitr; · ipureintro; rfl
    iexact H_bxz
  isplitl [H_bxr]
  · iexists f_bxr; isplitr; · ipureintro; rfl
    iexact H_bxr
  isplitl [H_bxv]
  · iexists f_bxv; isplitr; · ipureintro; rfl
    iexact H_bxv
  isplitl [H_bhz]
  · iexists f_bhz; isplitr; · ipureintro; rfl
    iexact H_bhz
  isplitl [H_bhr]
  · iexists f_bhr; isplitr; · ipureintro; rfl
    iexact H_bhr
  isplitl [H_bhv]
  · iexists f_bhv; isplitr; · ipureintro; rfl
    iexact H_bhv
  isplitl [H_ov]
  · iexists _; isplitr
    swap; · iexact H_ov
    ipureintro
    rw [read_store_whole _ _ off0]
    unfold outV
    simp only [readAt_whole]
  isplitl [H_oh]
  · iexists _; isplitr
    swap; · iexact H_oh
    ipureintro
    rw [read_store_whole _ _ off0]
    unfold outH rect
    simp only [readAt_whole]
  iexists _; isplitr
  swap; · iexact H_ot
  ipureintro
  rw [read_store_whole _ _ off0]
  unfold outT zGate rGate rect
  simp only [readAt_whole]

/-! ## The proof data, at the contents V the region is entered with -/

variable (V : (c : Dev nD) → (b : Ref sig .tc) → Buf (Elt F) ((c : Thread nD τ).loc b))

/-- Window w's block at point t, read off its array as the region finds it. -/
noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data on core c: every array as entered; an input's buffer keeps its block; the three outputs'
    buffers hold the stored blocks; the class invariant (scoped rest and generator register, untouched); nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => outV (iblk V c 0 t) (iblk V c 1 t) (iblk V c 2 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t)
    | ⟨19, _⟩ => outH (iblk V c 0 t) (iblk V c 1 t) (iblk V c 2 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t)
    | ⟨20, _⟩ => outT (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t)
    | ⟨_ + 21, h⟩ => absurd h (Nat.not_lt.2 (Nat.le_add_left _ _))
  Φ _ := Pipeline.ΦA spec0 c
  q _ := fullShare
  owed _ := 0

theorem dat_A (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = iblk V c 13 t := by dsimp only [dat]
theorem after_14 (c : Dev nD) (t : Fin cfg0.N) : (dat V c).after 14 t = iblk V c 14 t := by dsimp only [dat]
theorem after_15 (c : Dev nD) (t : Fin cfg0.N) : (dat V c).after 15 t = iblk V c 15 t := by dsimp only [dat]
theorem after_16 (c : Dev nD) (t : Fin cfg0.N) : (dat V c).after 16 t = iblk V c 16 t := by dsimp only [dat]
theorem after_17 (c : Dev nD) (t : Fin cfg0.N) : (dat V c).after 17 t = iblk V c 17 t := by dsimp only [dat]
theorem after_18 (c : Dev nD) (t : Fin cfg0.N) : (dat V c).after 18 t = outV (iblk V c 0 t) (iblk V c 1 t) (iblk V c 2 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) := by dsimp only [dat]
theorem after_19 (c : Dev nD) (t : Fin cfg0.N) : (dat V c).after 19 t = outH (iblk V c 0 t) (iblk V c 1 t) (iblk V c 2 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) := by dsimp only [dat]
theorem after_20 (c : Dev nD) (t : Fin cfg0.N) : (dat V c).after 20 t = outT (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) := by dsimp only [dat]

/-! ## What the body finds in an input window's buffer

An input window's current buffer holds the window's block at every point, fetched there or not: where the pipeline does not
fetch, the block index is the previous point's, and the body left that point's block in place. Each window is uncut and
never idle, so a fetch fills the whole buffer with the block. Stated of any proof data over the entered arrays whose body
leaves the block where it found it; windows 0 and 1 are fetched at the first point only, the rest at every point, and the
one argument serves both. -/

theorem before_0_of {c : Dev nD} (D : Dat τ (Elt F) Unit ℕ (UR sig nD τ) ℕ cfg0 c) (hA : D.A 0 = V c (Pipeline.arrRef spec0 0))
    (hafter : ∀ t, D.after 0 t = iblk V c 0 t) (t : Fin cfg0.N) (d) : D.before 0 t d = iblk V c 0 t := by
  have hblock : ∀ s, D.blockOf 0 s = iblk V c 0 s := fun s => by unfold Dat.blockOf iblk; rw [hA]
  have hkeep : ∀ s, (cfg0.win 0).cut (cfg0.grid.coords s) (D.after 0 s) = D.blockOf 0 s := fun s => by rw [hafter, hblock]
  have hfill : D.fetched 0 t d = D.blockOf 0 t := rfl
  rw [D.before_in_eq_fetched 0 rfl (fun _ => rfl) (fun _ _ _ => rfl) hkeep t d, hfill, hblock]

theorem before_1_of {c : Dev nD} (D : Dat τ (Elt F) Unit ℕ (UR sig nD τ) ℕ cfg0 c) (hA : D.A 1 = V c (Pipeline.arrRef spec0 1))
    (hafter : ∀ t, D.after 1 t = iblk V c 1 t) (t : Fin cfg0.N) (d) : D.before 1 t d = iblk V c 1 t := by
  have hblock : ∀ s, D.blockOf 1 s = iblk V c 1 s := fun s => by unfold Dat.blockOf iblk; rw [hA]
  have hkeep : ∀ s, (cfg0.win 1).cut (cfg0.grid.coords s) (D.after 1 s) = D.blockOf 1 s := fun s => by rw [hafter, hblock]
  have hfill : D.fetched 1 t d = D.blockOf 1 t := rfl
  rw [D.before_in_eq_fetched 1 rfl (fun _ => rfl) (fun _ _ _ => rfl) hkeep t d, hfill, hblock]

theorem before_2_of {c : Dev nD} (D : Dat τ (Elt F) Unit ℕ (UR sig nD τ) ℕ cfg0 c) (hA : D.A 2 = V c (Pipeline.arrRef spec0 2))
    (hafter : ∀ t, D.after 2 t = iblk V c 2 t) (t : Fin cfg0.N) (d) : D.before 2 t d = iblk V c 2 t := by
  have hblock : ∀ s, D.blockOf 2 s = iblk V c 2 s := fun s => by unfold Dat.blockOf iblk; rw [hA]
  have hkeep : ∀ s, (cfg0.win 2).cut (cfg0.grid.coords s) (D.after 2 s) = D.blockOf 2 s := fun s => by rw [hafter, hblock]
  have hfill : D.fetched 2 t d = D.blockOf 2 t := rfl
  rw [D.before_in_eq_fetched 2 rfl (fun _ => rfl) (fun _ _ _ => rfl) hkeep t d, hfill, hblock]

theorem before_3_of {c : Dev nD} (D : Dat τ (Elt F) Unit ℕ (UR sig nD τ) ℕ cfg0 c) (hA : D.A 3 = V c (Pipeline.arrRef spec0 3))
    (hafter : ∀ t, D.after 3 t = iblk V c 3 t) (t : Fin cfg0.N) (d) : D.before 3 t d = iblk V c 3 t := by
  have hblock : ∀ s, D.blockOf 3 s = iblk V c 3 s := fun s => by unfold Dat.blockOf iblk; rw [hA]
  have hkeep : ∀ s, (cfg0.win 3).cut (cfg0.grid.coords s) (D.after 3 s) = D.blockOf 3 s := fun s => by rw [hafter, hblock]
  have hfill : D.fetched 3 t d = D.blockOf 3 t := rfl
  rw [D.before_in_eq_fetched 3 rfl (fun _ => rfl) (fun _ _ _ => rfl) hkeep t d, hfill, hblock]

theorem before_4_of {c : Dev nD} (D : Dat τ (Elt F) Unit ℕ (UR sig nD τ) ℕ cfg0 c) (hA : D.A 4 = V c (Pipeline.arrRef spec0 4))
    (hafter : ∀ t, D.after 4 t = iblk V c 4 t) (t : Fin cfg0.N) (d) : D.before 4 t d = iblk V c 4 t := by
  have hblock : ∀ s, D.blockOf 4 s = iblk V c 4 s := fun s => by unfold Dat.blockOf iblk; rw [hA]
  have hkeep : ∀ s, (cfg0.win 4).cut (cfg0.grid.coords s) (D.after 4 s) = D.blockOf 4 s := fun s => by rw [hafter, hblock]
  have hfill : D.fetched 4 t d = D.blockOf 4 t := rfl
  rw [D.before_in_eq_fetched 4 rfl (fun _ => rfl) (fun _ _ _ => rfl) hkeep t d, hfill, hblock]

theorem before_5_of {c : Dev nD} (D : Dat τ (Elt F) Unit ℕ (UR sig nD τ) ℕ cfg0 c) (hA : D.A 5 = V c (Pipeline.arrRef spec0 5))
    (hafter : ∀ t, D.after 5 t = iblk V c 5 t) (t : Fin cfg0.N) (d) : D.before 5 t d = iblk V c 5 t := by
  have hblock : ∀ s, D.blockOf 5 s = iblk V c 5 s := fun s => by unfold Dat.blockOf iblk; rw [hA]
  have hkeep : ∀ s, (cfg0.win 5).cut (cfg0.grid.coords s) (D.after 5 s) = D.blockOf 5 s := fun s => by rw [hafter, hblock]
  have hfill : D.fetched 5 t d = D.blockOf 5 t := rfl
  rw [D.before_in_eq_fetched 5 rfl (fun _ => rfl) (fun _ _ _ => rfl) hkeep t d, hfill, hblock]

theorem before_6_of {c : Dev nD} (D : Dat τ (Elt F) Unit ℕ (UR sig nD τ) ℕ cfg0 c) (hA : D.A 6 = V c (Pipeline.arrRef spec0 6))
    (hafter : ∀ t, D.after 6 t = iblk V c 6 t) (t : Fin cfg0.N) (d) : D.before 6 t d = iblk V c 6 t := by
  have hblock : ∀ s, D.blockOf 6 s = iblk V c 6 s := fun s => by unfold Dat.blockOf iblk; rw [hA]
  have hkeep : ∀ s, (cfg0.win 6).cut (cfg0.grid.coords s) (D.after 6 s) = D.blockOf 6 s := fun s => by rw [hafter, hblock]
  have hfill : D.fetched 6 t d = D.blockOf 6 t := rfl
  rw [D.before_in_eq_fetched 6 rfl (fun _ => rfl) (fun _ _ _ => rfl) hkeep t d, hfill, hblock]

theorem before_7_of {c : Dev nD} (D : Dat τ (Elt F) Unit ℕ (UR sig nD τ) ℕ cfg0 c) (hA : D.A 7 = V c (Pipeline.arrRef spec0 7))
    (hafter : ∀ t, D.after 7 t = iblk V c 7 t) (t : Fin cfg0.N) (d) : D.before 7 t d = iblk V c 7 t := by
  have hblock : ∀ s, D.blockOf 7 s = iblk V c 7 s := fun s => by unfold Dat.blockOf iblk; rw [hA]
  have hkeep : ∀ s, (cfg0.win 7).cut (cfg0.grid.coords s) (D.after 7 s) = D.blockOf 7 s := fun s => by rw [hafter, hblock]
  have hfill : D.fetched 7 t d = D.blockOf 7 t := rfl
  rw [D.before_in_eq_fetched 7 rfl (fun _ => rfl) (fun _ _ _ => rfl) hkeep t d, hfill, hblock]

theorem before_8_of {c : Dev nD} (D : Dat τ (Elt F) Unit ℕ (UR sig nD τ) ℕ cfg0 c) (hA : D.A 8 = V c (Pipeline.arrRef spec0 8))
    (hafter : ∀ t, D.after 8 t = iblk V c 8 t) (t : Fin cfg0.N) (d) : D.before 8 t d = iblk V c 8 t := by
  have hblock : ∀ s, D.blockOf 8 s = iblk V c 8 s := fun s => by unfold Dat.blockOf iblk; rw [hA]
  have hkeep : ∀ s, (cfg0.win 8).cut (cfg0.grid.coords s) (D.after 8 s) = D.blockOf 8 s := fun s => by rw [hafter, hblock]
  have hfill : D.fetched 8 t d = D.blockOf 8 t := rfl
  rw [D.before_in_eq_fetched 8 rfl (fun _ => rfl) (fun _ _ _ => rfl) hkeep t d, hfill, hblock]

theorem before_9_of {c : Dev nD} (D : Dat τ (Elt F) Unit ℕ (UR sig nD τ) ℕ cfg0 c) (hA : D.A 9 = V c (Pipeline.arrRef spec0 9))
    (hafter : ∀ t, D.after 9 t = iblk V c 9 t) (t : Fin cfg0.N) (d) : D.before 9 t d = iblk V c 9 t := by
  have hblock : ∀ s, D.blockOf 9 s = iblk V c 9 s := fun s => by unfold Dat.blockOf iblk; rw [hA]
  have hkeep : ∀ s, (cfg0.win 9).cut (cfg0.grid.coords s) (D.after 9 s) = D.blockOf 9 s := fun s => by rw [hafter, hblock]
  have hfill : D.fetched 9 t d = D.blockOf 9 t := rfl
  rw [D.before_in_eq_fetched 9 rfl (fun _ => rfl) (fun _ _ _ => rfl) hkeep t d, hfill, hblock]

theorem before_10_of {c : Dev nD} (D : Dat τ (Elt F) Unit ℕ (UR sig nD τ) ℕ cfg0 c) (hA : D.A 10 = V c (Pipeline.arrRef spec0 10))
    (hafter : ∀ t, D.after 10 t = iblk V c 10 t) (t : Fin cfg0.N) (d) : D.before 10 t d = iblk V c 10 t := by
  have hblock : ∀ s, D.blockOf 10 s = iblk V c 10 s := fun s => by unfold Dat.blockOf iblk; rw [hA]
  have hkeep : ∀ s, (cfg0.win 10).cut (cfg0.grid.coords s) (D.after 10 s) = D.blockOf 10 s := fun s => by rw [hafter, hblock]
  have hfill : D.fetched 10 t d = D.blockOf 10 t := rfl
  rw [D.before_in_eq_fetched 10 rfl (fun _ => rfl) (fun _ _ _ => rfl) hkeep t d, hfill, hblock]

theorem before_11_of {c : Dev nD} (D : Dat τ (Elt F) Unit ℕ (UR sig nD τ) ℕ cfg0 c) (hA : D.A 11 = V c (Pipeline.arrRef spec0 11))
    (hafter : ∀ t, D.after 11 t = iblk V c 11 t) (t : Fin cfg0.N) (d) : D.before 11 t d = iblk V c 11 t := by
  have hblock : ∀ s, D.blockOf 11 s = iblk V c 11 s := fun s => by unfold Dat.blockOf iblk; rw [hA]
  have hkeep : ∀ s, (cfg0.win 11).cut (cfg0.grid.coords s) (D.after 11 s) = D.blockOf 11 s := fun s => by rw [hafter, hblock]
  have hfill : D.fetched 11 t d = D.blockOf 11 t := rfl
  rw [D.before_in_eq_fetched 11 rfl (fun _ => rfl) (fun _ _ _ => rfl) hkeep t d, hfill, hblock]

theorem before_12_of {c : Dev nD} (D : Dat τ (Elt F) Unit ℕ (UR sig nD τ) ℕ cfg0 c) (hA : D.A 12 = V c (Pipeline.arrRef spec0 12))
    (hafter : ∀ t, D.after 12 t = iblk V c 12 t) (t : Fin cfg0.N) (d) : D.before 12 t d = iblk V c 12 t := by
  have hblock : ∀ s, D.blockOf 12 s = iblk V c 12 s := fun s => by unfold Dat.blockOf iblk; rw [hA]
  have hkeep : ∀ s, (cfg0.win 12).cut (cfg0.grid.coords s) (D.after 12 s) = D.blockOf 12 s := fun s => by rw [hafter, hblock]
  have hfill : D.fetched 12 t d = D.blockOf 12 t := rfl
  rw [D.before_in_eq_fetched 12 rfl (fun _ => rfl) (fun _ _ _ => rfl) hkeep t d, hfill, hblock]

theorem before_13_of {c : Dev nD} (D : Dat τ (Elt F) Unit ℕ (UR sig nD τ) ℕ cfg0 c) (hA : D.A 13 = V c (Pipeline.arrRef spec0 13))
    (hafter : ∀ t, D.after 13 t = iblk V c 13 t) (t : Fin cfg0.N) (d) : D.before 13 t d = iblk V c 13 t := by
  have hblock : ∀ s, D.blockOf 13 s = iblk V c 13 s := fun s => by unfold Dat.blockOf iblk; rw [hA]
  have hkeep : ∀ s, (cfg0.win 13).cut (cfg0.grid.coords s) (D.after 13 s) = D.blockOf 13 s := fun s => by rw [hafter, hblock]
  have hfill : D.fetched 13 t d = D.blockOf 13 t := rfl
  rw [D.before_in_eq_fetched 13 rfl (fun _ => rfl) (fun _ _ _ => rfl) hkeep t d, hfill, hblock]

theorem before_14_of {c : Dev nD} (D : Dat τ (Elt F) Unit ℕ (UR sig nD τ) ℕ cfg0 c) (hA : D.A 14 = V c (Pipeline.arrRef spec0 14))
    (hafter : ∀ t, D.after 14 t = iblk V c 14 t) (t : Fin cfg0.N) (d) : D.before 14 t d = iblk V c 14 t := by
  have hblock : ∀ s, D.blockOf 14 s = iblk V c 14 s := fun s => by unfold Dat.blockOf iblk; rw [hA]
  have hkeep : ∀ s, (cfg0.win 14).cut (cfg0.grid.coords s) (D.after 14 s) = D.blockOf 14 s := fun s => by rw [hafter, hblock]
  have hfill : D.fetched 14 t d = D.blockOf 14 t := rfl
  rw [D.before_in_eq_fetched 14 rfl (fun _ => rfl) (fun _ _ _ => rfl) hkeep t d, hfill, hblock]

theorem before_15_of {c : Dev nD} (D : Dat τ (Elt F) Unit ℕ (UR sig nD τ) ℕ cfg0 c) (hA : D.A 15 = V c (Pipeline.arrRef spec0 15))
    (hafter : ∀ t, D.after 15 t = iblk V c 15 t) (t : Fin cfg0.N) (d) : D.before 15 t d = iblk V c 15 t := by
  have hblock : ∀ s, D.blockOf 15 s = iblk V c 15 s := fun s => by unfold Dat.blockOf iblk; rw [hA]
  have hkeep : ∀ s, (cfg0.win 15).cut (cfg0.grid.coords s) (D.after 15 s) = D.blockOf 15 s := fun s => by rw [hafter, hblock]
  have hfill : D.fetched 15 t d = D.blockOf 15 t := rfl
  rw [D.before_in_eq_fetched 15 rfl (fun _ => rfl) (fun _ _ _ => rfl) hkeep t d, hfill, hblock]

theorem before_16_of {c : Dev nD} (D : Dat τ (Elt F) Unit ℕ (UR sig nD τ) ℕ cfg0 c) (hA : D.A 16 = V c (Pipeline.arrRef spec0 16))
    (hafter : ∀ t, D.after 16 t = iblk V c 16 t) (t : Fin cfg0.N) (d) : D.before 16 t d = iblk V c 16 t := by
  have hblock : ∀ s, D.blockOf 16 s = iblk V c 16 s := fun s => by unfold Dat.blockOf iblk; rw [hA]
  have hkeep : ∀ s, (cfg0.win 16).cut (cfg0.grid.coords s) (D.after 16 s) = D.blockOf 16 s := fun s => by rw [hafter, hblock]
  have hfill : D.fetched 16 t d = D.blockOf 16 t := rfl
  rw [D.before_in_eq_fetched 16 rfl (fun _ => rfl) (fun _ _ _ => rfl) hkeep t d, hfill, hblock]

theorem before_17_of {c : Dev nD} (D : Dat τ (Elt F) Unit ℕ (UR sig nD τ) ℕ cfg0 c) (hA : D.A 17 = V c (Pipeline.arrRef spec0 17))
    (hafter : ∀ t, D.after 17 t = iblk V c 17 t) (t : Fin cfg0.N) (d) : D.before 17 t d = iblk V c 17 t := by
  have hblock : ∀ s, D.blockOf 17 s = iblk V c 17 s := fun s => by unfold Dat.blockOf iblk; rw [hA]
  have hkeep : ∀ s, (cfg0.win 17).cut (cfg0.grid.coords s) (D.after 17 s) = D.blockOf 17 s := fun s => by rw [hafter, hblock]
  have hfill : D.fetched 17 t d = D.blockOf 17 t := rfl
  rw [D.before_in_eq_fetched 17 rfl (fun _ => rfl) (fun _ _ _ => rfl) hkeep t d, hfill, hblock]

/-! ## The body obligation, at a generic point -/

/-- What the body is handed at point t: the invariant, what the core owes, and each window's current buffer at what it
    then holds, the twenty-one windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d))
    ∗ (∃ d, owns (c : Thread nD τ) (st0_15 t) fullShare ((dat V c).before 15 t d))
    ∗ (∃ d, owns (c : Thread nD τ) (st0_16 t) fullShare ((dat V c).before 16 t d))
    ∗ (∃ d, owns (c : Thread nD τ) (st0_17 t) fullShare ((dat V c).before 17 t d))
    ∗ (∃ d, owns (c : Thread nD τ) (st0_18 t) fullShare ((dat V c).before 18 t d))
    ∗ (∃ d, owns (c : Thread nD τ) (st0_19 t) fullShare ((dat V c).before 19 t d))
    ∗ (∃ d, owns (c : Thread nD τ) (st0_20 t) fullShare ((dat V c).before 20 t d)))

/-- What it hands back: the invariant and the owed at the next point, each buffer at what the body leaves in it. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t)
    ∗ owns (c : Thread nD τ) (st0_13 t) fullShare ((dat V c).after 13 t)
    ∗ owns (c : Thread nD τ) (st0_14 t) fullShare ((dat V c).after 14 t)
    ∗ owns (c : Thread nD τ) (st0_15 t) fullShare ((dat V c).after 15 t)
    ∗ owns (c : Thread nD τ) (st0_16 t) fullShare ((dat V c).after 16 t)
    ∗ owns (c : Thread nD τ) (st0_17 t) fullShare ((dat V c).after 17 t)
    ∗ owns (c : Thread nD τ) (st0_18 t) fullShare ((dat V c).after 18 t)
    ∗ owns (c : Thread nD τ) (st0_19 t) fullShare ((dat V c).after 19 t)
    ∗ owns (c : Thread nD τ) (st0_20 t) fullShare ((dat V c).after 20 t))

set_option maxHeartbeats 2000000 in
/-- The body at any point: each input's buffer holds its block, so the kernel's triple applies at the eighteen blocks; the
    invariant and what the core owes are the same at the next point and pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0_of V (dat V c) (dat_A V c 0) (after_0 V c), before_1_of V (dat V c) (dat_A V c 1) (after_1 V c),
    before_2_of V (dat V c) (dat_A V c 2) (after_2 V c), before_3_of V (dat V c) (dat_A V c 3) (after_3 V c),
    before_4_of V (dat V c) (dat_A V c 4) (after_4 V c), before_5_of V (dat V c) (dat_A V c 5) (after_5 V c),
    before_6_of V (dat V c) (dat_A V c 6) (after_6 V c), before_7_of V (dat V c) (dat_A V c 7) (after_7 V c),
    before_8_of V (dat V c) (dat_A V c 8) (after_8 V c), before_9_of V (dat V c) (dat_A V c 9) (after_9 V c),
    before_10_of V (dat V c) (dat_A V c 10) (after_10 V c), before_11_of V (dat V c) (dat_A V c 11) (after_11 V c),
    before_12_of V (dat V c) (dat_A V c 12) (after_12 V c), before_13_of V (dat V c) (dat_A V c 13) (after_13 V c),
    before_14_of V (dat V c) (dat_A V c 14) (after_14 V c), before_15_of V (dat V c) (dat_A V c 15) (after_15 V c),
    before_16_of V (dat V c) (dat_A V c 16) (after_16 V c), before_17_of V (dat V c) (dat_A V c 17) (after_17 V c)]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13,
    after_14, after_15, after_16, after_17, after_18, after_19, after_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t) (iblk V c 13 t) (iblk V c 14 t) (iblk V c 15 t) (iblk V c 16 t)
    (iblk V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Gate

end
-- ==== Proof.StdpBody.lean ====
import proofs.«137782_j89696097009958_1_alg».proof.Proof.Gen.KernelIdeal.Launch
import proofs.«137782_j89696097009958_1_alg».proof.Proof.Gen.KernelIdeal.Skeleton
import proofs.«137782_j89696097009958_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  Region 1 of the program: the plasticity kernel, one grid point per 512 x 512 block (p, q) of the plastic matrix.

  At a point the body is handed five input blocks — columns p and columns q of the new hidden array, columns p and
  columns q of the trace (all 512 batch rows of each), and block (p, q) of the plastic matrix — and writes block (p, q)
  of the new plastic matrix by ONE whole-block store of the kernel's one payload over those five blocks.

  Two pairs of windows read ONE array each (the hidden array; the trace): each window of a pair holds its array at
  half the full share, left and right, so that the pipeline's two fetches of one array can be in flight together.
-/
namespace Cert.KernelIdeal.Stdp
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the new plastic matrix the body stores, from the five blocks it loads: hidden columns p and q,
    trace columns p and q, the old block. -/
def outU (hp hq tp tq du : Vec F S512x512 .f32) : FVec F S512x512 .f32 := k1_pay1 hp hq tp tq du

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The share each input window holds its array at: the two windows on the hidden array a half each, the two on the
    trace a half each, the old plastic matrix whole (an output window's array is always held whole). -/
def shareOf : Fin cfg1.W → PosShare TreeShare
  | ⟨0, _⟩ => fullShare.left
  | ⟨1, _⟩ => fullShare.right
  | ⟨2, _⟩ => fullShare.left
  | ⟨3, _⟩ => fullShare.right
  | _ => fullShare

/-- The pipeline's proof data on core `c`: every array as entered; an input's buffer keeps its block; the output's
    buffer holds the stored block; the class invariant; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outU (iblk V c 0 t) (iblk V c 1 t) (iblk V c 2 t) (iblk V c 3 t) (iblk V c 4 t)
  Φ _ := Pipeline.ΦA spec1 c
  q := shareOf
  owed _ := 0

theorem dat_A (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outU (iblk V c 0 t) (iblk V c 1 t) (iblk V c 2 t) (iblk V c 3 t) (iblk V c 4 t) := by dsimp only [dat]

/-! ## What each input window's current buffer holds when the body is called

An input window's buffer holds the window's block at every point, whether or not the block was fetched at that point:
where it was not, the window's block index is the one of the point before, and the body left the block in place
there. Two of the five input windows are fetched only at every fourth point; the law covers both kinds. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [dat_A]; try rfl) t d).trans
    (by unfold Dat.fetched Dat.blockOf iblk; rw [dat_A]; try rfl)

theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [dat_A]; try rfl) t d).trans
    (by unfold Dat.fetched Dat.blockOf iblk; rw [dat_A]; try rfl)

theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [dat_A]; try rfl) t d).trans
    (by unfold Dat.fetched Dat.blockOf iblk; rw [dat_A]; try rfl)

theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [dat_A]; try rfl) t d).trans
    (by unfold Dat.fetched Dat.blockOf iblk; rw [dat_A]; try rfl)

theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [dat_A]; try rfl) t d).trans
    (by unfold Dat.fetched Dat.blockOf iblk; rw [dat_A]; try rfl)

/-! ## The body's accesses

Every load and the one store go through the whole 512 x 512 buffer: the rectangle at offset (0, 0) of the buffer's own
extents. -/

abbrev rW : Rect S512x512 := Rect.unit (s := S512x512) ![0, 0] S512x512.size inb_S512x512_S512x512_0_0

/-- Its offsets are zero. -/
theorem rW_off : (![0, 0] : Fin S512x512.rank → ℕ) = fun _ => 0 := by
  funext a; fin_cases a <;> rfl

/-- A load through it reads the buffer's contents. -/
theorem ld_rW (x : Vec F S512x512 .f32) : View.ld x rW = x :=
  View.ld_unit_zero rW_off inb_S512x512_S512x512_0_0 x

/-- The one store through it leaves its payload. -/
theorem canon_rW (w : Vec F S512x512 .f32) : View.canon [(⟨rW, w⟩ : View.Piece (Elt F) S512x512 .f32)] = w :=
  View.canon_unit_zero rW_off inb_S512x512_S512x512_0_0 w

/-- It covers the buffer. -/
theorem cover_rW (w : Vec F S512x512 .f32) (y : S512x512.Idx) :
    ∃ pc ∈ ([⟨rW, w⟩] : List (View.Piece (Elt F) S512x512 .f32)), y ∈ pc.1.set :=
  ⟨_, List.mem_singleton_self _, View.mem_set_unit_zero rW_off inb_S512x512_S512x512_0_0 y⟩

/-- The payload over the five blocks as loaded through the whole-buffer rectangle is the stored block `outU` of the
    blocks themselves. -/
theorem pay_ld_rW (hp hq tp tq du : Vec F S512x512 .f32) :
    k1_pay1 (View.ld hp rW) (View.ld hq rW) (View.ld tp rW) (View.ld tq rW) (View.ld du rW) = outU hp hq tp tq du := by
  rw [ld_rW hp, ld_rW hq, ld_rW tp, ld_rW tq, ld_rW du]; rfl

/-! ## The body's triple -/

set_option maxHeartbeats 2000000 in
/-- The kernel on whole buffers, the five inputs' at contents `hp hq tp tq du` and the output's at anything, runs to
    the continuation holding the inputs' as they were and the output's at `outU` of them: five whole-buffer loads,
    a dead load of the output buffer, and one whole-buffer store of the payload over the five loaded blocks. -/
theorem sound_kernel (c : Dev nD) (E : Set ℕ) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (hp hq tp tq du : Vec F S512x512 .f32) (K : PUnit → sProp 𝕄) :
    iprop(owns (c : Thread nD τ) a0 fullShare hp ∗ owns (c : Thread nD τ) a1 fullShare hq ∗ owns (c : Thread nD τ) a2 fullShare tp
        ∗ owns (c : Thread nD τ) a3 fullShare tq ∗ owns (c : Thread nD τ) a4 fullShare du ∗ (∃ d, owns (c : Thread nD τ) a5 fullShare d)
        ∗ (iprop(owns (c : Thread nD τ) a0 fullShare hp ∗ owns (c : Thread nD τ) a1 fullShare hq ∗ owns (c : Thread nD τ) a2 fullShare tp
            ∗ owns (c : Thread nD τ) a3 fullShare tq ∗ owns (c : Thread nD τ) a4 fullShare du
            ∗ owns (c : Thread nD τ) a5 fullShare (outU hp hq tp tq du)) -∗ K ⟨⟩))
      ⊢ wp frame (wpE (defs₀ (F := F)) Variants.none c none) E (cc1__stdp_kernel i a0 h0 a1 h1 a2 h2 a3 h3 a4 h4 a5 h5) K := by
  simp only [cc1__stdp_kernel_eq_skeleton]; unfold cc1__stdp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_rW _), canon_rW]
  exact pay_ld_rW _ _ _ _ _

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so the kernel's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Stdp

end
-- ==== Proof.StdpThread.lean ====
import proofs.«137782_j89696097009958_1_alg».proof.Proof.StdpBody

set_option maxRecDepth 16384

noncomputable section

/-!
  Region 1's arrays in and out of a core's unscoped buffers.

  The plasticity kernel's six windows sit on FOUR buffers: windows 0 and 1 both read the new hidden array, windows 2
  and 3 both read the trace, window 4 reads the old plastic matrix and window 5 writes the new one. A core's unscoped
  buffers, each held whole at the full share, therefore give the pipeline its six arrays only after the two shared
  buffers' full shares are each split in two halves (one per window); and at the region's exit the halves are joined
  again. The two lemmas below are that split and that join, for any proof data of the pipeline whose shares are the
  halves `shareOf` names.
-/
namespace Cert.KernelIdeal.Stdp
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four buffers behind the six windows -/

/-- The buffers behind the six windows' arrays are four: the hidden array, the trace, the old and the new plastic
    matrix. -/
private theorem image_arr :
    Finset.univ.image (Pipeline.arrRef spec1) = [main_v14_1, main_arg4, main_arg3, main_v15].toFinset := by decide

/-- A core's unscoped buffers are the buffers behind the windows' arrays and the rest; this needs the arrays to be
    unscoped, not distinct. -/
private theorem split_bufs (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ cfgs 1 winFacts₀1.arr_unscoped c V

/-- The buffers behind the arrays, one by one: four whole buffers, each at the full share. -/
private theorem arrBufs_chain (c : Dev nD) (V : (b : Ref sig .tc) → Buf (Elt F) ((c : Thread nD τ).loc b)) :
    (Pipeline.arrBufs spec1 c V : sProp 𝕄)
      = iprop((((c : Thread nD τ).loc main_v14_1) ↦{fullShare} V main_v14_1) ∗ (((c : Thread nD τ).loc main_arg4) ↦{fullShare} V main_arg4)
          ∗ (((c : Thread nD τ).loc main_arg3) ↦{fullShare} V main_arg3) ∗ (((c : Thread nD τ).loc main_v15) ↦{fullShare} V main_v15)) := by
  unfold Pipeline.arrBufs
  exact bigSep_eq_bigSepL_of_eq [main_v14_1, main_arg4, main_arg3, main_v15] image_arr (by decide) _

/-! ## The share each window's array is held at

An input window holds its array at the proof data's share for it, which is the half (or the whole) `shareOf` names;
the output window holds its array whole. -/

private theorem share_0 {c : Dev nD} (d : Dat τ (Elt F) Unit ℕ (UR sig nD τ) ℕ cfg1 c) (hq : ∀ w, d.q w = shareOf w) :
    d.share 0 = fullShare.left := by
  unfold Dat.share; rw [hq]; rfl

private theorem share_1 {c : Dev nD} (d : Dat τ (Elt F) Unit ℕ (UR sig nD τ) ℕ cfg1 c) (hq : ∀ w, d.q w = shareOf w) :
    d.share 1 = fullShare.right := by
  unfold Dat.share; rw [hq]; rfl

private theorem share_2 {c : Dev nD} (d : Dat τ (Elt F) Unit ℕ (UR sig nD τ) ℕ cfg1 c) (hq : ∀ w, d.q w = shareOf w) :
    d.share 2 = fullShare.left := by
  unfold Dat.share; rw [hq]; rfl

private theorem share_3 {c : Dev nD} (d : Dat τ (Elt F) Unit ℕ (UR sig nD τ) ℕ cfg1 c) (hq : ∀ w, d.q w = shareOf w) :
    d.share 3 = fullShare.right := by
  unfold Dat.share; rw [hq]; rfl

private theorem share_4 {c : Dev nD} (d : Dat τ (Elt F) Unit ℕ (UR sig nD τ) ℕ cfg1 c) (hq : ∀ w, d.q w = shareOf w) :
    d.share 4 = fullShare := by
  unfold Dat.share; rw [hq]; rfl

private theorem share_5 {c : Dev nD} (d : Dat τ (Elt F) Unit ℕ (UR sig nD τ) ℕ cfg1 c) : d.share 5 = fullShare := by
  unfold Dat.share; rfl

/-- The pipeline's six arrays, one by one: every window's array is a whole buffer, so each conjunct is a points-to of
    all the buffer's elements; the hidden array and the trace each occur twice, at the left and at the right half. -/
private theorem arrays_chain (c : Dev nD) (d : Dat τ (Elt F) Unit ℕ (UR sig nD τ) ℕ cfg1 c) (hq : ∀ w, d.q w = shareOf w)
    (G : (w : Fin cfg1.W) → Buf (Elt F) ((cfg1.win w).arr.view.loc (c.tc : Thread nD τ))) :
    (d.arrays G : sProp 𝕄)
      = iprop((((c : Thread nD τ).loc main_v14_1) ↦{fullShare.left} G 0) ∗ (((c : Thread nD τ).loc main_v14_1) ↦{fullShare.right} G 1)
          ∗ (((c : Thread nD τ).loc main_arg4) ↦{fullShare.left} G 2) ∗ (((c : Thread nD τ).loc main_arg4) ↦{fullShare.right} G 3)
          ∗ (((c : Thread nD τ).loc main_arg3) ↦{fullShare} G 4) ∗ (((c : Thread nD τ).loc main_v15) ↦{fullShare} G 5)) := by
  unfold Dat.arrays
  rw [Gen.bigSep_W1, share_0 d hq, share_1 d hq, share_2 d hq, share_3 d hq, share_4 d hq, share_5 d]
  -- the element set of a whole buffer's view is all of the buffer; windows 0 and 1 have one array, as have 2 and 3,
  -- so four rewrites reach all six conjuncts
  rw [(arr_whole1 0).set_eq_univ, (arr_whole1 2).set_eq_univ, (arr_whole1 4).set_eq_univ, (arr_whole1 5).set_eq_univ]

/-! ## Splitting the full share in its two halves, and joining them -/

/-- A buffer held at the full share is the same buffer held at the left half and at the right half, at the same
    contents: the full share is the composite of its two halves. -/
private theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The four buffers at contents `V` are the six arrays at contents `G`, when `G` is `V` read at each window's
    buffer: the hidden array's and the trace's full shares are split in halves (or the halves joined), the two
    plastic matrices are kept as they are, and the conjunction is reassociated. -/
private theorem arrBufs_arrays (c : Dev nD) (d : Dat τ (Elt F) Unit ℕ (UR sig nD τ) ℕ cfg1 c) (hq : ∀ w, d.q w = shareOf w)
    (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (Pipeline.arrBufs spec1 c V : sProp 𝕄) ⊣⊢ d.arrays G := by
  rw [arrBufs_chain, arrays_chain c d hq, hG 0, hG 1, hG 2, hG 3, hG 4, hG 5]
  exact (sep_congr (halves _) ((sep_congr_left (halves _)).trans sep_assoc)).trans sep_assoc

/-! ## The two lemmas -/

/-- ENTRY: a core's unscoped buffers at contents `V` are the pipeline's six arrays at the proof data's entry contents
    (read off `V`), each input window at its share, and the unscoped buffers that are no window's array. -/
theorem arrays_of_unscopedBufs (c : Dev nD) (d : Dat τ (Elt F) Unit ℕ (UR sig nD τ) ℕ cfg1 c) (hq : ∀ w, d.q w = shareOf w)
    (V : (b : Ref sig .tc) → Buf (Elt F) ((c : Thread nD τ).loc b)) (hA : ∀ w, d.A w = V (Pipeline.arrRef spec1 w)) :
    (unscopedBufs c V : sProp 𝕄) ⊢ iprop(d.arrays (d.arrAt · 0) ∗ Pipeline.unscopedRest spec1 c V) := by
  rw [split_bufs c V]
  -- before any point has run, an array holds its entry contents
  exact sep_mono (arrBufs_arrays c d hq V _ fun w => by rw [show d.arrAt w 0 = d.A w from rfl, hA]).1 .rfl

/-- EXIT: the six arrays at contents `G` and the other unscoped buffers at `V` are the core's unscoped buffers at any
    valuation `V'` that has every window's array at `G` and agrees with `V` off the arrays. -/
theorem unscopedBufs_of_arrays (c : Dev nD) (d : Dat τ (Elt F) Unit ℕ (UR sig nD τ) ℕ cfg1 c) (hq : ∀ w, d.q w = shareOf w)
    (V V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V b) :
    iprop(d.arrays G ∗ Pipeline.unscopedRest spec1 c V) ⊢ (unscopedBufs c V' : sProp 𝕄) := by
  rw [split_bufs c V']
  refine sep_mono (arrBufs_arrays c d hq V' G hG).2 (Entails.of_eq ?_)
  -- off the arrays the two valuations agree, buffer by buffer
  unfold Pipeline.unscopedRest
  exact bigSep_congr fun b hb => by rw [hrest b (Finset.mem_sdiff.mp hb).2]

end Cert.KernelIdeal.Stdp

end
-- ==== Proof.Threads.lean ====
import proofs.«137782_j89696097009958_1_alg».proof.Proof.GateBody
import proofs.«137782_j89696097009958_1_alg».proof.Proof.StdpBody
import proofs.«137782_j89696097009958_1_alg».proof.Proof.StdpThread
import proofs.«137782_j89696097009958_1_alg».proof.Proof.Gen.KernelIdeal.Regions
import Mathlib.Logic.Function.Basic
import Mathlib.Data.Finset.Image

set_option maxRecDepth 16384

noncomputable section

/-!
  The two regions as segments of the program's run.

  Between two items of the program a core holds every unscoped buffer whole, at a known valuation: the launch memory,
  then what the host slices of the weights and biases add, then — after the gate region — the three arrays the gate
  pipeline's write-backs leave (new membrane, new hidden, new trace), then — after the plasticity region — the array
  its write-backs leave (the new plastic matrix). The contents a region leaves are the pipeline library's: its output
  windows' arrays after the last point's write-back (`Dat.arrAt … N`); every input array is as it was entered.

  Each region's record says how the buffers are lent to the pipeline at entry (its windows' arrays split out of the
  unscoped buffers; the generator register into the class invariant) and collected at exit.
-/
namespace Cert.KernelIdeal.Threads
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered with, and what they leave -/

/-- What the gate region is entered with: the launch memory after the host slices, read at the TensorCore's references. -/
abbrev E0 (c : Dev nD) (b : Ref sig .tc) : Buf (Elt F) ((c : Thread nD τ).loc b) := V1 m c b

/-- What the gate region leaves in the three arrays it may change: its three output windows' arrays after the last
    write-back. (At any other reference the value is never read.) -/
def outsG : Outs (F := F) := fun _ r c =>
  Function.update (Function.update (Function.update (fun r : Ref sig .tc => m ((c : Thread nD τ).loc r))
    main_v14_0 ((Gate.dat (E0 m) c).arrAt 18 cfg0.N)) main_v14_1 ((Gate.dat (E0 m) c).arrAt 19 cfg0.N))
    main_v14_2 ((Gate.dat (E0 m) c).arrAt 20 cfg0.N) r

/-- What the plasticity region is entered with: the gate region's exit contents. -/
abbrev E1 (c : Dev nD) (b : Ref sig .tc) : Buf (Elt F) ((c : Thread nD τ).loc b) := V2 m (outsG m) c b

/-- What both regions leave: the gate region's three arrays, and the plasticity region's output array after its last
    write-back. -/
def outs : Outs (F := F) := fun J r c =>
  Function.update (outsG m J · c) main_v15 ((Stdp.dat (E1 m) c).arrAt 5 cfg1.N) r

theorem outs_v14_0 (c : Dev nD) : outs m 2 main_v14_0 c = (Gate.dat (E0 m) c).arrAt 18 cfg0.N := by
  unfold outs
  rw [Function.update_of_ne (by decide)]
  unfold outsG
  rw [Function.update_of_ne (by decide), Function.update_of_ne (by decide), Function.update_self]
theorem outs_v14_1 (c : Dev nD) : outs m 2 main_v14_1 c = (Gate.dat (E0 m) c).arrAt 19 cfg0.N := by
  unfold outs
  rw [Function.update_of_ne (by decide)]
  unfold outsG
  rw [Function.update_of_ne (by decide), Function.update_self]
theorem outs_v14_2 (c : Dev nD) : outs m 2 main_v14_2 c = (Gate.dat (E0 m) c).arrAt 20 cfg0.N := by
  unfold outs
  rw [Function.update_of_ne (by decide)]
  unfold outsG
  rw [Function.update_self]
theorem outs_v15 (c : Dev nD) : outs m 3 main_v15 c = (Stdp.dat (E1 m) c).arrAt 5 cfg1.N := by
  unfold outs
  rw [Function.update_self]

/-- Off the plasticity region's output array the two families agree. -/
theorem outs_of_ne (J : ℕ) (r : Ref sig .tc) (hr : r ≠ main_v15) (c : Dev nD) : outs m J r c = outsG m J r c := by
  unfold outs
  rw [Function.update_of_ne hr]

/-- The gate region's exit contents do not depend on what the plasticity region leaves. -/
theorem V2_outs (c : Dev nD) : V2 m (outs m) c = V2 m (outsG m) c := by
  unfold V2
  rw [outs_of_ne m 2 main_v14_0 (by decide), outs_of_ne m 2 main_v14_1 (by decide), outs_of_ne m 2 main_v14_2 (by decide)]

/-! ## The valuations at the arrays the regions write -/

/-- After the gate region the new membrane array holds what the pipeline's window 18 leaves. -/
theorem V2_v14_0 (c : Dev nD) : V2 m (outs m) c main_v14_0 = (Gate.dat (E0 m) c).arrAt 18 cfg0.N := by
  unfold V2
  rw [Function.update_of_ne (StableHlo.devRef_ne_of_ne (by decide)), Function.update_of_ne (StableHlo.devRef_ne_of_ne (by decide)),
    Function.update_self, outs_v14_0]
/-- The new hidden array holds what window 19 leaves. -/
theorem V2_v14_1 (c : Dev nD) : V2 m (outs m) c main_v14_1 = (Gate.dat (E0 m) c).arrAt 19 cfg0.N := by
  unfold V2
  rw [Function.update_of_ne (StableHlo.devRef_ne_of_ne (by decide)), Function.update_self, outs_v14_1]
/-- The new trace array holds what window 20 leaves. -/
theorem V2_v14_2 (c : Dev nD) : V2 m (outs m) c main_v14_2 = (Gate.dat (E0 m) c).arrAt 20 cfg0.N := by
  unfold V2
  rw [Function.update_self, outs_v14_2]
/-- After the plasticity region the new plastic matrix holds what the pipeline's output window leaves. -/
theorem V3_v15 (c : Dev nD) : V3 m (outs m) c main_v15 = (Stdp.dat (E1 m) c).arrAt 5 cfg1.N := by
  unfold V3
  rw [Function.update_self, outs_v15]

/-! ## What each region leaves in its pipeline's arrays, and off them -/

/-- No input window of the gate pipeline sits on one of the three arrays the region writes, -/
theorem in0_off : ∀ w : Fin 21, (cfg0.win w).isOut = false →
    Pipeline.arrRef spec0 w ∉ ([main_v14_0, main_v14_1, main_v14_2] : List (Ref sig .tc)) := by decide
/-- and its output windows are the last three. -/
theorem out0_cases : ∀ w : Fin 21, (cfg0.win w).isOut = true → w = 18 ∨ w = 19 ∨ w = 20 := by decide

/-- At the gate region's exit every array of its pipeline holds what the exit valuation says: an input window's array
    is never written back, so it is as entered, and no item before the exit has touched it since; an output window's
    array is one of the three updated points. -/
theorem hF0 (c : Dev nD) (w : Fin cfg0.W) :
    (Gate.dat (E0 m) c).arrAt w cfg0.N = V2 m (outs m) c (Pipeline.arrRef spec0 w) := by
  cases hw : (cfg0.win w).isOut with
  | false => rw [Dat.arrAt_in _ w hw, Gate.dat_A, V2_of m (outs m) c _ (in0_off w hw)]
  | true =>
    rcases out0_cases w hw with rfl | rfl | rfl
    · exact (V2_v14_0 m c).symm
    · exact (V2_v14_1 m c).symm
    · exact (V2_v14_2 m c).symm

/-- Every buffer that is no array of the gate pipeline is at the exit as at the entry. -/
theorem hrest0 (c : Dev nD) : ∀ b, b ∉ Finset.univ.image (Pipeline.arrRef spec0) → V2 m (outs m) c b = E0 m c b := fun b hb =>
  V2_of m (outs m) c b fun h => by
    simp only [List.mem_cons, List.not_mem_nil, or_false] at h
    rcases h with rfl | rfl | rfl
    · exact hb (Finset.mem_image.mpr ⟨18, Finset.mem_univ _, rfl⟩)
    · exact hb (Finset.mem_image.mpr ⟨19, Finset.mem_univ _, rfl⟩)
    · exact hb (Finset.mem_image.mpr ⟨20, Finset.mem_univ _, rfl⟩)

/-- No input window of the plasticity pipeline sits on the array the region writes, -/
theorem in1_off : ∀ w : Fin 6, (cfg1.win w).isOut = false →
    Pipeline.arrRef spec1 w ∉ ([main_v15] : List (Ref sig .tc)) := by decide
/-- and its one output window is the last. -/
theorem out1_cases : ∀ w : Fin 6, (cfg1.win w).isOut = true → w = 5 := by decide

/-- At the plasticity region's exit every array of its pipeline holds what the exit valuation says. -/
theorem hF1 (c : Dev nD) (w : Fin cfg1.W) :
    (Stdp.dat (E1 m) c).arrAt w cfg1.N = V3 m (outs m) c (Pipeline.arrRef spec1 w) := by
  cases hw : (cfg1.win w).isOut with
  | false => rw [Dat.arrAt_in _ w hw, Stdp.dat_A, V3_of m (outs m) c _ (in1_off w hw), V2_outs]
  | true =>
    obtain rfl := out1_cases w hw
    exact (V3_v15 m c).symm

/-- Every buffer that is no array of the plasticity pipeline is at the exit as at the entry. -/
theorem hrest1 (c : Dev nD) : ∀ b, b ∉ Finset.univ.image (Pipeline.arrRef spec1) → V3 m (outs m) c b = E1 m c b := fun b hb => by
  rw [V3_of m (outs m) c b fun h => by
    simp only [List.mem_cons, List.not_mem_nil, or_false] at h
    subst h
    exact hb (Finset.mem_image.mpr ⟨5, Finset.mem_univ _, rfl⟩), V2_outs]

/-! ## The proof data of both pipelines -/

/-- Every pipeline's proof data, each at its region's entry contents (a literal match, so that the pipeline at a
    numeral reduces to the printed configuration). -/
def pdats : (p : Fin 2) → (c : Dev nD) → Dat τ (Elt F) Unit ℕ (UR sig nD τ) ℕ (cfgs p) c
  | ⟨0, _⟩ => fun c => Gate.dat (E0 m) c
  | ⟨1, _⟩ => fun c => Stdp.dat (E1 m) c

/-- No core owes another anything: no level is assigned. -/
abbrev L : GSem nD τ sig → Finset Unit := fun _ => ∅
abbrev lv : GSem nD τ sig → Unit → ℕ := fun _ _ => 0

/-- What rides beside the buffers through every item: the core's generator register at some state, and that the core
    owes nothing. -/
abbrev R (c : Dev nD) : sProp 𝕄 := iprop((∃ r, prngReg c r) ∗ ∃ W, owes (c : Thread nD τ) (0 : CellTallies nD τ sig Unit) W)

/-! ## The regions as segments -/

/-- The gate region: entered from every unscoped buffer at the contents after the host slices, left at those with the
    three output arrays at what the pipeline leaves. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Gate.body_obligation (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    -- the kernel has no semaphore of its own; the unscoped buffers split into the pipeline's arrays and the rest
    rw [Pipeline.ownSems0_none]
    have hsplit := Pipeline.arrays_of_unscopedBufs (p := 0) (pcfgs (F := F)) adm (pdats m) launch0.win launch0.arr_whole c
      ((pdats m 0 c).share_full fun _ => rfl) (E0 m c) fun w => Gate.dat_A (E0 m) c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    -- no prefetched table
    isplitr
    · unfold Pipeline.prefHeld
      rw [show (Finset.univ : Finset (Fin 0)) = ∅ from rfl, BI.bigSep_empty]
      iempintro
    -- nothing owed, so within any bound
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 0 c).Φ 0 = Pipeline.ΦA spec0 c from rfl]
    unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    -- the arrays at what the write-backs leave and the rest as entered are every unscoped buffer at the exit valuation
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outs m) c b) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W
    iexact Howes

/-- The plasticity region: entered from the gate region's exit contents, left at those with the output array at what
    the pipeline leaves. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Stdp.body_obligation (E1 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    -- the region is entered at the gate region's exit contents, which are the contents the proof data is stated at;
    -- the unscoped buffers split into the pipeline's six arrays (two buffers halved) and the rest
    rw [Pipeline.ownSems0_none, V2_outs]
    have hsplit := Stdp.arrays_of_unscopedBufs c (pdats m 1 c) (fun _ => rfl) (E1 m c) fun w => Stdp.dat_A (E1 m) c w
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    -- no prefetched table
    isplitr
    · unfold Pipeline.prefHeld
      rw [show (Finset.univ : Finset (Fin 0)) = ∅ from rfl, BI.bigSep_empty]
      iempintro
    -- nothing owed, so within any bound
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    -- the six arrays at what the write-backs leave (the halves joined) and the rest as entered are every unscoped
    -- buffer at the exit valuation
    have hjoin := Stdp.unscopedBufs_of_arrays c (pdats m 1 c) (fun _ => rfl) (E1 m c) (fun b => V3 m (outs m) c b)
      ((pdats m 1 c).arrAt · cfg1.N) (hF1 m c) (hrest1 m c)
    rw [Pipeline.unscopedBufs_held] at hjoin
    iintro ⟨Harr, Howes, Hreg, Hrest⟩
    imodintro
    isplitl [Harr Hrest]
    · iapply hjoin
      isplitl [Harr]; · iexact Harr
      iexact Hrest
    isplitl [Hreg]; · iexact Hreg
    unfold Pipeline.Dat.owesAt Pipeline.owesWithin
    icases Howes with ⟨%W, -, Howes⟩
    iexists W
    iexact Howes

end Cert.KernelIdeal.Threads

end
-- ==== Proof.Launch.lean ====
import proofs.«137782_j89696097009958_1_alg».proof.Proof.Threads

set_option maxRecDepth 16384

noncomputable section

/-!
  The program's run.

  The program is three items: the host slices of the weights and biases, the gate region, the plasticity region. From
  any memory with zero counters every weakly fair execution runs them to the end, nothing faulting, and the final memory
  holds EVERY unscoped buffer at the last valuation of the thread states: the arguments as launched, the slices, the
  three arrays the gate pipeline leaves and the one the plasticity pipeline leaves. The frame (the arguments end
  unchanged) is that statement read at the ten arguments.
-/
namespace Cert.KernelIdeal.Launch
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's items as segments: the host slices from the launch memory, then the two regions' records. -/
abbrev items (c : Dev nD) : List (Seg (pcfgs (F := F)) adm (Threads.pdats m) () defs₀ Variants.none Threads.L Threads.lv) :=
  segs m Variants.none Threads.L Threads.lv (fun _ => Threads.R) () (Threads.pdats m) (Threads.reg0 m) (Threads.reg1 m) c

-- the launch theorem's implicit arguments are found by unifying its conclusion with this one, which takes unfolding
-- plain definitions in a metavariable's type
set_option backward.isDefEq.respectTransparency.types false in
/-- THE RUN: every weakly fair execution of the program from memory `m` with zero counters terminates, nothing
    faulting, and every final memory holds each unscoped buffer at the last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = V3 m (Threads.outs m) c b) := by
  refine Pipeline.θ_run_regions_kit_dev (pcfgs (F := F)) adm (Threads.pdats m) () cellOf_inj emb₁ defs₀ Variants.none Threads.L Threads.lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()) ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Threads.R c))
    (Tₙ := fun c => iprop(StableHlo.held (c : Thread nD τ) (Pipeline.ucRefs τ sig) (V3 m (Threads.outs m) c) ∗ ∃ r, prngReg c r))
    (hch := fun c => ⟨.rfl, .rfl, .rfl,
      show iprop(StableHlo.held (c : Thread nD τ) (Pipeline.ucRefs τ sig) (V3 m (Threads.outs m) c)
            ∗ (∃ r, prngReg c r) ∗ ∃ W, owes (c : Thread nD τ) (0 : CellTallies nD τ sig Unit) W) ⊢ iprop((StableHlo.held (c : Thread nD τ) (Pipeline.ucRefs τ sig) (V3 m (Threads.outs m) c) ∗ ∃ r, prngReg c r)
          ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach Threads.L Threads.lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V3 m (Threads.outs m) c b)
    (hfin := fun c s' => by
      iintro ⟨⟨Hh, -⟩, HSI⟩
      unfold StableHlo.held
      imodintro
      iapply (pointsTo_read_all (Pipeline.ucRefs τ sig) (fun b => ((c : Thread nD τ).1, b)) (V3 m (Threads.outs m) c) s')
      isplitl [Hh] <;> iassumption)
    (hQ := fun _ h => h)

/-- THE FRAME: the program runs, and its ten argument arrays end as launched (no host slice writes an argument and no
    region may change one, so the last valuation has each at its launch contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V3_main_arg0 m (Threads.outs m) c),
     (h c _ (mem_uc main_arg1 (by decide))).trans (V3_main_arg1 m (Threads.outs m) c),
     (h c _ (mem_uc main_arg2 (by decide))).trans (V3_main_arg2 m (Threads.outs m) c),
     (h c _ (mem_uc main_arg3 (by decide))).trans (V3_main_arg3 m (Threads.outs m) c),
     (h c _ (mem_uc main_arg4 (by decide))).trans (V3_main_arg4 m (Threads.outs m) c),
     (h c _ (mem_uc main_arg5 (by decide))).trans (V3_main_arg5 m (Threads.outs m) c),
     (h c _ (mem_uc main_arg6 (by decide))).trans (V3_main_arg6 m (Threads.outs m) c),
     (h c _ (mem_uc main_arg7 (by decide))).trans (V3_main_arg7 m (Threads.outs m) c),
     (h c _ (mem_uc main_arg8 (by decide))).trans (V3_main_arg8 m (Threads.outs m) c),
     (h c _ (mem_uc main_arg9 (by decide))).trans (V3_main_arg9 m (Threads.outs m) c)⟩) (run_all m ρ)

end Cert.KernelIdeal.Launch

end
-- ==== Proof.Spec.lean ====
/-
  The step this certificate is about, as mathematics. One cell of a gated recurrent unit with a plastic synapse.
  For one batch row and one hidden unit, from the row xb of the input (1024 entries), the row hb of the hidden state
  (2048 entries), the unit's three rows of the input weights (wz, wr, wv), its three rows of the hidden weights
  (uz, ur, uv), its row dj of the plastic matrix, the six biases, the unit's alpha a, and the entries vb, tb of the
  membrane and the trace:

    z  = sigma ((wz·xb + bz) + (uz·hb + cz))
    r  = sigma ((wr·xb + br) + (ur·hb + cr))
    dv = (wv·xb + bv) + r · ((uv·hb + cv) + |a| · (dj·hb))
    v' = (1 - z) · vb + z · dv
    h' = 1 - exp (-(max v' 0))
    t' = (1 - z) · tb + (z · r) · h'

  and for a pair of units (p, q), from the columns hp, hq of the new hidden array and tp, tq of the trace over the 512
  batch rows and the entry d of the plastic matrix, the clipped antisymmetric update

    d' = min 1 (max (-1) (c99 · d + c01 · (hp·tq - tp·hq))).

  Every value is an extended real and every operation the exact one (sigma is the library's logistic, |a| is
  max a (-a)); the two decay constants and the numerals 0, 1, -1 are kept as the f32 words both programs print, never
  evaluated. Nothing here mentions a program: the cell functions take rows as functions of a coordinate.
-/
import Idealize.ShloMosaic.PureOps.Ideal
import Idealize.ShloMosaic.Lib.ValueIdx

noncomputable section

namespace Cert.Spec

open Idealize.ShloMosaic Idealize.ShloMosaic.ValueIdx

/-- The float words for one, zero, minus one, and the two decay factors. -/
abbrev one : EReal := Ideal.ofBits .f32 0x3F800000#32
abbrev zero : EReal := Ideal.ofBits .f32 0x00000000#32
abbrev negOne : EReal := Ideal.ofBits .f32 0xBF800000#32
abbrev c99 : EReal := Ideal.ofBits .f32 0x3F7D70A4#32
abbrev c01 : EReal := Ideal.ofBits .f32 0x3C23D70A#32

/-- A row against a row. -/
def dot {K : Nat} (u w : Fin K → EReal) : EReal := ∑ k : Fin K, u k * w k

section Cell

variable (xb wz wr wv : Fin 1024 → EReal) (hb uz ur uv dj : Fin 2048 → EReal) (bz br bv cz cr cv a vb tb : EReal)

/-- The update gate. -/
def cellZ : EReal := Ideal.logistic ((dot xb wz + bz) + (dot hb uz + cz))
/-- The reset gate. -/
def cellR : EReal := Ideal.logistic ((dot xb wr + br) + (dot hb ur + cr))
/-- The candidate drive. -/
def cellD : EReal := (dot xb wv + bv) + cellR xb wr hb ur br cr * ((dot hb uv + cv) + max a (-a) * dot hb dj)
/-- The new membrane value. -/
def cellV : EReal :=
  (one - cellZ xb wz hb uz bz cz) * vb + cellZ xb wz hb uz bz cz * cellD xb wr wv hb ur uv dj br bv cr cv a
/-- The new hidden value: a saturating response to the rectified membrane value. -/
def cellH : EReal := one - Ideal.exp (-(max (cellV xb wz wr wv hb uz ur uv dj bz br bv cz cr cv a vb) zero))
/-- The new trace. -/
def cellT : EReal :=
  (one - cellZ xb wz hb uz bz cz) * tb
    + cellZ xb wz hb uz bz cz * cellR xb wr hb ur br cr * cellH xb wz wr wv hb uz ur uv dj bz br bv cz cr cv a vb

end Cell

/-- The plastic update at a pair of units: the antisymmetric correlation of the new hidden columns with the trace
    columns, decayed and clipped. -/
def cellU (hp hq tp tq : Fin 512 → EReal) (d : EReal) : EReal :=
  min one (max negOne (c99 * d + c01 * (dot hp tq - dot tp hq)))

/-! ## The same on whole arrays -/

/-- The arrays, by their literal shapes. -/
abbrev A512x1024 := (⟨2, ![512, 1024]⟩ : Shape).Idx → EReal
abbrev A512x2048 := (⟨2, ![512, 2048]⟩ : Shape).Idx → EReal
abbrev A2048x2048 := (⟨2, ![2048, 2048]⟩ : Shape).Idx → EReal
abbrev A6144x1024 := (⟨2, ![6144, 1024]⟩ : Shape).Idx → EReal
abbrev A6144x2048 := (⟨2, ![6144, 2048]⟩ : Shape).Idx → EReal
abbrev A6144 := (⟨1, ![6144]⟩ : Shape).Idx → EReal
abbrev A1x2048 := (⟨2, ![1, 2048]⟩ : Shape).Idx → EReal

/-- Unit j of gate g (0: update, 1: reset, 2: candidate) is row g·2048 + j of a stacked matrix. -/
abbrev row (g : Fin 3) (j : Fin 2048) : Fin 6144 := ⟨g.val * 2048 + j.val, by have := g.isLt; have := j.isLt; omega⟩

section Whole

variable (x : A512x1024) (h v tr : A512x2048) (dU : A2048x2048) (Wx : A6144x1024) (bx : A6144) (Wh : A6144x2048) (bh : A6144)
  (al : A1x2048)

/-- The new membrane array at batch row b, unit j. -/
def newV (b : Fin 512) (j : Fin 2048) : EReal :=
  cellV (fun k => x (ix2 b k)) (fun k => Wx (ix2 (row 0 j) k)) (fun k => Wx (ix2 (row 1 j) k)) (fun k => Wx (ix2 (row 2 j) k))
    (fun k => h (ix2 b k)) (fun k => Wh (ix2 (row 0 j) k)) (fun k => Wh (ix2 (row 1 j) k)) (fun k => Wh (ix2 (row 2 j) k))
    (fun k => dU (ix2 j k)) (bx (ix1 (row 0 j))) (bx (ix1 (row 1 j))) (bx (ix1 (row 2 j)))
    (bh (ix1 (row 0 j))) (bh (ix1 (row 1 j))) (bh (ix1 (row 2 j))) (al (ix2 0 j)) (v (ix2 b j))
/-- The new hidden array. -/
def newH (b : Fin 512) (j : Fin 2048) : EReal :=
  cellH (fun k => x (ix2 b k)) (fun k => Wx (ix2 (row 0 j) k)) (fun k => Wx (ix2 (row 1 j) k)) (fun k => Wx (ix2 (row 2 j) k))
    (fun k => h (ix2 b k)) (fun k => Wh (ix2 (row 0 j) k)) (fun k => Wh (ix2 (row 1 j) k)) (fun k => Wh (ix2 (row 2 j) k))
    (fun k => dU (ix2 j k)) (bx (ix1 (row 0 j))) (bx (ix1 (row 1 j))) (bx (ix1 (row 2 j)))
    (bh (ix1 (row 0 j))) (bh (ix1 (row 1 j))) (bh (ix1 (row 2 j))) (al (ix2 0 j)) (v (ix2 b j))
/-- The new trace array. -/
def newT (b : Fin 512) (j : Fin 2048) : EReal :=
  cellT (fun k => x (ix2 b k)) (fun k => Wx (ix2 (row 0 j) k)) (fun k => Wx (ix2 (row 1 j) k)) (fun k => Wx (ix2 (row 2 j) k))
    (fun k => h (ix2 b k)) (fun k => Wh (ix2 (row 0 j) k)) (fun k => Wh (ix2 (row 1 j) k)) (fun k => Wh (ix2 (row 2 j) k))
    (fun k => dU (ix2 j k)) (bx (ix1 (row 0 j))) (bx (ix1 (row 1 j))) (bx (ix1 (row 2 j)))
    (bh (ix1 (row 0 j))) (bh (ix1 (row 1 j))) (bh (ix1 (row 2 j))) (al (ix2 0 j)) (v (ix2 b j)) (tr (ix2 b j))

end Whole

/-- The new plastic matrix at (p, q), from ANY new hidden array `hn`, the trace and the old matrix. -/
def newU (hn tr : A512x2048) (dU : A2048x2048) (p q : Fin 2048) : EReal :=
  cellU (fun b => hn (ix2 b p)) (fun b => hn (ix2 b q)) (fun b => tr (ix2 b p)) (fun b => tr (ix2 b q)) (dU (ix2 p q))

end Cert.Spec

end
-- ==== Proof.GateValue.lean ====
import proofs.«137782_j89696097009958_1_alg».proof.Proof.GateBody
import proofs.«137782_j89696097009958_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

/-!
  What the gate kernel stores, read at one entry, on the extended reals.

  Entry (b, q) of each stored block — batch row b, the block's unit q — is the cell function of: row b of the x block
  and of the h block, row q of each of the six weight blocks and of the plastic block, entry q of each of the six bias
  rows and of alpha, and entry (b, q) of the membrane block (and of the trace block, for the trace). At the exact
  instance a change of float format is the identity, a matrix product into a zero accumulator is the plain sum over the
  contracted axis, the kernel's logistic is the library's, and `0 - u` is `-u`.
-/
namespace Cert.KernelIdeal.GateValue
open Cert.KernelIdeal Cert.KernelIdeal.Gen
open Idealize.ShloMosaic Idealize.ShloMosaic.TcCoe Idealize.ShloMosaic.ValueIdx Idealize.SL.Sem

variable (x : Vec Ideal S512x1024 .f32) (h : Vec Ideal S512x2048 .f32) (v tr : Vec Ideal S512x128 .f32) (al : Vec Ideal S1x128 .f32)
  (du : Vec Ideal S128x2048 .f32) (wxz wxr wxv : Vec Ideal S128x1024 .f32) (whz whr whv : Vec Ideal S128x2048 .f32)
  (bxz bxr bxv bhz bhr bhv : Vec Ideal S1x128 .f32)

/-! ## The two matrix products at an entry

  Both products contract the SECOND axis of both operands. So at the result's entry (i 0, i 1) and summation position
  k, the left operand is read at (i 0, k) and the right operand at (i 1, k): on each operand the first axis follows the
  result, the second follows the summation. Into a zero accumulator the entry is then the sum over k of
  left (b, k) · right (q, k) — a row against a row. -/

/-- The x product, left operand, first axis: the result's row. -/
theorem xdot_lhs_0 (i : S512x128.Idx) (q : dot_S512x1024_S128x1024_S512x128_1_1_0_0_n_n.contr.Idx) :
    (dot_S512x1024_S128x1024_S512x128_1_1_0_0_n_n.lhsIdx i q 0).val = (i 0).val := by
  unfold DotDims.lhsIdx
  rw [dif_neg (show ¬(0 : Fin S512x1024.rank) ∈ dot_S512x1024_S128x1024_S512x128_1_1_0_0_n_n.lhsBatch by decide), dif_pos (show (0 : Fin S512x1024.rank) ∈ dot_S512x1024_S128x1024_S512x128_1_1_0_0_n_n.lhsNonContracting by decide)]
  rfl
/-- The x product, left operand, second axis: the summation position. -/
theorem xdot_lhs_1 (i : S512x128.Idx) (q : dot_S512x1024_S128x1024_S512x128_1_1_0_0_n_n.contr.Idx) :
    (dot_S512x1024_S128x1024_S512x128_1_1_0_0_n_n.lhsIdx i q 1).val = (q ⟨0, by decide⟩).val :=
  dot_S512x1024_S128x1024_S512x128_1_1_0_0_n_n.lhsIdx_val_of_single rfl i q
/-- The x product, right operand, first axis: the result's column. -/
theorem xdot_rhs_0 (i : S512x128.Idx) (q : dot_S512x1024_S128x1024_S512x128_1_1_0_0_n_n.contr.Idx) :
    (dot_S512x1024_S128x1024_S512x128_1_1_0_0_n_n.rhsIdx i q 0).val = (i 1).val := by
  unfold DotDims.rhsIdx
  rw [dif_neg (show ¬(0 : Fin S128x1024.rank) ∈ dot_S512x1024_S128x1024_S512x128_1_1_0_0_n_n.rhsBatch by decide), dif_pos (show (0 : Fin S128x1024.rank) ∈ dot_S512x1024_S128x1024_S512x128_1_1_0_0_n_n.rhsNonContracting by decide)]
  rfl
/-- The x product, right operand, second axis: the summation position. -/
theorem xdot_rhs_1 (i : S512x128.Idx) (q : dot_S512x1024_S128x1024_S512x128_1_1_0_0_n_n.contr.Idx) :
    (dot_S512x1024_S128x1024_S512x128_1_1_0_0_n_n.rhsIdx i q 1).val = (q ⟨0, by decide⟩).val :=
  dot_S512x1024_S128x1024_S512x128_1_1_0_0_n_n.rhsIdx_val_of_single rfl i q

/-- The x product into a zero accumulator at (b, q): row b of the left operand against row q of the right, over the
    1024 positions. -/
theorem xdot_entry (l : FVec Ideal S512x1024 .bf16) (r : FVec Ideal S128x1024 .bf16) (b : Fin 512) (q : Fin 128) :
    matmul (F := Ideal) dot_S512x1024_S128x1024_S512x128_1_1_0_0_n_n none l r (constant (F := Ideal) S512x128 .f32 0x00000000#32) (ix2 b q)
      = ∑ k : Fin 1024, l (ix2 b k) * r (ix2 q k) := by
  simp only [matmul]
  rw [Ideal.matmul_constant_zero_apply, ← Equiv.sum_comp (ValueIdx.contrEquiv1 dot_S512x1024_S128x1024_S512x128_1_1_0_0_n_n 1024 rfl rfl).symm]
  refine Finset.sum_congr rfl fun k _ => ?_
  have hk := ValueIdx.contrEquiv1_symm_val dot_S512x1024_S128x1024_S512x128_1_1_0_0_n_n 1024 rfl rfl k
  have el : dot_S512x1024_S128x1024_S512x128_1_1_0_0_n_n.lhsIdx (ix2 b q) ((ValueIdx.contrEquiv1 dot_S512x1024_S128x1024_S512x128_1_1_0_0_n_n 1024 rfl rfl).symm k) = ix2 b k := funext fun a => Fin.ext (by
    match a with
    | ⟨0, _⟩ => exact xdot_lhs_0 _ _
    | ⟨1, _⟩ => exact (xdot_lhs_1 _ _).trans hk)
  have er : dot_S512x1024_S128x1024_S512x128_1_1_0_0_n_n.rhsIdx (ix2 b q) ((ValueIdx.contrEquiv1 dot_S512x1024_S128x1024_S512x128_1_1_0_0_n_n 1024 rfl rfl).symm k) = ix2 q k := funext fun a => Fin.ext (by
    match a with
    | ⟨0, _⟩ => exact xdot_rhs_0 _ _
    | ⟨1, _⟩ => exact (xdot_rhs_1 _ _).trans hk)
  rw [el, er]

/-- The h product, left operand, first axis: the result's row. -/
theorem hdot_lhs_0 (i : S512x128.Idx) (q : dot_S512x2048_S128x2048_S512x128_1_1_0_0_n_n.contr.Idx) :
    (dot_S512x2048_S128x2048_S512x128_1_1_0_0_n_n.lhsIdx i q 0).val = (i 0).val := by
  unfold DotDims.lhsIdx
  rw [dif_neg (show ¬(0 : Fin S512x2048.rank) ∈ dot_S512x2048_S128x2048_S512x128_1_1_0_0_n_n.lhsBatch by decide), dif_pos (show (0 : Fin S512x2048.rank) ∈ dot_S512x2048_S128x2048_S512x128_1_1_0_0_n_n.lhsNonContracting by decide)]
  rfl
/-- The h product, left operand, second axis: the summation position. -/
theorem hdot_lhs_1 (i : S512x128.Idx) (q : dot_S512x2048_S128x2048_S512x128_1_1_0_0_n_n.contr.Idx) :
    (dot_S512x2048_S128x2048_S512x128_1_1_0_0_n_n.lhsIdx i q 1).val = (q ⟨0, by decide⟩).val :=
  dot_S512x2048_S128x2048_S512x128_1_1_0_0_n_n.lhsIdx_val_of_single rfl i q
/-- The h product, right operand, first axis: the result's column. -/
theorem hdot_rhs_0 (i : S512x128.Idx) (q : dot_S512x2048_S128x2048_S512x128_1_1_0_0_n_n.contr.Idx) :
    (dot_S512x2048_S128x2048_S512x128_1_1_0_0_n_n.rhsIdx i q 0).val = (i 1).val := by
  unfold DotDims.rhsIdx
  rw [dif_neg (show ¬(0 : Fin S128x2048.rank) ∈ dot_S512x2048_S128x2048_S512x128_1_1_0_0_n_n.rhsBatch by decide), dif_pos (show (0 : Fin S128x2048.rank) ∈ dot_S512x2048_S128x2048_S512x128_1_1_0_0_n_n.rhsNonContracting by decide)]
  rfl
/-- The h product, right operand, second axis: the summation position. -/
theorem hdot_rhs_1 (i : S512x128.Idx) (q : dot_S512x2048_S128x2048_S512x128_1_1_0_0_n_n.contr.Idx) :
    (dot_S512x2048_S128x2048_S512x128_1_1_0_0_n_n.rhsIdx i q 1).val = (q ⟨0, by decide⟩).val :=
  dot_S512x2048_S128x2048_S512x128_1_1_0_0_n_n.rhsIdx_val_of_single rfl i q

/-- The h product into a zero accumulator at (b, q): row b of the left operand against row q of the right, over the
    2048 positions. -/
theorem hdot_entry (l : FVec Ideal S512x2048 .bf16) (r : FVec Ideal S128x2048 .bf16) (b : Fin 512) (q : Fin 128) :
    matmul (F := Ideal) dot_S512x2048_S128x2048_S512x128_1_1_0_0_n_n none l r (constant (F := Ideal) S512x128 .f32 0x00000000#32) (ix2 b q)
      = ∑ k : Fin 2048, l (ix2 b k) * r (ix2 q k) := by
  simp only [matmul]
  rw [Ideal.matmul_constant_zero_apply, ← Equiv.sum_comp (ValueIdx.contrEquiv1 dot_S512x2048_S128x2048_S512x128_1_1_0_0_n_n 2048 rfl rfl).symm]
  refine Finset.sum_congr rfl fun k _ => ?_
  have hk := ValueIdx.contrEquiv1_symm_val dot_S512x2048_S128x2048_S512x128_1_1_0_0_n_n 2048 rfl rfl k
  have el : dot_S512x2048_S128x2048_S512x128_1_1_0_0_n_n.lhsIdx (ix2 b q) ((ValueIdx.contrEquiv1 dot_S512x2048_S128x2048_S512x128_1_1_0_0_n_n 2048 rfl rfl).symm k) = ix2 b k := funext fun a => Fin.ext (by
    match a with
    | ⟨0, _⟩ => exact hdot_lhs_0 _ _
    | ⟨1, _⟩ => exact (hdot_lhs_1 _ _).trans hk)
  have er : dot_S512x2048_S128x2048_S512x128_1_1_0_0_n_n.rhsIdx (ix2 b q) ((ValueIdx.contrEquiv1 dot_S512x2048_S128x2048_S512x128_1_1_0_0_n_n 2048 rfl rfl).symm k) = ix2 q k := funext fun a => Fin.ext (by
    match a with
    | ⟨0, _⟩ => exact hdot_rhs_0 _ _
    | ⟨1, _⟩ => exact (hdot_rhs_1 _ _).trans hk)
  rw [el, er]

/-! ## A one-row vector spread over the 512 rows

  Every row of the spread block is the one row it came from, so entry (b, q) is the row's entry q; and recasting a
  vector to the shape it already has changes nothing. -/

/-- A [1,128] row spread to [512,128], at (b, q). -/
theorem row_entry (u : FVec Ideal S1x128 .f32) (b : Fin 512) (q : Fin 128) :
    broadcastTo S512x128 u broadcasts_S1x128_S512x128 (ix2 b q) = u (ix2 0 q) :=
  broadcastTo_apply u broadcasts_S1x128_S512x128 (ix2 b q) (ix2 0 q) (fun a => match a with
    | ⟨0, _⟩ => by show 0 = if (1 : Nat) = 1 then 0 else b.val; rw [if_pos rfl]
    | ⟨1, _⟩ => by show q.val = if (128 : Nat) = 1 then 0 else q.val; rw [if_neg (by decide)])

/-- The same for a row first recast to its own shape. -/
theorem castRow_entry (u : Vec Ideal S1x128 .f32) (b : Fin 512) (q : Fin 128) :
    broadcastTo S512x128 (shapeCast S1x128 u shapeCasts_S1x128_S1x128) broadcasts_S1x128_S512x128 (ix2 b q) = u (ix2 0 q) := by
  rw [shapeCast_self]
  exact row_entry u b q

/-! ## The affine maps

  An input-side map at (b, q) is row b of x against row q of the weight block, plus the bias entry q. The hidden-side
  product is row b of h against row q of the weight block; its bias is spread separately. The changes of float format
  in between are the identity on the extended reals. -/

/-- The input-side map of the update gate. -/
theorem pay5_entry (x : Vec Ideal S512x1024 .f32) (w : Vec Ideal S128x1024 .f32) (c : Vec Ideal S1x128 .f32) (b : Fin 512) (q : Fin 128) :
    k0_pay5 (F := Ideal) x w c (ix2 b q) = Spec.dot (fun k => x (ix2 b k)) (fun k => w (ix2 q k)) + c (ix2 0 q) := by
  unfold k0_pay5 k0_pay3
  refine congrArg₂ (· + ·) ?_ (castRow_entry c b q)
  rw [shapeCast_self]
  exact xdot_entry _ _ b q

/-- The input-side map of the reset gate. -/
theorem pay6_entry (x : Vec Ideal S512x1024 .f32) (w : Vec Ideal S128x1024 .f32) (c : Vec Ideal S1x128 .f32) (b : Fin 512) (q : Fin 128) :
    k0_pay6 (F := Ideal) x w c (ix2 b q) = Spec.dot (fun k => x (ix2 b k)) (fun k => w (ix2 q k)) + c (ix2 0 q) := by
  unfold k0_pay6 k0_pay3
  refine congrArg₂ (· + ·) ?_ (castRow_entry c b q)
  rw [shapeCast_self]
  exact xdot_entry _ _ b q

/-- The input-side map of the candidate. -/
theorem pay7_entry (x : Vec Ideal S512x1024 .f32) (w : Vec Ideal S128x1024 .f32) (c : Vec Ideal S1x128 .f32) (b : Fin 512) (q : Fin 128) :
    k0_pay7 (F := Ideal) x w c (ix2 b q) = Spec.dot (fun k => x (ix2 b k)) (fun k => w (ix2 q k)) + c (ix2 0 q) := by
  unfold k0_pay7 k0_pay3
  refine congrArg₂ (· + ·) ?_ (castRow_entry c b q)
  rw [shapeCast_self]
  exact xdot_entry _ _ b q

/-- A hidden-side product at (b, q): row b of h against row q of the weight block. -/
theorem hrow_dot (h : Vec Ideal S512x2048 .f32) (w : Vec Ideal S128x2048 .f32) (b : Fin 512) (q : Fin 128) :
    matmul (F := Ideal) dot_S512x2048_S128x2048_S512x128_1_1_0_0_n_n none (k0_pay4 (F := Ideal) h)
        (truncf .bf16 (shapeCast S128x2048 w shapeCasts_S128x2048_S128x2048) bitsLt_bf16_f32)
        (constant (F := Ideal) S512x128 .f32 0x00000000#32) (ix2 b q)
      = Spec.dot (fun k => h (ix2 b k)) (fun k => w (ix2 q k)) := by
  rw [shapeCast_self]
  exact hdot_entry _ _ b q

/-- The hidden-side product of the update gate. -/
theorem pay8_entry (h : Vec Ideal S512x2048 .f32) (w : Vec Ideal S128x2048 .f32) (b : Fin 512) (q : Fin 128) :
    k0_pay8 (F := Ideal) h w (ix2 b q) = Spec.dot (fun k => h (ix2 b k)) (fun k => w (ix2 q k)) := by
  unfold k0_pay8
  exact hrow_dot h w b q

/-- The hidden-side bias of the update gate, spread over the rows. -/
theorem pay9_entry (c : Vec Ideal S1x128 .f32) (b : Fin 512) (q : Fin 128) :
    k0_pay9 (F := Ideal) c (ix2 b q) = c (ix2 0 q) := by
  unfold k0_pay9
  exact castRow_entry c b q

/-! ## The two gates: the logistic of the sum of the two affine maps -/

/-- The update gate's payload is pointwise: the logistic of the first plus (the second plus the third). -/
theorem pay10_entry (v11 v31 v34 : FVec Ideal S512x128 .f32) (i : S512x128.Idx) :
    k0_pay10 (F := Ideal) v11 v31 v34 i = Ideal.logistic (v11 i + (v31 i + v34 i)) := rfl

/-- The reset gate's payload: the logistic of the input-side map plus (the hidden-side product plus its bias). -/
theorem pay11_entry (h : Vec Ideal S512x2048 .f32) (v19 : FVec Ideal S512x128 .f32) (w : Vec Ideal S128x2048 .f32) (c : Vec Ideal S1x128 .f32)
    (b : Fin 512) (q : Fin 128) :
    k0_pay11 (F := Ideal) (k0_pay4 (F := Ideal) h) v19 w c (ix2 b q)
      = Ideal.logistic (v19 (ix2 b q) + (Spec.dot (fun k => h (ix2 b k)) (fun k => w (ix2 q k)) + c (ix2 0 q))) := by
  unfold k0_pay11
  exact congrArg Ideal.logistic (congrArg₂ (· + ·) rfl (congrArg₂ (· + ·) (hrow_dot h w b q) (castRow_entry c b q)))

/-- Entry (b, q) of the update gate. -/
theorem zGate_apply (b : Fin 512) (q : Fin 128) :
    Gate.zGate (F := Ideal) x h wxz whz bxz bhz (ix2 b q)
      = Spec.cellZ (fun k => x (ix2 b k)) (fun k => wxz (ix2 q k)) (fun k => h (ix2 b k)) (fun k => whz (ix2 q k)) (bxz (ix2 0 q)) (bhz (ix2 0 q)) := by
  unfold Gate.zGate Spec.cellZ
  rw [pay10_entry, pay5_entry, pay8_entry, pay9_entry]

/-- Entry (b, q) of the reset gate. -/
theorem rGate_apply (b : Fin 512) (q : Fin 128) :
    Gate.rGate (F := Ideal) x h wxr whr bxr bhr (ix2 b q)
      = Spec.cellR (fun k => x (ix2 b k)) (fun k => wxr (ix2 q k)) (fun k => h (ix2 b k)) (fun k => whr (ix2 q k)) (bxr (ix2 0 q)) (bhr (ix2 0 q)) := by
  unfold Gate.rGate Spec.cellR
  rw [pay11_entry, pay6_entry]

/-! ## The membrane value

  With z the update gate, r the reset gate and a the candidate's input-side map, the new value is
  (1 - z) · v + z · (a + r · ((h·whv + bhv) + |alpha| · (h·du))), where |alpha| is max alpha (-alpha) taken on the
  one row before it is spread. The numeral 1 stays the word the program prints. -/

/-- The membrane payload at (b, q), over any gate inputs. -/
theorem pay12_entry (v11 v19 v27 v31 v34 : FVec Ideal S512x128 .f32) (b : Fin 512) (q : Fin 128) :
    k0_pay12 (F := Ideal) (k0_pay4 (F := Ideal) h) v11 v19 v27 v31 v34 whr bhr whv bhv du al v (ix2 b q)
      = (Spec.one - k0_pay10 (F := Ideal) v11 v31 v34 (ix2 b q)) * v (ix2 b q)
        + k0_pay10 (F := Ideal) v11 v31 v34 (ix2 b q)
          * (v27 (ix2 b q) + k0_pay11 (F := Ideal) (k0_pay4 (F := Ideal) h) v19 whr bhr (ix2 b q)
              * ((Spec.dot (fun k => h (ix2 b k)) (fun k => whv (ix2 q k)) + bhv (ix2 0 q))
                  + max (al (ix2 0 q)) (-(al (ix2 0 q))) * Spec.dot (fun k => h (ix2 b k)) (fun k => du (ix2 q k)))) := by
  unfold k0_pay12
  refine congrArg₂ (· + ·) rfl (congrArg₂ (· * ·) rfl (congrArg₂ (· + ·) rfl (congrArg₂ (· * ·) rfl
    (congrArg₂ (· + ·) (congrArg₂ (· + ·) (hrow_dot h whv b q) (castRow_entry bhv b q)) (congrArg₂ (· * ·) ?_ ?_)))))
  · exact row_entry (absf al) b q
  · exact hdot_entry _ _ b q

/-- Entry (b, q) of the stored membrane block. -/
theorem outV_apply (b : Fin 512) (q : Fin 128) :
    Gate.outV (F := Ideal) x h v al du wxz wxr wxv whz whr whv bxz bxr bxv bhz bhr bhv (ix2 b q)
      = Spec.cellV (fun k => x (ix2 b k)) (fun k => wxz (ix2 q k)) (fun k => wxr (ix2 q k)) (fun k => wxv (ix2 q k))
          (fun k => h (ix2 b k)) (fun k => whz (ix2 q k)) (fun k => whr (ix2 q k)) (fun k => whv (ix2 q k)) (fun k => du (ix2 q k))
          (bxz (ix2 0 q)) (bxr (ix2 0 q)) (bxv (ix2 0 q)) (bhz (ix2 0 q)) (bhr (ix2 0 q)) (bhv (ix2 0 q)) (al (ix2 0 q)) (v (ix2 b q)) := by
  have hz : k0_pay10 (F := Ideal) (k0_pay5 (F := Ideal) x wxz bxz) (k0_pay8 (F := Ideal) h whz) (k0_pay9 (F := Ideal) bhz) (ix2 b q)
      = Spec.cellZ (fun k => x (ix2 b k)) (fun k => wxz (ix2 q k)) (fun k => h (ix2 b k)) (fun k => whz (ix2 q k)) (bxz (ix2 0 q)) (bhz (ix2 0 q)) :=
    zGate_apply x h wxz whz bxz bhz b q
  have hr : k0_pay11 (F := Ideal) (k0_pay4 (F := Ideal) h) (k0_pay6 (F := Ideal) x wxr bxr) whr bhr (ix2 b q)
      = Spec.cellR (fun k => x (ix2 b k)) (fun k => wxr (ix2 q k)) (fun k => h (ix2 b k)) (fun k => whr (ix2 q k)) (bxr (ix2 0 q)) (bhr (ix2 0 q)) :=
    rGate_apply x h wxr whr bxr bhr b q
  unfold Gate.outV Spec.cellV Spec.cellD
  rw [pay12_entry, hz, hr, pay7_entry]

/-! ## The hidden value and the trace

  The rectified block is the larger of the membrane value and the zero word, pointwise. The hidden value is
  1 - exp (0 - u) at the rectified value u; the zero word is the real number 0, and 0 - u = -u on the extended reals,
  so this is 1 - exp (-u). The trace is (1 - z) · t + (z · r) · (the hidden value), pointwise. -/

/-- The rectified block, pointwise. -/
theorem rect_apply (i : S512x128.Idx) :
    Gate.rect (F := Ideal) x h v al du wxz wxr wxv whz whr whv bxz bxr bxv bhz bhr bhv i
      = max (Gate.outV (F := Ideal) x h v al du wxz wxr wxv whz whr whv bxz bxr bxv bhz bhr bhv i) Spec.zero := rfl

/-- The saturating response against the zero block: 1 - exp (-u). -/
theorem pay1_entry (u : FVec Ideal S512x128 .f32) (i : S512x128.Idx) :
    k0_pay1 (F := Ideal) u (k0_pay14 (F := Ideal)) i = Spec.one - Ideal.exp (-(u i)) := by
  show Spec.one - Ideal.exp (Ideal.ofBits .f32 0x00000000#32 - u i) = _
  rw [Ideal.ofBits_zero_f32, zero_sub]

/-- The trace payload, pointwise. -/
theorem pay2_entry (z r u : FVec Ideal S512x128 .f32) (t : Vec Ideal S512x128 .f32) (i : S512x128.Idx) :
    k0_pay2 (F := Ideal) z r u (k0_pay14 (F := Ideal)) t i
      = (Spec.one - z i) * t i + z i * r i * k0_pay1 (F := Ideal) u (k0_pay14 (F := Ideal)) i := rfl

/-- Entry (b, q) of the stored hidden block. -/
theorem outH_apply (b : Fin 512) (q : Fin 128) :
    Gate.outH (F := Ideal) x h v al du wxz wxr wxv whz whr whv bxz bxr bxv bhz bhr bhv (ix2 b q)
      = Spec.cellH (fun k => x (ix2 b k)) (fun k => wxz (ix2 q k)) (fun k => wxr (ix2 q k)) (fun k => wxv (ix2 q k))
          (fun k => h (ix2 b k)) (fun k => whz (ix2 q k)) (fun k => whr (ix2 q k)) (fun k => whv (ix2 q k)) (fun k => du (ix2 q k))
          (bxz (ix2 0 q)) (bxr (ix2 0 q)) (bxv (ix2 0 q)) (bhz (ix2 0 q)) (bhr (ix2 0 q)) (bhv (ix2 0 q)) (al (ix2 0 q)) (v (ix2 b q)) := by
  unfold Gate.outH Spec.cellH
  rw [pay1_entry, rect_apply, outV_apply]

/-- Entry (b, q) of the stored trace block. -/
theorem outT_apply (b : Fin 512) (q : Fin 128) :
    Gate.outT (F := Ideal) x h v tr al du wxz wxr wxv whz whr whv bxz bxr bxv bhz bhr bhv (ix2 b q)
      = Spec.cellT (fun k => x (ix2 b k)) (fun k => wxz (ix2 q k)) (fun k => wxr (ix2 q k)) (fun k => wxv (ix2 q k))
          (fun k => h (ix2 b k)) (fun k => whz (ix2 q k)) (fun k => whr (ix2 q k)) (fun k => whv (ix2 q k)) (fun k => du (ix2 q k))
          (bxz (ix2 0 q)) (bxr (ix2 0 q)) (bxv (ix2 0 q)) (bhz (ix2 0 q)) (bhr (ix2 0 q)) (bhv (ix2 0 q)) (al (ix2 0 q)) (v (ix2 b q))
          (tr (ix2 b q)) := by
  have hH : k0_pay1 (F := Ideal) (Gate.rect (F := Ideal) x h v al du wxz wxr wxv whz whr whv bxz bxr bxv bhz bhr bhv) (k0_pay14 (F := Ideal)) (ix2 b q)
      = Spec.cellH (fun k => x (ix2 b k)) (fun k => wxz (ix2 q k)) (fun k => wxr (ix2 q k)) (fun k => wxv (ix2 q k))
          (fun k => h (ix2 b k)) (fun k => whz (ix2 q k)) (fun k => whr (ix2 q k)) (fun k => whv (ix2 q k)) (fun k => du (ix2 q k))
          (bxz (ix2 0 q)) (bxr (ix2 0 q)) (bxv (ix2 0 q)) (bhz (ix2 0 q)) (bhr (ix2 0 q)) (bhv (ix2 0 q)) (al (ix2 0 q)) (v (ix2 b q)) :=
    outH_apply x h v al du wxz wxr wxv whz whr whv bxz bxr bxv bhz bhr bhv b q
  unfold Gate.outT Spec.cellT
  rw [pay2_entry, zGate_apply, rGate_apply, hH]

end Cert.KernelIdeal.GateValue

end
-- ==== Proof.GateArrays.lean ====
import proofs.«137782_j89696097009958_1_alg».proof.Proof.GateValue
import Idealize.ShloMosaic.Lib.Pipeline.Value
import Idealize.ShloMosaic.Lib.ValueIdx

set_option maxRecDepth 16384

noncomputable section

/-!
  What the gate pipeline leaves in its three output arrays, for any contents `V` the region is entered with.

  Point t of the grid is handed columns 128 t .. 128 t + 127: of the membrane, trace and alpha arrays, and ROWS
  128 t .. 128 t + 127 of the plastic array, of the six weight slices, and entries 128 t .. of the six bias slices; x and h
  are handed whole. It writes back columns 128 t .. of each output. So entry (b, j) of an output array is written by
  point j / 128 at block entry (b, j mod 128), and is the cell function of row b of x and of h, row j of each weight
  slice and of the plastic array, entry j of each bias slice and of alpha, and entry (b, j) of the membrane (and trace)
  array; the sixteen points' blocks tile the array.
-/
namespace Cert.KernelIdeal.GateArrays
open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Entry (b, j) of the new membrane array, from the arrays the region is entered with. -/
def wholeV (c : Dev nD) (b : Fin 512) (j : Fin 2048) : EReal :=
  Spec.cellV (fun k => (V c main_arg0 : S512x1024.Idx → EReal) (ix2 b k))
    (fun k => (V c main_v0 : S2048x1024.Idx → EReal) (ix2 j k)) (fun k => (V c main_v1 : S2048x1024.Idx → EReal) (ix2 j k))
    (fun k => (V c main_v2 : S2048x1024.Idx → EReal) (ix2 j k))
    (fun k => (V c main_arg1 : S512x2048.Idx → EReal) (ix2 b k))
    (fun k => (V c main_v3 : S2048x2048.Idx → EReal) (ix2 j k)) (fun k => (V c main_v4 : S2048x2048.Idx → EReal) (ix2 j k))
    (fun k => (V c main_v5 : S2048x2048.Idx → EReal) (ix2 j k))
    (fun k => (V c main_arg3 : S2048x2048.Idx → EReal) (ix2 j k))
    ((V c main_v8 : S1x2048.Idx → EReal) (ix2 0 j)) ((V c main_v9 : S1x2048.Idx → EReal) (ix2 0 j)) ((V c main_v10 : S1x2048.Idx → EReal) (ix2 0 j))
    ((V c main_v11 : S1x2048.Idx → EReal) (ix2 0 j)) ((V c main_v12 : S1x2048.Idx → EReal) (ix2 0 j)) ((V c main_v13 : S1x2048.Idx → EReal) (ix2 0 j))
    ((V c main_arg9 : S1x2048.Idx → EReal) (ix2 0 j)) ((V c main_arg2 : S512x2048.Idx → EReal) (ix2 b j))

/-- Entry (b, j) of the new hidden array. -/
def wholeH (c : Dev nD) (b : Fin 512) (j : Fin 2048) : EReal :=
  Spec.cellH (fun k => (V c main_arg0 : S512x1024.Idx → EReal) (ix2 b k))
    (fun k => (V c main_v0 : S2048x1024.Idx → EReal) (ix2 j k)) (fun k => (V c main_v1 : S2048x1024.Idx → EReal) (ix2 j k))
    (fun k => (V c main_v2 : S2048x1024.Idx → EReal) (ix2 j k))
    (fun k => (V c main_arg1 : S512x2048.Idx → EReal) (ix2 b k))
    (fun k => (V c main_v3 : S2048x2048.Idx → EReal) (ix2 j k)) (fun k => (V c main_v4 : S2048x2048.Idx → EReal) (ix2 j k))
    (fun k => (V c main_v5 : S2048x2048.Idx → EReal) (ix2 j k))
    (fun k => (V c main_arg3 : S2048x2048.Idx → EReal) (ix2 j k))
    ((V c main_v8 : S1x2048.Idx → EReal) (ix2 0 j)) ((V c main_v9 : S1x2048.Idx → EReal) (ix2 0 j)) ((V c main_v10 : S1x2048.Idx → EReal) (ix2 0 j))
    ((V c main_v11 : S1x2048.Idx → EReal) (ix2 0 j)) ((V c main_v12 : S1x2048.Idx → EReal) (ix2 0 j)) ((V c main_v13 : S1x2048.Idx → EReal) (ix2 0 j))
    ((V c main_arg9 : S1x2048.Idx → EReal) (ix2 0 j)) ((V c main_arg2 : S512x2048.Idx → EReal) (ix2 b j))

/-- Entry (b, j) of the new trace array. -/
def wholeT (c : Dev nD) (b : Fin 512) (j : Fin 2048) : EReal :=
  Spec.cellT (fun k => (V c main_arg0 : S512x1024.Idx → EReal) (ix2 b k))
    (fun k => (V c main_v0 : S2048x1024.Idx → EReal) (ix2 j k)) (fun k => (V c main_v1 : S2048x1024.Idx → EReal) (ix2 j k))
    (fun k => (V c main_v2 : S2048x1024.Idx → EReal) (ix2 j k))
    (fun k => (V c main_arg1 : S512x2048.Idx → EReal) (ix2 b k))
    (fun k => (V c main_v3 : S2048x2048.Idx → EReal) (ix2 j k)) (fun k => (V c main_v4 : S2048x2048.Idx → EReal) (ix2 j k))
    (fun k => (V c main_v5 : S2048x2048.Idx → EReal) (ix2 j k))
    (fun k => (V c main_arg3 : S2048x2048.Idx → EReal) (ix2 j k))
    ((V c main_v8 : S1x2048.Idx → EReal) (ix2 0 j)) ((V c main_v9 : S1x2048.Idx → EReal) (ix2 0 j)) ((V c main_v10 : S1x2048.Idx → EReal) (ix2 0 j))
    ((V c main_v11 : S1x2048.Idx → EReal) (ix2 0 j)) ((V c main_v12 : S1x2048.Idx → EReal) (ix2 0 j)) ((V c main_v13 : S1x2048.Idx → EReal) (ix2 0 j))
    ((V c main_arg9 : S1x2048.Idx → EReal) (ix2 0 j)) ((V c main_arg2 : S512x2048.Idx → EReal) (ix2 b j))
    ((V c main_arg4 : S512x2048.Idx → EReal) (ix2 b j))

/-! ## The index maps, decided over the sixteen points -/

/-- x and h are handed whole: block index (0, 0) at every point. -/
theorem idx_whole : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The membrane, trace and alpha arrays are handed by columns: block index (0, t). -/
theorem idx_cols : ∀ t : Fin cfg0.N, win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The plastic array and the six weight slices are handed by rows: block index (t, 0). -/
theorem idx_rows : ∀ t : Fin cfg0.N, win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The six bias slices are handed by entries: block index (0, t). -/
theorem idx_bias : ∀ t : Fin cfg0.N, win0_12.index t (0 : Fin 2) = 0 ∧ win0_12.index t (1 : Fin 2) = t.val
    ∧ win0_13.index t (0 : Fin 2) = 0 ∧ win0_13.index t (1 : Fin 2) = t.val
    ∧ win0_14.index t (0 : Fin 2) = 0 ∧ win0_14.index t (1 : Fin 2) = t.val
    ∧ win0_15.index t (0 : Fin 2) = 0 ∧ win0_15.index t (1 : Fin 2) = t.val
    ∧ win0_16.index t (0 : Fin 2) = 0 ∧ win0_16.index t (1 : Fin 2) = t.val
    ∧ win0_17.index t (0 : Fin 2) = 0 ∧ win0_17.index t (1 : Fin 2) = t.val :=
  (by decide +kernel : ∀ t : Fin grid0.N, _)

/-- The three outputs are written back by columns: block index (0, t). -/
theorem idx_out : ∀ t : Fin cfg0.N, win0_18.index t (0 : Fin 2) = 0 ∧ win0_18.index t (1 : Fin 2) = t.val
    ∧ win0_19.index t (0 : Fin 2) = 0 ∧ win0_19.index t (1 : Fin 2) = t.val
    ∧ win0_20.index t (0 : Fin 2) = 0 ∧ win0_20.index t (1 : Fin 2) = t.val :=
  (by decide +kernel : ∀ t : Fin grid0.N, _)

/-! ## The eighteen input blocks at point t, each at its literal type -/

abbrev xblk (c : Dev nD) (t : Fin cfg0.N) : Vec Ideal S512x1024 .f32 := Gate.iblk V c 0 t
abbrev hblk (c : Dev nD) (t : Fin cfg0.N) : Vec Ideal S512x2048 .f32 := Gate.iblk V c 1 t
abbrev vblk (c : Dev nD) (t : Fin cfg0.N) : Vec Ideal S512x128 .f32 := Gate.iblk V c 2 t
abbrev trblk (c : Dev nD) (t : Fin cfg0.N) : Vec Ideal S512x128 .f32 := Gate.iblk V c 3 t
abbrev alblk (c : Dev nD) (t : Fin cfg0.N) : Vec Ideal S1x128 .f32 := Gate.iblk V c 4 t
abbrev dublk (c : Dev nD) (t : Fin cfg0.N) : Vec Ideal S128x2048 .f32 := Gate.iblk V c 5 t
abbrev wxzblk (c : Dev nD) (t : Fin cfg0.N) : Vec Ideal S128x1024 .f32 := Gate.iblk V c 6 t
abbrev wxrblk (c : Dev nD) (t : Fin cfg0.N) : Vec Ideal S128x1024 .f32 := Gate.iblk V c 7 t
abbrev wxvblk (c : Dev nD) (t : Fin cfg0.N) : Vec Ideal S128x1024 .f32 := Gate.iblk V c 8 t
abbrev whzblk (c : Dev nD) (t : Fin cfg0.N) : Vec Ideal S128x2048 .f32 := Gate.iblk V c 9 t
abbrev whrblk (c : Dev nD) (t : Fin cfg0.N) : Vec Ideal S128x2048 .f32 := Gate.iblk V c 10 t
abbrev whvblk (c : Dev nD) (t : Fin cfg0.N) : Vec Ideal S128x2048 .f32 := Gate.iblk V c 11 t
abbrev bxzblk (c : Dev nD) (t : Fin cfg0.N) : Vec Ideal S1x128 .f32 := Gate.iblk V c 12 t
abbrev bxrblk (c : Dev nD) (t : Fin cfg0.N) : Vec Ideal S1x128 .f32 := Gate.iblk V c 13 t
abbrev bxvblk (c : Dev nD) (t : Fin cfg0.N) : Vec Ideal S1x128 .f32 := Gate.iblk V c 14 t
abbrev bhzblk (c : Dev nD) (t : Fin cfg0.N) : Vec Ideal S1x128 .f32 := Gate.iblk V c 15 t
abbrev bhrblk (c : Dev nD) (t : Fin cfg0.N) : Vec Ideal S1x128 .f32 := Gate.iblk V c 16 t
abbrev bhvblk (c : Dev nD) (t : Fin cfg0.N) : Vec Ideal S1x128 .f32 := Gate.iblk V c 17 t

/-! ## Each block read at an entry: where it sits in its array

A block's coordinate on an axis is the block index times the block's extent plus the coordinate inside the block. -/

/-- The x block is x. -/
theorem xblk_apply (c : Dev nD) (t : Fin cfg0.N) (b : Fin 512) (k : Fin 1024) :
    xblk V c t (ix2 b k) = (V c main_arg0 : S512x1024.Idx → EReal) (ix2 b k) := by
  obtain ⟨e0, e1, -, -⟩ := idx_whole t
  show V c main_arg0 (((cfg0.win 0).blk t).view.emb (ix2 b k)) = V c main_arg0 (ix2 b k)
  refine congrArg _ ?_
  funext a; apply Fin.ext
  match a with
  | ⟨0, _⟩ => show win0_0.index t (0 : Fin 2) * 512 + 1 * b.val = b.val; omega
  | ⟨1, _⟩ => show win0_0.index t (1 : Fin 2) * 1024 + 1 * k.val = k.val; omega

/-- The h block is h. -/
theorem hblk_apply (c : Dev nD) (t : Fin cfg0.N) (b : Fin 512) (k : Fin 2048) :
    hblk V c t (ix2 b k) = (V c main_arg1 : S512x2048.Idx → EReal) (ix2 b k) := by
  obtain ⟨-, -, e0, e1⟩ := idx_whole t
  show V c main_arg1 (((cfg0.win 1).blk t).view.emb (ix2 b k)) = V c main_arg1 (ix2 b k)
  refine congrArg _ ?_
  funext a; apply Fin.ext
  match a with
  | ⟨0, _⟩ => show win0_1.index t (0 : Fin 2) * 512 + 1 * b.val = b.val; omega
  | ⟨1, _⟩ => show win0_1.index t (1 : Fin 2) * 2048 + 1 * k.val = k.val; omega

/-- Column q of the membrane block is column 128 t + q of the membrane array. -/
theorem vblk_apply (c : Dev nD) (t : Fin cfg0.N) (b : Fin 512) (q : Fin 128) (j : Fin 2048) (hj : j.val = 128 * t.val + q.val) :
    vblk V c t (ix2 b q) = (V c main_arg2 : S512x2048.Idx → EReal) (ix2 b j) := by
  obtain ⟨e0, e1, -, -, -, -⟩ := idx_cols t
  show V c main_arg2 (((cfg0.win 2).blk t).view.emb (ix2 b q)) = V c main_arg2 (ix2 b j)
  refine congrArg _ ?_
  funext a; apply Fin.ext
  match a with
  | ⟨0, _⟩ => show win0_2.index t (0 : Fin 2) * 512 + 1 * b.val = b.val; omega
  | ⟨1, _⟩ => show win0_2.index t (1 : Fin 2) * 128 + 1 * q.val = j.val; omega

/-- Column q of the trace block is column 128 t + q of the trace array. -/
theorem trblk_apply (c : Dev nD) (t : Fin cfg0.N) (b : Fin 512) (q : Fin 128) (j : Fin 2048) (hj : j.val = 128 * t.val + q.val) :
    trblk V c t (ix2 b q) = (V c main_arg4 : S512x2048.Idx → EReal) (ix2 b j) := by
  obtain ⟨-, -, e0, e1, -, -⟩ := idx_cols t
  show V c main_arg4 (((cfg0.win 3).blk t).view.emb (ix2 b q)) = V c main_arg4 (ix2 b j)
  refine congrArg _ ?_
  funext a; apply Fin.ext
  match a with
  | ⟨0, _⟩ => show win0_3.index t (0 : Fin 2) * 512 + 1 * b.val = b.val; omega
  | ⟨1, _⟩ => show win0_3.index t (1 : Fin 2) * 128 + 1 * q.val = j.val; omega

/-- Entry q of the alpha block is entry 128 t + q of alpha. -/
theorem alblk_apply (c : Dev nD) (t : Fin cfg0.N) (q : Fin 128) (j : Fin 2048) (hj : j.val = 128 * t.val + q.val) :
    alblk V c t (ix2 0 q) = (V c main_arg9 : S1x2048.Idx → EReal) (ix2 0 j) := by
  obtain ⟨-, -, -, -, e0, e1⟩ := idx_cols t
  show V c main_arg9 (((cfg0.win 4).blk t).view.emb (ix2 0 q)) = V c main_arg9 (ix2 0 j)
  refine congrArg _ ?_
  funext a; apply Fin.ext
  match a with
  | ⟨0, _⟩ => show win0_4.index t (0 : Fin 2) * 1 + 1 * 0 = 0; omega
  | ⟨1, _⟩ => show win0_4.index t (1 : Fin 2) * 128 + 1 * q.val = j.val; omega

/-- Row q of the plastic block is row 128 t + q of the plastic array. -/
theorem dublk_apply (c : Dev nD) (t : Fin cfg0.N) (q : Fin 128) (j : Fin 2048) (hj : j.val = 128 * t.val + q.val) (k : Fin 2048) :
    dublk V c t (ix2 q k) = (V c main_arg3 : S2048x2048.Idx → EReal) (ix2 j k) := by
  obtain ⟨e0, e1, -⟩ := idx_rows t
  show V c main_arg3 (((cfg0.win 5).blk t).view.emb (ix2 q k)) = V c main_arg3 (ix2 j k)
  refine congrArg _ ?_
  funext a; apply Fin.ext
  match a with
  | ⟨0, _⟩ => show win0_5.index t (0 : Fin 2) * 128 + 1 * q.val = j.val; omega
  | ⟨1, _⟩ => show win0_5.index t (1 : Fin 2) * 2048 + 1 * k.val = k.val; omega

/-- Row q of the first x-weight block is row 128 t + q of the first x-weight slice. -/
theorem wxzblk_apply (c : Dev nD) (t : Fin cfg0.N) (q : Fin 128) (j : Fin 2048) (hj : j.val = 128 * t.val + q.val) (k : Fin 1024) :
    wxzblk V c t (ix2 q k) = (V c main_v0 : S2048x1024.Idx → EReal) (ix2 j k) := by
  obtain ⟨-, -, e0, e1, -⟩ := idx_rows t
  show V c main_v0 (((cfg0.win 6).blk t).view.emb (ix2 q k)) = V c main_v0 (ix2 j k)
  refine congrArg _ ?_
  funext a; apply Fin.ext
  match a with
  | ⟨0, _⟩ => show win0_6.index t (0 : Fin 2) * 128 + 1 * q.val = j.val; omega
  | ⟨1, _⟩ => show win0_6.index t (1 : Fin 2) * 1024 + 1 * k.val = k.val; omega

/-- Row q of the second x-weight block is row 128 t + q of the second x-weight slice. -/
theorem wxrblk_apply (c : Dev nD) (t : Fin cfg0.N) (q : Fin 128) (j : Fin 2048) (hj : j.val = 128 * t.val + q.val) (k : Fin 1024) :
    wxrblk V c t (ix2 q k) = (V c main_v1 : S2048x1024.Idx → EReal) (ix2 j k) := by
  obtain ⟨-, -, -, -, e0, e1, -⟩ := idx_rows t
  show V c main_v1 (((cfg0.win 7).blk t).view.emb (ix2 q k)) = V c main_v1 (ix2 j k)
  refine congrArg _ ?_
  funext a; apply Fin.ext
  match a with
  | ⟨0, _⟩ => show win0_7.index t (0 : Fin 2) * 128 + 1 * q.val = j.val; omega
  | ⟨1, _⟩ => show win0_7.index t (1 : Fin 2) * 1024 + 1 * k.val = k.val; omega

/-- Row q of the third x-weight block is row 128 t + q of the third x-weight slice. -/
theorem wxvblk_apply (c : Dev nD) (t : Fin cfg0.N) (q : Fin 128) (j : Fin 2048) (hj : j.val = 128 * t.val + q.val) (k : Fin 1024) :
    wxvblk V c t (ix2 q k) = (V c main_v2 : S2048x1024.Idx → EReal) (ix2 j k) := by
  obtain ⟨-, -, -, -, -, -, e0, e1, -⟩ := idx_rows t
  show V c main_v2 (((cfg0.win 8).blk t).view.emb (ix2 q k)) = V c main_v2 (ix2 j k)
  refine congrArg _ ?_
  funext a; apply Fin.ext
  match a with
  | ⟨0, _⟩ => show win0_8.index t (0 : Fin 2) * 128 + 1 * q.val = j.val; omega
  | ⟨1, _⟩ => show win0_8.index t (1 : Fin 2) * 1024 + 1 * k.val = k.val; omega

/-- Row q of the first h-weight block is row 128 t + q of the first h-weight slice. -/
theorem whzblk_apply (c : Dev nD) (t : Fin cfg0.N) (q : Fin 128) (j : Fin 2048) (hj : j.val = 128 * t.val + q.val) (k : Fin 2048) :
    whzblk V c t (ix2 q k) = (V c main_v3 : S2048x2048.Idx → EReal) (ix2 j k) := by
  obtain ⟨-, -, -, -, -, -, -, -, e0, e1, -⟩ := idx_rows t
  show V c main_v3 (((cfg0.win 9).blk t).view.emb (ix2 q k)) = V c main_v3 (ix2 j k)
  refine congrArg _ ?_
  funext a; apply Fin.ext
  match a with
  | ⟨0, _⟩ => show win0_9.index t (0 : Fin 2) * 128 + 1 * q.val = j.val; omega
  | ⟨1, _⟩ => show win0_9.index t (1 : Fin 2) * 2048 + 1 * k.val = k.val; omega

/-- Row q of the second h-weight block is row 128 t + q of the second h-weight slice. -/
theorem whrblk_apply (c : Dev nD) (t : Fin cfg0.N) (q : Fin 128) (j : Fin 2048) (hj : j.val = 128 * t.val + q.val) (k : Fin 2048) :
    whrblk V c t (ix2 q k) = (V c main_v4 : S2048x2048.Idx → EReal) (ix2 j k) := by
  obtain ⟨-, -, -, -, -, -, -, -, -, -, e0, e1, -⟩ := idx_rows t
  show V c main_v4 (((cfg0.win 10).blk t).view.emb (ix2 q k)) = V c main_v4 (ix2 j k)
  refine congrArg _ ?_
  funext a; apply Fin.ext
  match a with
  | ⟨0, _⟩ => show win0_10.index t (0 : Fin 2) * 128 + 1 * q.val = j.val; omega
  | ⟨1, _⟩ => show win0_10.index t (1 : Fin 2) * 2048 + 1 * k.val = k.val; omega

/-- Row q of the third h-weight block is row 128 t + q of the third h-weight slice. -/
theorem whvblk_apply (c : Dev nD) (t : Fin cfg0.N) (q : Fin 128) (j : Fin 2048) (hj : j.val = 128 * t.val + q.val) (k : Fin 2048) :
    whvblk V c t (ix2 q k) = (V c main_v5 : S2048x2048.Idx → EReal) (ix2 j k) := by
  obtain ⟨-, -, -, -, -, -, -, -, -, -, -, -, e0, e1⟩ := idx_rows t
  show V c main_v5 (((cfg0.win 11).blk t).view.emb (ix2 q k)) = V c main_v5 (ix2 j k)
  refine congrArg _ ?_
  funext a; apply Fin.ext
  match a with
  | ⟨0, _⟩ => show win0_11.index t (0 : Fin 2) * 128 + 1 * q.val = j.val; omega
  | ⟨1, _⟩ => show win0_11.index t (1 : Fin 2) * 2048 + 1 * k.val = k.val; omega

/-- Entry q of the first bias block is entry 128 t + q of the first bias slice. -/
theorem bxzblk_apply (c : Dev nD) (t : Fin cfg0.N) (q : Fin 128) (j : Fin 2048) (hj : j.val = 128 * t.val + q.val) :
    bxzblk V c t (ix2 0 q) = (V c main_v8 : S1x2048.Idx → EReal) (ix2 0 j) := by
  obtain ⟨e0, e1, -⟩ := idx_bias t
  show V c main_v8 (((cfg0.win 12).blk t).view.emb (ix2 0 q)) = V c main_v8 (ix2 0 j)
  refine congrArg _ ?_
  funext a; apply Fin.ext
  match a with
  | ⟨0, _⟩ => show win0_12.index t (0 : Fin 2) * 1 + 1 * 0 = 0; omega
  | ⟨1, _⟩ => show win0_12.index t (1 : Fin 2) * 128 + 1 * q.val = j.val; omega

/-- Entry q of the second bias block is entry 128 t + q of the second bias slice. -/
theorem bxrblk_apply (c : Dev nD) (t : Fin cfg0.N) (q : Fin 128) (j : Fin 2048) (hj : j.val = 128 * t.val + q.val) :
    bxrblk V c t (ix2 0 q) = (V c main_v9 : S1x2048.Idx → EReal) (ix2 0 j) := by
  obtain ⟨-, -, e0, e1, -⟩ := idx_bias t
  show V c main_v9 (((cfg0.win 13).blk t).view.emb (ix2 0 q)) = V c main_v9 (ix2 0 j)
  refine congrArg _ ?_
  funext a; apply Fin.ext
  match a with
  | ⟨0, _⟩ => show win0_13.index t (0 : Fin 2) * 1 + 1 * 0 = 0; omega
  | ⟨1, _⟩ => show win0_13.index t (1 : Fin 2) * 128 + 1 * q.val = j.val; omega

/-- Entry q of the third bias block is entry 128 t + q of the third bias slice. -/
theorem bxvblk_apply (c : Dev nD) (t : Fin cfg0.N) (q : Fin 128) (j : Fin 2048) (hj : j.val = 128 * t.val + q.val) :
    bxvblk V c t (ix2 0 q) = (V c main_v10 : S1x2048.Idx → EReal) (ix2 0 j) := by
  obtain ⟨-, -, -, -, e0, e1, -⟩ := idx_bias t
  show V c main_v10 (((cfg0.win 14).blk t).view.emb (ix2 0 q)) = V c main_v10 (ix2 0 j)
  refine congrArg _ ?_
  funext a; apply Fin.ext
  match a with
  | ⟨0, _⟩ => show win0_14.index t (0 : Fin 2) * 1 + 1 * 0 = 0; omega
  | ⟨1, _⟩ => show win0_14.index t (1 : Fin 2) * 128 + 1 * q.val = j.val; omega

/-- Entry q of the fourth bias block is entry 128 t + q of the fourth bias slice. -/
theorem bhzblk_apply (c : Dev nD) (t : Fin cfg0.N) (q : Fin 128) (j : Fin 2048) (hj : j.val = 128 * t.val + q.val) :
    bhzblk V c t (ix2 0 q) = (V c main_v11 : S1x2048.Idx → EReal) (ix2 0 j) := by
  obtain ⟨-, -, -, -, -, -, e0, e1, -⟩ := idx_bias t
  show V c main_v11 (((cfg0.win 15).blk t).view.emb (ix2 0 q)) = V c main_v11 (ix2 0 j)
  refine congrArg _ ?_
  funext a; apply Fin.ext
  match a with
  | ⟨0, _⟩ => show win0_15.index t (0 : Fin 2) * 1 + 1 * 0 = 0; omega
  | ⟨1, _⟩ => show win0_15.index t (1 : Fin 2) * 128 + 1 * q.val = j.val; omega

/-- Entry q of the fifth bias block is entry 128 t + q of the fifth bias slice. -/
theorem bhrblk_apply (c : Dev nD) (t : Fin cfg0.N) (q : Fin 128) (j : Fin 2048) (hj : j.val = 128 * t.val + q.val) :
    bhrblk V c t (ix2 0 q) = (V c main_v12 : S1x2048.Idx → EReal) (ix2 0 j) := by
  obtain ⟨-, -, -, -, -, -, -, -, e0, e1, -⟩ := idx_bias t
  show V c main_v12 (((cfg0.win 16).blk t).view.emb (ix2 0 q)) = V c main_v12 (ix2 0 j)
  refine congrArg _ ?_
  funext a; apply Fin.ext
  match a with
  | ⟨0, _⟩ => show win0_16.index t (0 : Fin 2) * 1 + 1 * 0 = 0; omega
  | ⟨1, _⟩ => show win0_16.index t (1 : Fin 2) * 128 + 1 * q.val = j.val; omega

/-- Entry q of the sixth bias block is entry 128 t + q of the sixth bias slice. -/
theorem bhvblk_apply (c : Dev nD) (t : Fin cfg0.N) (q : Fin 128) (j : Fin 2048) (hj : j.val = 128 * t.val + q.val) :
    bhvblk V c t (ix2 0 q) = (V c main_v13 : S1x2048.Idx → EReal) (ix2 0 j) := by
  obtain ⟨-, -, -, -, -, -, -, -, -, -, e0, e1⟩ := idx_bias t
  show V c main_v13 (((cfg0.win 17).blk t).view.emb (ix2 0 q)) = V c main_v13 (ix2 0 j)
  refine congrArg _ ?_
  funext a; apply Fin.ext
  match a with
  | ⟨0, _⟩ => show win0_17.index t (0 : Fin 2) * 1 + 1 * 0 = 0; omega
  | ⟨1, _⟩ => show win0_17.index t (1 : Fin 2) * 128 + 1 * q.val = j.val; omega

/-! ## What a point writes back, entry by entry -/

/-- Entry (b, q) of the membrane block point t stores is entry (b, 128 t + q) of the whole-array function. -/
theorem entryV (c : Dev nD) (t : Fin cfg0.N) (b : Fin 512) (q : Fin 128) (j : Fin 2048) (hj : j.val = 128 * t.val + q.val) :
    Gate.outV (Gate.iblk V c 0 t) (Gate.iblk V c 1 t) (Gate.iblk V c 2 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (ix2 b q)
      = wholeV V c b j := by
  refine (GateValue.outV_apply (xblk V c t) (hblk V c t) (vblk V c t) (alblk V c t) (dublk V c t) (wxzblk V c t) (wxrblk V c t) (wxvblk V c t) (whzblk V c t) (whrblk V c t) (whvblk V c t) (bxzblk V c t) (bxrblk V c t) (bxvblk V c t) (bhzblk V c t) (bhrblk V c t) (bhvblk V c t) b q).trans ?_
  unfold wholeV
  simp only [xblk_apply V c t b, hblk_apply V c t b, vblk_apply V c t b q j hj, alblk_apply V c t q j hj, dublk_apply V c t q j hj,
    wxzblk_apply V c t q j hj, wxrblk_apply V c t q j hj, wxvblk_apply V c t q j hj, whzblk_apply V c t q j hj, whrblk_apply V c t q j hj,
    whvblk_apply V c t q j hj, bxzblk_apply V c t q j hj, bxrblk_apply V c t q j hj, bxvblk_apply V c t q j hj, bhzblk_apply V c t q j hj,
    bhrblk_apply V c t q j hj, bhvblk_apply V c t q j hj]

/-- What point t writes back to the new membrane array is its block of the whole-array function. -/
theorem flushed18_eq (c : Dev nD) (t : Fin cfg0.N) :
    (Gate.dat V c).flushed 18 t = ((cfg0.win 18).blk t).view.read (Elt Ideal) (fun i : S512x2048.Idx => wholeV V c (i 0) (i 1)) := by
  show (cfg0.win 18).cut (grid0.coords t) ((Gate.dat V c).after 18 t) = _
  rw [Gate.after_18]
  obtain ⟨e0, e1, -, -, -, -⟩ := idx_out t
  funext y
  have hb : (y 0).val < 512 := (y 0).isLt
  have hq : (y 1).val < 128 := (y 1).isLt
  have hy : (win0_18.xinj (grid0.coords t) y : S512x128.Idx) = ix2 ⟨(y 0).val, hb⟩ ⟨(y 1).val, hq⟩ := by
    funext a; match a with | ⟨0, _⟩ => rfl | ⟨1, _⟩ => rfl
  have h0 : (((cfg0.win 18).blk t).view.emb y : S512x2048.Idx) 0 = ⟨(y 0).val, hb⟩ := by
    apply Fin.ext
    show win0_18.index t (0 : Fin 2) * 512 + 1 * (y 0).val = (y 0).val; omega
  have h1 : ((((cfg0.win 18).blk t).view.emb y : S512x2048.Idx) 1).val = 128 * t.val + (y 1).val := by
    show win0_18.index t (1 : Fin 2) * 128 + 1 * (y 1).val = _; omega
  show Gate.outV (Gate.iblk V c 0 t) (Gate.iblk V c 1 t) (Gate.iblk V c 2 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (win0_18.xinj (grid0.coords t) y)
      = wholeV V c ((((cfg0.win 18).blk t).view.emb y : S512x2048.Idx) 0) ((((cfg0.win 18).blk t).view.emb y : S512x2048.Idx) 1)
  rw [hy, h0]
  exact entryV V c t ⟨(y 0).val, hb⟩ ⟨(y 1).val, hq⟩ _ h1

/-- Entry (b, q) of the hidden block point t stores is entry (b, 128 t + q) of the whole-array function. -/
theorem entryH (c : Dev nD) (t : Fin cfg0.N) (b : Fin 512) (q : Fin 128) (j : Fin 2048) (hj : j.val = 128 * t.val + q.val) :
    Gate.outH (Gate.iblk V c 0 t) (Gate.iblk V c 1 t) (Gate.iblk V c 2 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (ix2 b q)
      = wholeH V c b j := by
  refine (GateValue.outH_apply (xblk V c t) (hblk V c t) (vblk V c t) (alblk V c t) (dublk V c t) (wxzblk V c t) (wxrblk V c t) (wxvblk V c t) (whzblk V c t) (whrblk V c t) (whvblk V c t) (bxzblk V c t) (bxrblk V c t) (bxvblk V c t) (bhzblk V c t) (bhrblk V c t) (bhvblk V c t) b q).trans ?_
  unfold wholeH
  simp only [xblk_apply V c t b, hblk_apply V c t b, vblk_apply V c t b q j hj, alblk_apply V c t q j hj, dublk_apply V c t q j hj,
    wxzblk_apply V c t q j hj, wxrblk_apply V c t q j hj, wxvblk_apply V c t q j hj, whzblk_apply V c t q j hj, whrblk_apply V c t q j hj,
    whvblk_apply V c t q j hj, bxzblk_apply V c t q j hj, bxrblk_apply V c t q j hj, bxvblk_apply V c t q j hj, bhzblk_apply V c t q j hj,
    bhrblk_apply V c t q j hj, bhvblk_apply V c t q j hj]

/-- What point t writes back to the new hidden array is its block of the whole-array function. -/
theorem flushed19_eq (c : Dev nD) (t : Fin cfg0.N) :
    (Gate.dat V c).flushed 19 t = ((cfg0.win 19).blk t).view.read (Elt Ideal) (fun i : S512x2048.Idx => wholeH V c (i 0) (i 1)) := by
  show (cfg0.win 19).cut (grid0.coords t) ((Gate.dat V c).after 19 t) = _
  rw [Gate.after_19]
  obtain ⟨-, -, e0, e1, -, -⟩ := idx_out t
  funext y
  have hb : (y 0).val < 512 := (y 0).isLt
  have hq : (y 1).val < 128 := (y 1).isLt
  have hy : (win0_19.xinj (grid0.coords t) y : S512x128.Idx) = ix2 ⟨(y 0).val, hb⟩ ⟨(y 1).val, hq⟩ := by
    funext a; match a with | ⟨0, _⟩ => rfl | ⟨1, _⟩ => rfl
  have h0 : (((cfg0.win 19).blk t).view.emb y : S512x2048.Idx) 0 = ⟨(y 0).val, hb⟩ := by
    apply Fin.ext
    show win0_19.index t (0 : Fin 2) * 512 + 1 * (y 0).val = (y 0).val; omega
  have h1 : ((((cfg0.win 19).blk t).view.emb y : S512x2048.Idx) 1).val = 128 * t.val + (y 1).val := by
    show win0_19.index t (1 : Fin 2) * 128 + 1 * (y 1).val = _; omega
  show Gate.outH (Gate.iblk V c 0 t) (Gate.iblk V c 1 t) (Gate.iblk V c 2 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (win0_19.xinj (grid0.coords t) y)
      = wholeH V c ((((cfg0.win 19).blk t).view.emb y : S512x2048.Idx) 0) ((((cfg0.win 19).blk t).view.emb y : S512x2048.Idx) 1)
  rw [hy, h0]
  exact entryH V c t ⟨(y 0).val, hb⟩ ⟨(y 1).val, hq⟩ _ h1

/-- Entry (b, q) of the trace block point t stores is entry (b, 128 t + q) of the whole-array function; it also reads
    entry (b, q) of the trace block handed in. -/
theorem entryT (c : Dev nD) (t : Fin cfg0.N) (b : Fin 512) (q : Fin 128) (j : Fin 2048) (hj : j.val = 128 * t.val + q.val) :
    Gate.outT (Gate.iblk V c 0 t) (Gate.iblk V c 1 t) (Gate.iblk V c 2 t) (Gate.iblk V c 3 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (ix2 b q)
      = wholeT V c b j := by
  refine (GateValue.outT_apply (xblk V c t) (hblk V c t) (vblk V c t) (trblk V c t) (alblk V c t) (dublk V c t) (wxzblk V c t) (wxrblk V c t) (wxvblk V c t) (whzblk V c t) (whrblk V c t) (whvblk V c t) (bxzblk V c t) (bxrblk V c t) (bxvblk V c t) (bhzblk V c t) (bhrblk V c t) (bhvblk V c t) b q).trans ?_
  unfold wholeT
  simp only [xblk_apply V c t b, hblk_apply V c t b, vblk_apply V c t b q j hj, trblk_apply V c t b q j hj, alblk_apply V c t q j hj,
    dublk_apply V c t q j hj, wxzblk_apply V c t q j hj, wxrblk_apply V c t q j hj, wxvblk_apply V c t q j hj, whzblk_apply V c t q j hj,
    whrblk_apply V c t q j hj, whvblk_apply V c t q j hj, bxzblk_apply V c t q j hj, bxrblk_apply V c t q j hj, bxvblk_apply V c t q j hj,
    bhzblk_apply V c t q j hj, bhrblk_apply V c t q j hj, bhvblk_apply V c t q j hj]

/-- What point t writes back to the new trace array is its block of the whole-array function. -/
theorem flushed20_eq (c : Dev nD) (t : Fin cfg0.N) :
    (Gate.dat V c).flushed 20 t = ((cfg0.win 20).blk t).view.read (Elt Ideal) (fun i : S512x2048.Idx => wholeT V c (i 0) (i 1)) := by
  show (cfg0.win 20).cut (grid0.coords t) ((Gate.dat V c).after 20 t) = _
  rw [Gate.after_20]
  obtain ⟨-, -, -, -, e0, e1⟩ := idx_out t
  funext y
  have hb : (y 0).val < 512 := (y 0).isLt
  have hq : (y 1).val < 128 := (y 1).isLt
  have hy : (win0_20.xinj (grid0.coords t) y : S512x128.Idx) = ix2 ⟨(y 0).val, hb⟩ ⟨(y 1).val, hq⟩ := by
    funext a; match a with | ⟨0, _⟩ => rfl | ⟨1, _⟩ => rfl
  have h0 : (((cfg0.win 20).blk t).view.emb y : S512x2048.Idx) 0 = ⟨(y 0).val, hb⟩ := by
    apply Fin.ext
    show win0_20.index t (0 : Fin 2) * 512 + 1 * (y 0).val = (y 0).val; omega
  have h1 : ((((cfg0.win 20).blk t).view.emb y : S512x2048.Idx) 1).val = 128 * t.val + (y 1).val := by
    show win0_20.index t (1 : Fin 2) * 128 + 1 * (y 1).val = _; omega
  show Gate.outT (Gate.iblk V c 0 t) (Gate.iblk V c 1 t) (Gate.iblk V c 2 t) (Gate.iblk V c 3 t) (Gate.iblk V c 4 t) (Gate.iblk V c 5 t) (Gate.iblk V c 6 t) (Gate.iblk V c 7 t) (Gate.iblk V c 8 t) (Gate.iblk V c 9 t) (Gate.iblk V c 10 t) (Gate.iblk V c 11 t) (Gate.iblk V c 12 t) (Gate.iblk V c 13 t) (Gate.iblk V c 14 t) (Gate.iblk V c 15 t) (Gate.iblk V c 16 t) (Gate.iblk V c 17 t) (win0_20.xinj (grid0.coords t) y)
      = wholeT V c ((((cfg0.win 20).blk t).view.emb y : S512x2048.Idx) 0) ((((cfg0.win 20).blk t).view.emb y : S512x2048.Idx) 1)
  rw [hy, h0]
  exact entryT V c t ⟨(y 0).val, hb⟩ ⟨(y 1).val, hq⟩ _ h1

/-! ## The sixteen column blocks tile each output -/

/-- An index of the new membrane array is in point t's block iff each coordinate is in the block's range on its axis. -/
theorem mem_blk18 (t : Fin cfg0.N) (i : S512x2048.Idx) :
    i ∈ ((cfg0.win 18).blk t).view.set ↔ ∀ a : Fin 2, win0_18.index t a * S512x128.size a ≤ (i a).val ∧ (i a).val < win0_18.index t a * S512x128.size a + S512x128.size a := by
  show i ∈ ((View.whole main_v14_0).slice (win0_18.rect t)).set ↔ _
  rw [View.set_slice_whole, Rect.mem_set_unit]
  exact Iff.rfl

/-- Column j lies in the block of point j / 128. -/
theorem cover18 (i : S512x2048.Idx) : ∃ t : Fin cfg0.N, (cfg0.win 18).flush t = true ∧ i ∈ ((cfg0.win 18).blk t).view.set := by
  have hi0 : (i 0).val < 512 := (i 0).isLt
  have hi1 : (i 1).val < 2048 := (i 1).isLt
  have hlt : (i 1).val / 128 < cfg0.N := by show (i 1).val / 128 < 16; omega
  obtain ⟨e0, e1, -, -, -, -⟩ := idx_out ⟨(i 1).val / 128, hlt⟩
  refine ⟨⟨(i 1).val / 128, hlt⟩, flush0_18 _, ?_⟩
  rw [mem_blk18]
  intro a
  match a with
  | ⟨0, _⟩ => show win0_18.index ⟨(i 1).val / 128, hlt⟩ (0 : Fin 2) * 512 ≤ (i 0).val ∧ (i 0).val < win0_18.index ⟨(i 1).val / 128, hlt⟩ (0 : Fin 2) * 512 + 512; omega
  | ⟨1, _⟩ =>
    have e1' : win0_18.index ⟨(i 1).val / 128, hlt⟩ (1 : Fin 2) = (i 1).val / 128 := e1
    show win0_18.index ⟨(i 1).val / 128, hlt⟩ (1 : Fin 2) * 128 ≤ (i 1).val ∧ (i 1).val < win0_18.index ⟨(i 1).val / 128, hlt⟩ (1 : Fin 2) * 128 + 128
    omega

/-- An index of the new hidden array is in point t's block iff each coordinate is in the block's range on its axis. -/
theorem mem_blk19 (t : Fin cfg0.N) (i : S512x2048.Idx) :
    i ∈ ((cfg0.win 19).blk t).view.set ↔ ∀ a : Fin 2, win0_19.index t a * S512x128.size a ≤ (i a).val ∧ (i a).val < win0_19.index t a * S512x128.size a + S512x128.size a := by
  show i ∈ ((View.whole main_v14_1).slice (win0_19.rect t)).set ↔ _
  rw [View.set_slice_whole, Rect.mem_set_unit]
  exact Iff.rfl

/-- Column j of the new hidden array lies in the block of point j / 128. -/
theorem cover19 (i : S512x2048.Idx) : ∃ t : Fin cfg0.N, (cfg0.win 19).flush t = true ∧ i ∈ ((cfg0.win 19).blk t).view.set := by
  have hi0 : (i 0).val < 512 := (i 0).isLt
  have hi1 : (i 1).val < 2048 := (i 1).isLt
  have hlt : (i 1).val / 128 < cfg0.N := by show (i 1).val / 128 < 16; omega
  obtain ⟨-, -, e0, e1, -, -⟩ := idx_out ⟨(i 1).val / 128, hlt⟩
  refine ⟨⟨(i 1).val / 128, hlt⟩, flush0_19 _, ?_⟩
  rw [mem_blk19]
  intro a
  match a with
  | ⟨0, _⟩ => show win0_19.index ⟨(i 1).val / 128, hlt⟩ (0 : Fin 2) * 512 ≤ (i 0).val ∧ (i 0).val < win0_19.index ⟨(i 1).val / 128, hlt⟩ (0 : Fin 2) * 512 + 512; omega
  | ⟨1, _⟩ =>
    have e1' : win0_19.index ⟨(i 1).val / 128, hlt⟩ (1 : Fin 2) = (i 1).val / 128 := e1
    show win0_19.index ⟨(i 1).val / 128, hlt⟩ (1 : Fin 2) * 128 ≤ (i 1).val ∧ (i 1).val < win0_19.index ⟨(i 1).val / 128, hlt⟩ (1 : Fin 2) * 128 + 128
    omega

/-- An index of the new trace array is in point t's block iff each coordinate is in the block's range on its axis. -/
theorem mem_blk20 (t : Fin cfg0.N) (i : S512x2048.Idx) :
    i ∈ ((cfg0.win 20).blk t).view.set ↔ ∀ a : Fin 2, win0_20.index t a * S512x128.size a ≤ (i a).val ∧ (i a).val < win0_20.index t a * S512x128.size a + S512x128.size a := by
  show i ∈ ((View.whole main_v14_2).slice (win0_20.rect t)).set ↔ _
  rw [View.set_slice_whole, Rect.mem_set_unit]
  exact Iff.rfl

/-- Column j of the new trace array lies in the block of point j / 128. -/
theorem cover20 (i : S512x2048.Idx) : ∃ t : Fin cfg0.N, (cfg0.win 20).flush t = true ∧ i ∈ ((cfg0.win 20).blk t).view.set := by
  have hi0 : (i 0).val < 512 := (i 0).isLt
  have hi1 : (i 1).val < 2048 := (i 1).isLt
  have hlt : (i 1).val / 128 < cfg0.N := by show (i 1).val / 128 < 16; omega
  obtain ⟨-, -, -, -, e0, e1⟩ := idx_out ⟨(i 1).val / 128, hlt⟩
  refine ⟨⟨(i 1).val / 128, hlt⟩, flush0_20 _, ?_⟩
  rw [mem_blk20]
  intro a
  match a with
  | ⟨0, _⟩ => show win0_20.index ⟨(i 1).val / 128, hlt⟩ (0 : Fin 2) * 512 ≤ (i 0).val ∧ (i 0).val < win0_20.index ⟨(i 1).val / 128, hlt⟩ (0 : Fin 2) * 512 + 512; omega
  | ⟨1, _⟩ =>
    have e1' : win0_20.index ⟨(i 1).val / 128, hlt⟩ (1 : Fin 2) = (i 1).val / 128 := e1
    show win0_20.index ⟨(i 1).val / 128, hlt⟩ (1 : Fin 2) * 128 ≤ (i 1).val ∧ (i 1).val < win0_20.index ⟨(i 1).val / 128, hlt⟩ (1 : Fin 2) * 128 + 128
    omega

/-- The new membrane array after the last write-back. -/
theorem arr18 (c : Dev nD) : (Gate.dat V c).arrAt 18 cfg0.N = fun i : S512x2048.Idx => wholeV V c (i 0) (i 1) := by
  exact (Gate.dat V c).arrAt_eq_of_cover 18 (fun i : S512x2048.Idx => wholeV V c (i 0) (i 1)) (fun t _ => flushed18_eq V c t) cover18

/-- The new hidden array after the last write-back. -/
theorem arr19 (c : Dev nD) : (Gate.dat V c).arrAt 19 cfg0.N = fun i : S512x2048.Idx => wholeH V c (i 0) (i 1) := by
  exact (Gate.dat V c).arrAt_eq_of_cover 19 (fun i : S512x2048.Idx => wholeH V c (i 0) (i 1)) (fun t _ => flushed19_eq V c t) cover19

/-- The new trace array after the last write-back. -/
theorem arr20 (c : Dev nD) : (Gate.dat V c).arrAt 20 cfg0.N = fun i : S512x2048.Idx => wholeT V c (i 0) (i 1) := by
  exact (Gate.dat V c).arrAt_eq_of_cover 20 (fun i : S512x2048.Idx => wholeT V c (i 0) (i 1)) (fun t _ => flushed20_eq V c t) cover20

end Cert.KernelIdeal.GateArrays

end
-- ==== Proof.StdpValue.lean ====
import proofs.«137782_j89696097009958_1_alg».proof.Proof.StdpBody
import proofs.«137782_j89696097009958_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import Mathlib.Algebra.BigOperators.Group.Finset.Defs
import Mathlib.Algebra.BigOperators.Group.Finset.Basic

set_option maxRecDepth 16384

noncomputable section

/-!
  What the plasticity kernel stores, read at one entry, on the extended reals.

  Entry (a, b) of the stored block is the cell function of column a of the first hidden block, column b of the second,
  column a of the first trace block, column b of the second, and entry (a, b) of the old block: both matrix products
  contract the batch axis (axis 0 of both operands), into a zero accumulator.
-/
namespace Cert.KernelIdeal.StdpValue
open Cert.KernelIdeal Cert.KernelIdeal.Gen
open Idealize.ShloMosaic Idealize.ShloMosaic.TcCoe Idealize.ShloMosaic.ValueIdx Idealize.SL.Sem

/-! ## The operand indices of the product that contracts axis 0 of both operands

At output entry i and contraction position q, the left operand is read at (q, i 0) and the right one at (q, i 1):
axis 0 of each operand is the contracted one, axis 1 of the left operand is the output's axis 0 and axis 1 of the
right operand is the output's axis 1. One statement per operand and axis. -/

/-- Left operand, axis 0: the contraction position. -/
theorem lhsIdx_axis0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q

/-- Left operand, axis 1: the output's row. -/
theorem lhsIdx_axis1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl

/-- Right operand, axis 0: the contraction position. -/
theorem rhsIdx_axis0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q

/-- Right operand, axis 1: the output's column. -/
theorem rhsIdx_axis1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-! ## The product into a zero accumulator, at an entry -/

/-- On the extended reals the product into the zero block is the plain sum: entry (a, b) is the sum over the 512 batch
    rows k of x (k, a) times y (k, b). The sum over the one-axis contraction shape is re-indexed by its coordinate, and
    each operand index is read off axis by axis. -/
theorem matmul_zero_apply (x y : FVec Ideal S512x512 .bf16) (a b : Fin 512) :
    matmul (F := Ideal) dot_S512x512_S512x512_S512x512_0_0_1_1_n_n none x y (constant (F := Ideal) S512x512 .f32 0x00000000#32) (ix2 a b)
      = ∑ k : Fin 512, x (ix2 k a) * y (ix2 k b) := by
  simp only [matmul]
  rw [Ideal.matmul_constant_zero_apply, ← Equiv.sum_comp (ValueIdx.contrEquiv1 dot_S512x512_S512x512_S512x512_0_0_1_1_n_n 512 rfl rfl).symm]
  refine Finset.sum_congr rfl fun k _ => ?_
  have hk := ValueIdx.contrEquiv1_symm_val dot_S512x512_S512x512_S512x512_0_0_1_1_n_n 512 rfl rfl k
  have el : dot_S512x512_S512x512_S512x512_0_0_1_1_n_n.lhsIdx (ix2 a b) ((ValueIdx.contrEquiv1 dot_S512x512_S512x512_S512x512_0_0_1_1_n_n 512 rfl rfl).symm k) = ix2 k a := funext fun c => Fin.ext (by
    match c with
    | ⟨0, _⟩ => exact (lhsIdx_axis0 _ _).trans hk
    | ⟨1, _⟩ => exact lhsIdx_axis1 _ _)
  have er : dot_S512x512_S512x512_S512x512_0_0_1_1_n_n.rhsIdx (ix2 a b) ((ValueIdx.contrEquiv1 dot_S512x512_S512x512_S512x512_0_0_1_1_n_n 512 rfl rfl).symm k) = ix2 k b := funext fun c => Fin.ext (by
    match c with
    | ⟨0, _⟩ => exact (rhsIdx_axis0 _ _).trans hk
    | ⟨1, _⟩ => exact rhsIdx_axis1 _ _)
  rw [el, er]

/-! ## The stored block at an entry

The two casts to the same shape are identities and the narrowing to the 16-bit type is exact on the extended reals, so
the four operands of the two products are the blocks themselves; min, max, sum, difference and product act entrywise;
the two products are the sums above. The constants are the same float words on both sides and are not evaluated. -/

/-- Entry (a, b) of the stored block. -/
theorem outU_apply (hp hq tp tq du : Vec Ideal S512x512 .f32) (a b : Fin 512) :
    Stdp.outU (F := Ideal) hp hq tp tq du (ix2 a b)
      = Spec.cellU (fun k => hp (ix2 k a)) (fun k => hq (ix2 k b)) (fun k => tp (ix2 k a)) (fun k => tq (ix2 k b)) (du (ix2 a b)) := by
  unfold Stdp.outU k1_pay1 Spec.cellU Spec.dot
  rw [shapeCast_self hp, shapeCast_self hq]
  rw [minimumf_apply, maximumf_apply, addf_apply, mulf_apply, mulf_apply, subf_apply, matmul_zero_apply, matmul_zero_apply]
  rfl

end Cert.KernelIdeal.StdpValue

end
-- ==== Proof.StdpArrays.lean ====
import proofs.«137782_j89696097009958_1_alg».proof.Proof.StdpValue
import Idealize.ShloMosaic.Lib.Pipeline.Value
import Idealize.ShloMosaic.Lib.ValueIdx

set_option maxRecDepth 16384

noncomputable section

/-!
  What the plasticity pipeline leaves in its output array, for any contents `V` the region is entered with.

  Point (p', q') of the 4 x 4 grid is handed columns 512 p' .. of the hidden array and of the trace (windows 0 and 2),
  columns 512 q' .. of both (windows 1 and 3), and block (p', q') of the old plastic array; it writes back block
  (p', q') of the output. So entry (p, q) of the output array is written by point (p / 512, q / 512) at block entry
  (p mod 512, q mod 512), and is the cell function of columns p and q of the hidden array, columns p and q of the trace,
  and entry (p, q) of the old plastic array; the sixteen blocks tile the array.
-/
namespace Cert.KernelIdeal.StdpArrays
open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block indices over the grid

Write (p', q') for the output's block index at a point. The two windows on columns p sit at block row 0 and block
column p'; the two on columns q at block row 0 and block column q'; the old plastic block moves with the output; and
p', q' run over 0 .. 3. Sixteen points: decided once. -/

/-- The block indices of the five input windows in terms of the output's, and the output's range. -/
theorem blockIdx : ∀ t : Fin cfg1.N,
    win1_0.index t (0 : Fin 2) = 0 ∧ win1_0.index t (1 : Fin 2) = win1_5.index t (0 : Fin 2)
    ∧ win1_1.index t (0 : Fin 2) = 0 ∧ win1_1.index t (1 : Fin 2) = win1_5.index t (1 : Fin 2)
    ∧ win1_2.index t (0 : Fin 2) = 0 ∧ win1_2.index t (1 : Fin 2) = win1_5.index t (0 : Fin 2)
    ∧ win1_3.index t (0 : Fin 2) = 0 ∧ win1_3.index t (1 : Fin 2) = win1_5.index t (1 : Fin 2)
    ∧ win1_4.index t (0 : Fin 2) = win1_5.index t (0 : Fin 2) ∧ win1_4.index t (1 : Fin 2) = win1_5.index t (1 : Fin 2)
    ∧ win1_5.index t (0 : Fin 2) ≤ 3 ∧ win1_5.index t (1 : Fin 2) ≤ 3 :=
  (by decide +kernel : ∀ t : Fin grid1.N, _)

/-- Each of the 4 x 4 blocks of the output is some point's. -/
theorem blockOnto : ∀ (q0 q1 : Fin 4), ∃ t : Fin cfg1.N, win1_5.index t = ![q0.val, q1.val] :=
  (by decide +kernel : ∀ (q0 q1 : Fin 4), ∃ t : Fin grid1.N, win1_5.index t = ![q0.val, q1.val])

/-! ## The five input blocks at a point

Each is a 512 x 512 block of its array. A block's entry sits in the array, on each axis, at the block index times 512
plus its coordinate inside the block; with the block indices above, an entry (k, a) of a column block is entry
(k, 512 p' + a) (or 512 q' + a) of its array, all 512 batch rows k, and entry (a, b) of the old plastic block is entry
(512 p' + a, 512 q' + b) of the old plastic array. -/

/-- Columns p of the hidden array. -/
abbrev hidP (c : Dev nD) (t : Fin cfg1.N) : Vec Ideal S512x512 .f32 := Stdp.iblk V c 0 t
/-- Columns q of the hidden array. -/
abbrev hidQ (c : Dev nD) (t : Fin cfg1.N) : Vec Ideal S512x512 .f32 := Stdp.iblk V c 1 t
/-- Columns p of the trace. -/
abbrev trP (c : Dev nD) (t : Fin cfg1.N) : Vec Ideal S512x512 .f32 := Stdp.iblk V c 2 t
/-- Columns q of the trace. -/
abbrev trQ (c : Dev nD) (t : Fin cfg1.N) : Vec Ideal S512x512 .f32 := Stdp.iblk V c 3 t
/-- Block (p', q') of the old plastic array. -/
abbrev oldB (c : Dev nD) (t : Fin cfg1.N) : Vec Ideal S512x512 .f32 := Stdp.iblk V c 4 t

/-- Batch row k, column a of the first hidden block is batch row k, column p = 512 p' + a of the hidden array. -/
theorem hidP_apply (c : Dev nD) (t : Fin cfg1.N) (k a : Fin 512) (p : Fin 2048)
    (hp : p.val = win1_5.index t (0 : Fin 2) * 512 + a.val) :
    hidP V c t (ix2 k a) = (V c main_v14_1 : S512x2048.Idx → EReal) (ix2 k p) := by
  obtain ⟨e0, e1, -⟩ := blockIdx t
  unfold hidP Stdp.iblk
  rw [View.read_apply]
  show V c main_v14_1 (((cfg1.win 0).blk t).view.emb (ix2 k a)) = V c main_v14_1 (ix2 k p)
  refine congrArg _ (funext fun ax => Fin.ext ?_)
  match ax with
  | ⟨0, _⟩ => show win1_0.index t (0 : Fin 2) * 512 + 1 * k.val = k.val; omega
  | ⟨1, _⟩ => show win1_0.index t (1 : Fin 2) * 512 + 1 * a.val = p.val; omega

/-- Batch row k, column b of the second hidden block is batch row k, column q = 512 q' + b of the hidden array. -/
theorem hidQ_apply (c : Dev nD) (t : Fin cfg1.N) (k b : Fin 512) (q : Fin 2048)
    (hq : q.val = win1_5.index t (1 : Fin 2) * 512 + b.val) :
    hidQ V c t (ix2 k b) = (V c main_v14_1 : S512x2048.Idx → EReal) (ix2 k q) := by
  obtain ⟨-, -, e0, e1, -⟩ := blockIdx t
  unfold hidQ Stdp.iblk
  rw [View.read_apply]
  show V c main_v14_1 (((cfg1.win 1).blk t).view.emb (ix2 k b)) = V c main_v14_1 (ix2 k q)
  refine congrArg _ (funext fun ax => Fin.ext ?_)
  match ax with
  | ⟨0, _⟩ => show win1_1.index t (0 : Fin 2) * 512 + 1 * k.val = k.val; omega
  | ⟨1, _⟩ => show win1_1.index t (1 : Fin 2) * 512 + 1 * b.val = q.val; omega

/-- The same for the first trace block: column p of the trace. -/
theorem trP_apply (c : Dev nD) (t : Fin cfg1.N) (k a : Fin 512) (p : Fin 2048)
    (hp : p.val = win1_5.index t (0 : Fin 2) * 512 + a.val) :
    trP V c t (ix2 k a) = (V c main_arg4 : S512x2048.Idx → EReal) (ix2 k p) := by
  obtain ⟨-, -, -, -, e0, e1, -⟩ := blockIdx t
  unfold trP Stdp.iblk
  rw [View.read_apply]
  show V c main_arg4 (((cfg1.win 2).blk t).view.emb (ix2 k a)) = V c main_arg4 (ix2 k p)
  refine congrArg _ (funext fun ax => Fin.ext ?_)
  match ax with
  | ⟨0, _⟩ => show win1_2.index t (0 : Fin 2) * 512 + 1 * k.val = k.val; omega
  | ⟨1, _⟩ => show win1_2.index t (1 : Fin 2) * 512 + 1 * a.val = p.val; omega

/-- And the second: column q of the trace. -/
theorem trQ_apply (c : Dev nD) (t : Fin cfg1.N) (k b : Fin 512) (q : Fin 2048)
    (hq : q.val = win1_5.index t (1 : Fin 2) * 512 + b.val) :
    trQ V c t (ix2 k b) = (V c main_arg4 : S512x2048.Idx → EReal) (ix2 k q) := by
  obtain ⟨-, -, -, -, -, -, e0, e1, -⟩ := blockIdx t
  unfold trQ Stdp.iblk
  rw [View.read_apply]
  show V c main_arg4 (((cfg1.win 3).blk t).view.emb (ix2 k b)) = V c main_arg4 (ix2 k q)
  refine congrArg _ (funext fun ax => Fin.ext ?_)
  match ax with
  | ⟨0, _⟩ => show win1_3.index t (0 : Fin 2) * 512 + 1 * k.val = k.val; omega
  | ⟨1, _⟩ => show win1_3.index t (1 : Fin 2) * 512 + 1 * b.val = q.val; omega

/-- Entry (a, b) of the old plastic block is entry (p, q) of the old plastic array. -/
theorem oldB_apply (c : Dev nD) (t : Fin cfg1.N) (a b : Fin 512) (p q : Fin 2048)
    (hp : p.val = win1_5.index t (0 : Fin 2) * 512 + a.val) (hq : q.val = win1_5.index t (1 : Fin 2) * 512 + b.val) :
    oldB V c t (ix2 a b) = (V c main_arg3 : S2048x2048.Idx → EReal) (ix2 p q) := by
  obtain ⟨-, -, -, -, -, -, -, -, e0, e1, -⟩ := blockIdx t
  unfold oldB Stdp.iblk
  rw [View.read_apply]
  show V c main_arg3 (((cfg1.win 4).blk t).view.emb (ix2 a b)) = V c main_arg3 (ix2 p q)
  refine congrArg _ (funext fun ax => Fin.ext ?_)
  match ax with
  | ⟨0, _⟩ => show win1_4.index t (0 : Fin 2) * 512 + 1 * a.val = p.val; omega
  | ⟨1, _⟩ => show win1_4.index t (1 : Fin 2) * 512 + 1 * b.val = q.val; omega

/-! ## The block a point writes back -/

/-- The new plastic array as one function of the hidden array, the trace and the old plastic array. -/
abbrev newArr (c : Dev nD) : S2048x2048.Idx → EReal :=
  fun i => Spec.newU (V c main_v14_1 : S512x2048.Idx → EReal) (V c main_arg4 : S512x2048.Idx → EReal)
    (V c main_arg3 : S2048x2048.Idx → EReal) (i 0) (i 1)

/-- Entry (a, b) of the stored block is the new plastic value at (p, q) = (512 p' + a, 512 q' + b): the cell function
    of the stored block's entry, with each of its five arguments read in its array. -/
theorem outBlock_apply (c : Dev nD) (t : Fin cfg1.N) (a b : Fin 512) (p q : Fin 2048)
    (hp : p.val = win1_5.index t (0 : Fin 2) * 512 + a.val) (hq : q.val = win1_5.index t (1 : Fin 2) * 512 + b.val) :
    Stdp.outU (F := Ideal) (hidP V c t) (hidQ V c t) (trP V c t) (trQ V c t) (oldB V c t) (ix2 a b)
      = Spec.newU (V c main_v14_1 : S512x2048.Idx → EReal) (V c main_arg4 : S512x2048.Idx → EReal)
          (V c main_arg3 : S2048x2048.Idx → EReal) p q := by
  refine (StdpValue.outU_apply (hidP V c t) (hidQ V c t) (trP V c t) (trQ V c t) (oldB V c t) a b).trans ?_
  unfold Spec.newU
  exact congr (congr (congr (congr (congrArg Spec.cellU (funext fun k => hidP_apply V c t k a p hp))
    (funext fun k => hidQ_apply V c t k b q hq)) (funext fun k => trP_apply V c t k a p hp))
    (funext fun k => trQ_apply V c t k b q hq)) (oldB_apply V c t a b p q hp hq)

/-- What point t writes back is its block of the new plastic array: the block's entry (a, b) sits at
    (512 p' + a, 512 q' + b). -/
theorem writtenBack_eq (c : Dev nD) (t : Fin cfg1.N) :
    (Stdp.dat V c).flushed 5 t = ((cfg1.win 5).blk t).view.read (Elt Ideal) (newArr V c) := by
  show (cfg1.win 5).cut (grid1.coords t) ((Stdp.dat V c).after 5 t) = _
  rw [Stdp.after_5]
  funext y
  obtain ⟨a, b, rfl⟩ : ∃ (a b : Fin 512), y = ix2 a b := ⟨y 0, y 1, eq_ix2 y⟩
  rw [View.read_apply]
  show Stdp.outU (F := Ideal) (hidP V c t) (hidQ V c t) (trP V c t) (trQ V c t) (oldB V c t) (ix2 a b)
      = Spec.newU (V c main_v14_1 : S512x2048.Idx → EReal) (V c main_arg4 : S512x2048.Idx → EReal)
          (V c main_arg3 : S2048x2048.Idx → EReal)
          ((((cfg1.win 5).blk t).view.emb (ix2 a b)) 0) ((((cfg1.win 5).blk t).view.emb (ix2 a b)) 1)
  refine outBlock_apply V c t a b _ _ ?_ ?_
  · show win1_5.index t (0 : Fin 2) * 512 + 1 * a.val = win1_5.index t (0 : Fin 2) * 512 + a.val; omega
  · show win1_5.index t (1 : Fin 2) * 512 + 1 * b.val = win1_5.index t (1 : Fin 2) * 512 + b.val; omega

/-! ## The sixteen blocks tile the array -/

/-- An index of the output array is in point t's block iff each coordinate is in the block's range on its axis. -/
theorem mem_outBlock (t : Fin cfg1.N) (i : S2048x2048.Idx) :
    i ∈ ((cfg1.win 5).blk t).view.set ↔ ∀ a : Fin 2, win1_5.index t a * S512x512.size a ≤ (i a).val
      ∧ (i a).val < win1_5.index t a * S512x512.size a + S512x512.size a := by
  show i ∈ ((View.whole main_v15).slice (win1_5.rect t)).set ↔ _
  rw [View.set_slice_whole, Rect.mem_set_unit]
  exact Iff.rfl

/-- Entry (p, q) is in the block of the point whose block index is (p / 512, q / 512). -/
theorem tiles (i : S2048x2048.Idx) :
    ∃ t : Fin cfg1.N, (cfg1.win 5).flush t = true ∧ i ∈ ((cfg1.win 5).blk t).view.set := by
  have hi0 : (i 0).val < 2048 := (i 0).isLt
  have hi1 : (i 1).val < 2048 := (i 1).isLt
  obtain ⟨t, ht⟩ := blockOnto ⟨(i 0).val / 512, by omega⟩ ⟨(i 1).val / 512, by omega⟩
  have q0 : win1_5.index t (0 : Fin 2) = (i 0).val / 512 := congrFun ht 0
  have q1 : win1_5.index t (1 : Fin 2) = (i 1).val / 512 := congrFun ht 1
  refine ⟨t, flush1_5 t, ?_⟩
  rw [mem_outBlock]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-- The new plastic array after the last write-back. -/
theorem arr5 (c : Dev nD) :
    (Stdp.dat V c).arrAt 5 cfg1.N
      = fun i : S2048x2048.Idx => Spec.newU (V c main_v14_1 : S512x2048.Idx → EReal) (V c main_arg4 : S512x2048.Idx → EReal)
          (V c main_arg3 : S2048x2048.Idx → EReal) (i 0) (i 1) :=
  (Stdp.dat V c).arrAt_eq_of_cover 5 (newArr V c) (fun t _ => writtenBack_eq V c t) tiles

end Cert.KernelIdeal.StdpArrays

end
-- ==== Proof.GateHost.lean ====
import proofs.«137782_j89696097009958_1_alg».proof.Proof.Gen.KernelIdeal.Regions
import proofs.«137782_j89696097009958_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

/-!
  What the host operations before the first region write, read at an index.

  The fourteen host operations slice the two stacked weight matrices into their three gates (rows g·2048 .. of each),
  view the two stacked bias vectors as one-row matrices, and slice those the same way (columns g·2048 ..). So entry
  (j, k) of gate g's weight slice is entry (g·2048 + j, k) of the stacked matrix, and entry (0, j) of gate g's bias slice
  is entry g·2048 + j of the stacked vector. No host operation writes an argument.
-/
namespace Cert.KernelIdeal.GateHost
open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-! ## The input weights: a slice of 2048 rows from row g·2048 reads (j, k) at (g·2048 + j, k) -/

/-- Rows 0 .. 2047 of the stacked input weights. -/
theorem wx0_apply (j : Fin 2048) (k : Fin 1024) :
    (V1 m c main_v0 : S2048x1024.Idx → Elt F .f32) (ix2 j k)
      = (m ((c : Thread nD τ).loc main_arg5) : S6144x1024.Idx → Elt F .f32) (ix2 (Spec.row 0 j) k) := by
  have e : (V1 m c main_v0 : S2048x1024.Idx → Elt F .f32)
      = extractStridedSlice S2048x1024 ![0, 0] (m ((c : Thread nD τ).loc main_arg5) : S6144x1024.Idx → Elt F .f32)
          slices_S6144x1024_S2048x1024_0_0 := by
    dsimp only [V1, V0, hostOps0]
    after_results
  rw [e]
  exact extractStridedSlice_apply ![0, 0] _ slices_S6144x1024_S2048x1024_0_0 (ix2 j k) (ix2 (Spec.row 0 j) k)
    (fun a => match a with
      | ⟨0, _⟩ => by show 0 * 2048 + j.val = 0 + j.val; omega
      | ⟨1, _⟩ => by show k.val = 0 + k.val; omega)

/-- Rows 2048 .. 4095 of the stacked input weights. -/
theorem wx1_apply (j : Fin 2048) (k : Fin 1024) :
    (V1 m c main_v1 : S2048x1024.Idx → Elt F .f32) (ix2 j k)
      = (m ((c : Thread nD τ).loc main_arg5) : S6144x1024.Idx → Elt F .f32) (ix2 (Spec.row 1 j) k) := by
  have e : (V1 m c main_v1 : S2048x1024.Idx → Elt F .f32)
      = extractStridedSlice S2048x1024 ![2048, 0] (m ((c : Thread nD τ).loc main_arg5) : S6144x1024.Idx → Elt F .f32)
          slices_S6144x1024_S2048x1024_2048_0 := by
    dsimp only [V1, V0, hostOps0]
    after_results
  rw [e]
  exact extractStridedSlice_apply ![2048, 0] _ slices_S6144x1024_S2048x1024_2048_0 (ix2 j k) (ix2 (Spec.row 1 j) k)
    (fun a => match a with
      | ⟨0, _⟩ => by show 1 * 2048 + j.val = 2048 + j.val; omega
      | ⟨1, _⟩ => by show k.val = 0 + k.val; omega)

/-- Rows 4096 .. 6143 of the stacked input weights. -/
theorem wx2_apply (j : Fin 2048) (k : Fin 1024) :
    (V1 m c main_v2 : S2048x1024.Idx → Elt F .f32) (ix2 j k)
      = (m ((c : Thread nD τ).loc main_arg5) : S6144x1024.Idx → Elt F .f32) (ix2 (Spec.row 2 j) k) := by
  have e : (V1 m c main_v2 : S2048x1024.Idx → Elt F .f32)
      = extractStridedSlice S2048x1024 ![4096, 0] (m ((c : Thread nD τ).loc main_arg5) : S6144x1024.Idx → Elt F .f32)
          slices_S6144x1024_S2048x1024_4096_0 := by
    dsimp only [V1, V0, hostOps0]
    after_results
  rw [e]
  exact extractStridedSlice_apply ![4096, 0] _ slices_S6144x1024_S2048x1024_4096_0 (ix2 j k) (ix2 (Spec.row 2 j) k)
    (fun a => match a with
      | ⟨0, _⟩ => by show 2 * 2048 + j.val = 4096 + j.val; omega
      | ⟨1, _⟩ => by show k.val = 0 + k.val; omega)

/-! ## The hidden weights: the same three row slices of the 6144 × 2048 matrix -/

/-- Rows 0 .. 2047 of the stacked hidden weights. -/
theorem wh0_apply (j : Fin 2048) (k : Fin 2048) :
    (V1 m c main_v3 : S2048x2048.Idx → Elt F .f32) (ix2 j k)
      = (m ((c : Thread nD τ).loc main_arg7) : S6144x2048.Idx → Elt F .f32) (ix2 (Spec.row 0 j) k) := by
  have e : (V1 m c main_v3 : S2048x2048.Idx → Elt F .f32)
      = extractStridedSlice S2048x2048 ![0, 0] (m ((c : Thread nD τ).loc main_arg7) : S6144x2048.Idx → Elt F .f32)
          slices_S6144x2048_S2048x2048_0_0 := by
    dsimp only [V1, V0, hostOps0]
    after_results
  rw [e]
  exact extractStridedSlice_apply ![0, 0] _ slices_S6144x2048_S2048x2048_0_0 (ix2 j k) (ix2 (Spec.row 0 j) k)
    (fun a => match a with
      | ⟨0, _⟩ => by show 0 * 2048 + j.val = 0 + j.val; omega
      | ⟨1, _⟩ => by show k.val = 0 + k.val; omega)

/-- Rows 2048 .. 4095 of the stacked hidden weights. -/
theorem wh1_apply (j : Fin 2048) (k : Fin 2048) :
    (V1 m c main_v4 : S2048x2048.Idx → Elt F .f32) (ix2 j k)
      = (m ((c : Thread nD τ).loc main_arg7) : S6144x2048.Idx → Elt F .f32) (ix2 (Spec.row 1 j) k) := by
  have e : (V1 m c main_v4 : S2048x2048.Idx → Elt F .f32)
      = extractStridedSlice S2048x2048 ![2048, 0] (m ((c : Thread nD τ).loc main_arg7) : S6144x2048.Idx → Elt F .f32)
          slices_S6144x2048_S2048x2048_2048_0 := by
    dsimp only [V1, V0, hostOps0]
    after_results
  rw [e]
  exact extractStridedSlice_apply ![2048, 0] _ slices_S6144x2048_S2048x2048_2048_0 (ix2 j k) (ix2 (Spec.row 1 j) k)
    (fun a => match a with
      | ⟨0, _⟩ => by show 1 * 2048 + j.val = 2048 + j.val; omega
      | ⟨1, _⟩ => by show k.val = 0 + k.val; omega)

/-- Rows 4096 .. 6143 of the stacked hidden weights. -/
theorem wh2_apply (j : Fin 2048) (k : Fin 2048) :
    (V1 m c main_v5 : S2048x2048.Idx → Elt F .f32) (ix2 j k)
      = (m ((c : Thread nD τ).loc main_arg7) : S6144x2048.Idx → Elt F .f32) (ix2 (Spec.row 2 j) k) := by
  have e : (V1 m c main_v5 : S2048x2048.Idx → Elt F .f32)
      = extractStridedSlice S2048x2048 ![4096, 0] (m ((c : Thread nD τ).loc main_arg7) : S6144x2048.Idx → Elt F .f32)
          slices_S6144x2048_S2048x2048_4096_0 := by
    dsimp only [V1, V0, hostOps0]
    after_results
  rw [e]
  exact extractStridedSlice_apply ![4096, 0] _ slices_S6144x2048_S2048x2048_4096_0 (ix2 j k) (ix2 (Spec.row 2 j) k)
    (fun a => match a with
      | ⟨0, _⟩ => by show 2 * 2048 + j.val = 4096 + j.val; omega
      | ⟨1, _⟩ => by show k.val = 0 + k.val; omega)

/-! ## The biases: the one-row view of the stacked vector, then a slice of 2048 columns from column g·2048 -/

/-- The one-row view of a vector of 6144 entries reads (0, i) at i: both sit at row-major position i. -/
theorem oneRow_apply (x : S6144.Idx → Elt F .f32) (i : Fin 6144) :
    shapeCast S1x6144 x shapeCasts_S6144_S1x6144 (ix2 0 i) = x (ix1 i) := by
  refine shapeCast_apply x shapeCasts_S6144_S1x6144 (ix2 0 i) (ix1 i) ?_
  rw [Shape.rowMajor_val_one, Shape.rowMajor_val_two]
  show i.val = 0 * 6144 + i.val
  omega

/-- Columns 0 .. 2047 of the input bias's one-row view. -/
theorem bx0_apply (j : Fin 2048) :
    (V1 m c main_v8 : S1x2048.Idx → Elt F .f32) (ix2 0 j)
      = (m ((c : Thread nD τ).loc main_arg6) : S6144.Idx → Elt F .f32) (ix1 (Spec.row 0 j)) := by
  have e : (V1 m c main_v8 : S1x2048.Idx → Elt F .f32)
      = extractStridedSlice S1x2048 ![0, 0]
          (shapeCast S1x6144 (m ((c : Thread nD τ).loc main_arg6) : S6144.Idx → Elt F .f32) shapeCasts_S6144_S1x6144)
          slices_S1x6144_S1x2048_0_0 := by
    dsimp only [V1, V0, hostOps0]
    after_results
    rfl
  rw [e]
  refine (extractStridedSlice_apply ![0, 0] _ slices_S1x6144_S1x2048_0_0 (ix2 0 j) (ix2 0 (Spec.row 0 j))
    (fun a => match a with
      | ⟨0, _⟩ => by show 0 = 0 + 0; omega
      | ⟨1, _⟩ => by show 0 * 2048 + j.val = 0 + j.val; omega)).trans ?_
  exact oneRow_apply _ (Spec.row 0 j)

/-- Columns 2048 .. 4095 of the input bias's one-row view. -/
theorem bx1_apply (j : Fin 2048) :
    (V1 m c main_v9 : S1x2048.Idx → Elt F .f32) (ix2 0 j)
      = (m ((c : Thread nD τ).loc main_arg6) : S6144.Idx → Elt F .f32) (ix1 (Spec.row 1 j)) := by
  have e : (V1 m c main_v9 : S1x2048.Idx → Elt F .f32)
      = extractStridedSlice S1x2048 ![0, 2048]
          (shapeCast S1x6144 (m ((c : Thread nD τ).loc main_arg6) : S6144.Idx → Elt F .f32) shapeCasts_S6144_S1x6144)
          slices_S1x6144_S1x2048_0_2048 := by
    dsimp only [V1, V0, hostOps0]
    after_results
    rfl
  rw [e]
  refine (extractStridedSlice_apply ![0, 2048] _ slices_S1x6144_S1x2048_0_2048 (ix2 0 j) (ix2 0 (Spec.row 1 j))
    (fun a => match a with
      | ⟨0, _⟩ => by show 0 = 0 + 0; omega
      | ⟨1, _⟩ => by show 1 * 2048 + j.val = 2048 + j.val; omega)).trans ?_
  exact oneRow_apply _ (Spec.row 1 j)

/-- Columns 4096 .. 6143 of the input bias's one-row view. -/
theorem bx2_apply (j : Fin 2048) :
    (V1 m c main_v10 : S1x2048.Idx → Elt F .f32) (ix2 0 j)
      = (m ((c : Thread nD τ).loc main_arg6) : S6144.Idx → Elt F .f32) (ix1 (Spec.row 2 j)) := by
  have e : (V1 m c main_v10 : S1x2048.Idx → Elt F .f32)
      = extractStridedSlice S1x2048 ![0, 4096]
          (shapeCast S1x6144 (m ((c : Thread nD τ).loc main_arg6) : S6144.Idx → Elt F .f32) shapeCasts_S6144_S1x6144)
          slices_S1x6144_S1x2048_0_4096 := by
    dsimp only [V1, V0, hostOps0]
    after_results
    rfl
  rw [e]
  refine (extractStridedSlice_apply ![0, 4096] _ slices_S1x6144_S1x2048_0_4096 (ix2 0 j) (ix2 0 (Spec.row 2 j))
    (fun a => match a with
      | ⟨0, _⟩ => by show 0 = 0 + 0; omega
      | ⟨1, _⟩ => by show 2 * 2048 + j.val = 4096 + j.val; omega)).trans ?_
  exact oneRow_apply _ (Spec.row 2 j)

/-- Columns 0 .. 2047 of the hidden bias's one-row view. -/
theorem bh0_apply (j : Fin 2048) :
    (V1 m c main_v11 : S1x2048.Idx → Elt F .f32) (ix2 0 j)
      = (m ((c : Thread nD τ).loc main_arg8) : S6144.Idx → Elt F .f32) (ix1 (Spec.row 0 j)) := by
  have e : (V1 m c main_v11 : S1x2048.Idx → Elt F .f32)
      = extractStridedSlice S1x2048 ![0, 0]
          (shapeCast S1x6144 (m ((c : Thread nD τ).loc main_arg8) : S6144.Idx → Elt F .f32) shapeCasts_S6144_S1x6144)
          slices_S1x6144_S1x2048_0_0 := by
    dsimp only [V1, V0, hostOps0]
    after_results
    rfl
  rw [e]
  refine (extractStridedSlice_apply ![0, 0] _ slices_S1x6144_S1x2048_0_0 (ix2 0 j) (ix2 0 (Spec.row 0 j))
    (fun a => match a with
      | ⟨0, _⟩ => by show 0 = 0 + 0; omega
      | ⟨1, _⟩ => by show 0 * 2048 + j.val = 0 + j.val; omega)).trans ?_
  exact oneRow_apply _ (Spec.row 0 j)

/-- Columns 2048 .. 4095 of the hidden bias's one-row view. -/
theorem bh1_apply (j : Fin 2048) :
    (V1 m c main_v12 : S1x2048.Idx → Elt F .f32) (ix2 0 j)
      = (m ((c : Thread nD τ).loc main_arg8) : S6144.Idx → Elt F .f32) (ix1 (Spec.row 1 j)) := by
  have e : (V1 m c main_v12 : S1x2048.Idx → Elt F .f32)
      = extractStridedSlice S1x2048 ![0, 2048]
          (shapeCast S1x6144 (m ((c : Thread nD τ).loc main_arg8) : S6144.Idx → Elt F .f32) shapeCasts_S6144_S1x6144)
          slices_S1x6144_S1x2048_0_2048 := by
    dsimp only [V1, V0, hostOps0]
    after_results
    rfl
  rw [e]
  refine (extractStridedSlice_apply ![0, 2048] _ slices_S1x6144_S1x2048_0_2048 (ix2 0 j) (ix2 0 (Spec.row 1 j))
    (fun a => match a with
      | ⟨0, _⟩ => by show 0 = 0 + 0; omega
      | ⟨1, _⟩ => by show 1 * 2048 + j.val = 2048 + j.val; omega)).trans ?_
  exact oneRow_apply _ (Spec.row 1 j)

/-- Columns 4096 .. 6143 of the hidden bias's one-row view. -/
theorem bh2_apply (j : Fin 2048) :
    (V1 m c main_v13 : S1x2048.Idx → Elt F .f32) (ix2 0 j)
      = (m ((c : Thread nD τ).loc main_arg8) : S6144.Idx → Elt F .f32) (ix1 (Spec.row 2 j)) := by
  have e : (V1 m c main_v13 : S1x2048.Idx → Elt F .f32)
      = extractStridedSlice S1x2048 ![0, 4096]
          (shapeCast S1x6144 (m ((c : Thread nD τ).loc main_arg8) : S6144.Idx → Elt F .f32) shapeCasts_S6144_S1x6144)
          slices_S1x6144_S1x2048_0_4096 := by
    dsimp only [V1, V0, hostOps0]
    after_results
    rfl
  rw [e]
  refine (extractStridedSlice_apply ![0, 4096] _ slices_S1x6144_S1x2048_0_4096 (ix2 0 j) (ix2 0 (Spec.row 2 j))
    (fun a => match a with
      | ⟨0, _⟩ => by show 0 = 0 + 0; omega
      | ⟨1, _⟩ => by show 2 * 2048 + j.val = 4096 + j.val; omega)).trans ?_
  exact oneRow_apply _ (Spec.row 2 j)

/-! ## The three gates together -/

/-- The input weights' three gate slices. -/
theorem wx_slice (g : Fin 3) (j : Fin 2048) (k : Fin 1024) :
    (match g with
      | ⟨0, _⟩ => (V1 m c main_v0 : S2048x1024.Idx → Elt F .f32)
      | ⟨1, _⟩ => (V1 m c main_v1 : S2048x1024.Idx → Elt F .f32)
      | ⟨2, _⟩ => (V1 m c main_v2 : S2048x1024.Idx → Elt F .f32)) (ix2 j k)
      = (m ((c : Thread nD τ).loc main_arg5) : S6144x1024.Idx → Elt F .f32) (ix2 (Spec.row g j) k) := by
  match g with
  | ⟨0, _⟩ => exact wx0_apply m c j k
  | ⟨1, _⟩ => exact wx1_apply m c j k
  | ⟨2, _⟩ => exact wx2_apply m c j k

/-- The hidden weights' three gate slices. -/
theorem wh_slice (g : Fin 3) (j : Fin 2048) (k : Fin 2048) :
    (match g with
      | ⟨0, _⟩ => (V1 m c main_v3 : S2048x2048.Idx → Elt F .f32)
      | ⟨1, _⟩ => (V1 m c main_v4 : S2048x2048.Idx → Elt F .f32)
      | ⟨2, _⟩ => (V1 m c main_v5 : S2048x2048.Idx → Elt F .f32)) (ix2 j k)
      = (m ((c : Thread nD τ).loc main_arg7) : S6144x2048.Idx → Elt F .f32) (ix2 (Spec.row g j) k) := by
  match g with
  | ⟨0, _⟩ => exact wh0_apply m c j k
  | ⟨1, _⟩ => exact wh1_apply m c j k
  | ⟨2, _⟩ => exact wh2_apply m c j k

/-- The input bias's three gate slices. -/
theorem bx_slice (g : Fin 3) (j : Fin 2048) :
    (match g with
      | ⟨0, _⟩ => (V1 m c main_v8 : S1x2048.Idx → Elt F .f32)
      | ⟨1, _⟩ => (V1 m c main_v9 : S1x2048.Idx → Elt F .f32)
      | ⟨2, _⟩ => (V1 m c main_v10 : S1x2048.Idx → Elt F .f32)) (ix2 0 j)
      = (m ((c : Thread nD τ).loc main_arg6) : S6144.Idx → Elt F .f32) (ix1 (Spec.row g j)) := by
  match g with
  | ⟨0, _⟩ => exact bx0_apply m c j
  | ⟨1, _⟩ => exact bx1_apply m c j
  | ⟨2, _⟩ => exact bx2_apply m c j

/-- The hidden bias's three gate slices. -/
theorem bh_slice (g : Fin 3) (j : Fin 2048) :
    (match g with
      | ⟨0, _⟩ => (V1 m c main_v11 : S1x2048.Idx → Elt F .f32)
      | ⟨1, _⟩ => (V1 m c main_v12 : S1x2048.Idx → Elt F .f32)
      | ⟨2, _⟩ => (V1 m c main_v13 : S1x2048.Idx → Elt F .f32)) (ix2 0 j)
      = (m ((c : Thread nD τ).loc main_arg8) : S6144.Idx → Elt F .f32) (ix1 (Spec.row g j)) := by
  match g with
  | ⟨0, _⟩ => exact bh0_apply m c j
  | ⟨1, _⟩ => exact bh1_apply m c j
  | ⟨2, _⟩ => exact bh2_apply m c j

end Cert.KernelIdeal.GateHost

end
-- ==== Proof.Results.lean ====
import proofs.«137782_j89696097009958_1_alg».proof.Proof.Launch
import proofs.«137782_j89696097009958_1_alg».proof.Proof.GateArrays
import proofs.«137782_j89696097009958_1_alg».proof.Proof.StdpArrays
import proofs.«137782_j89696097009958_1_alg».proof.Proof.GateHost

set_option maxRecDepth 16384

noncomputable section

/-!
  The four result arrays at the end of the run, as functions of the launch memory, on the extended reals.

  The last valuation of the thread states holds, at each result's reference, what its region's write-backs left: the
  whole-array cell function over the contents the region was entered with. For the gate region those contents are the
  launch memory after the host slices, and a gate's slice of a stacked matrix at row j is the stacked matrix at row
  g·2048 + j: so the three gate results are the specification's arrays of the arguments. The plasticity region is
  entered with the gate region's exit contents: its hidden operand is the new hidden array just computed, its trace and
  plastic operands are the arguments, unchanged.
-/
namespace Cert.KernelIdeal.Results
open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The specification's new membrane array of the launch memory's arguments. -/
abbrev specV : S512x2048.Idx → EReal := fun i =>
  Spec.newV (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9)) (i 0) (i 1)
/-- The specification's new hidden array. -/
abbrev specH : S512x2048.Idx → EReal := fun i =>
  Spec.newH (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9)) (i 0) (i 1)
/-- The specification's new trace array. -/
abbrev specT : S512x2048.Idx → EReal := fun i =>
  Spec.newT (m ((c : Thread nD τ).loc main_arg0)) (m ((c : Thread nD τ).loc main_arg1)) (m ((c : Thread nD τ).loc main_arg2))
    (m ((c : Thread nD τ).loc main_arg4)) (m ((c : Thread nD τ).loc main_arg3)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1)
/-- The specification's new plastic matrix, from the new hidden array. -/
abbrev specU : S2048x2048.Idx → EReal := fun i =>
  Spec.newU (specH m c) (m ((c : Thread nD τ).loc main_arg4)) (m ((c : Thread nD τ).loc main_arg3)) (i 0) (i 1)

/-! ## The gate region's entry contents, in terms of the launch memory -/

theorem e0_arg0 : Threads.E0 m c main_arg0 = m ((c : Thread nD τ).loc main_arg0) := V1_of m c main_arg0 (by decide)
theorem e0_arg1 : Threads.E0 m c main_arg1 = m ((c : Thread nD τ).loc main_arg1) := V1_of m c main_arg1 (by decide)
theorem e0_arg2 : Threads.E0 m c main_arg2 = m ((c : Thread nD τ).loc main_arg2) := V1_of m c main_arg2 (by decide)
theorem e0_arg3 : Threads.E0 m c main_arg3 = m ((c : Thread nD τ).loc main_arg3) := V1_of m c main_arg3 (by decide)
theorem e0_arg4 : Threads.E0 m c main_arg4 = m ((c : Thread nD τ).loc main_arg4) := V1_of m c main_arg4 (by decide)
theorem e0_arg9 : Threads.E0 m c main_arg9 = m ((c : Thread nD τ).loc main_arg9) := V1_of m c main_arg9 (by decide)

/-- Entry (b, j) of the gate pipeline's membrane array is the specification's. -/
theorem wholeV_eq (b : Fin 512) (j : Fin 2048) : GateArrays.wholeV (Threads.E0 m) c b j = specV m c (ix2 b j) := by
  unfold GateArrays.wholeV specV Spec.newV
  rw [e0_arg0, e0_arg1, e0_arg2, e0_arg3, e0_arg9]
  simp only [fun k => GateHost.wx_slice m c 0 j k, fun k => GateHost.wx_slice m c 1 j k, fun k => GateHost.wx_slice m c 2 j k,
    fun k => GateHost.wh_slice m c 0 j k, fun k => GateHost.wh_slice m c 1 j k, fun k => GateHost.wh_slice m c 2 j k,
    GateHost.bx_slice m c 0 j, GateHost.bx_slice m c 1 j, GateHost.bx_slice m c 2 j,
    GateHost.bh_slice m c 0 j, GateHost.bh_slice m c 1 j, GateHost.bh_slice m c 2 j]

/-- Entry (b, j) of the gate pipeline's hidden array is the specification's. -/
theorem wholeH_eq (b : Fin 512) (j : Fin 2048) : GateArrays.wholeH (Threads.E0 m) c b j = specH m c (ix2 b j) := by
  unfold GateArrays.wholeH specH Spec.newH
  rw [e0_arg0, e0_arg1, e0_arg2, e0_arg3, e0_arg9]
  simp only [fun k => GateHost.wx_slice m c 0 j k, fun k => GateHost.wx_slice m c 1 j k, fun k => GateHost.wx_slice m c 2 j k,
    fun k => GateHost.wh_slice m c 0 j k, fun k => GateHost.wh_slice m c 1 j k, fun k => GateHost.wh_slice m c 2 j k,
    GateHost.bx_slice m c 0 j, GateHost.bx_slice m c 1 j, GateHost.bx_slice m c 2 j,
    GateHost.bh_slice m c 0 j, GateHost.bh_slice m c 1 j, GateHost.bh_slice m c 2 j]

/-- Entry (b, j) of the gate pipeline's trace array is the specification's. -/
theorem wholeT_eq (b : Fin 512) (j : Fin 2048) : GateArrays.wholeT (Threads.E0 m) c b j = specT m c (ix2 b j) := by
  unfold GateArrays.wholeT specT Spec.newT
  rw [e0_arg0, e0_arg1, e0_arg2, e0_arg3, e0_arg4, e0_arg9]
  simp only [fun k => GateHost.wx_slice m c 0 j k, fun k => GateHost.wx_slice m c 1 j k, fun k => GateHost.wx_slice m c 2 j k,
    fun k => GateHost.wh_slice m c 0 j k, fun k => GateHost.wh_slice m c 1 j k, fun k => GateHost.wh_slice m c 2 j k,
    GateHost.bx_slice m c 0 j, GateHost.bx_slice m c 1 j, GateHost.bx_slice m c 2 j,
    GateHost.bh_slice m c 0 j, GateHost.bh_slice m c 1 j, GateHost.bh_slice m c 2 j]

/-! ## What the gate region leaves -/

theorem gateV : (Gate.dat (Threads.E0 m) c).arrAt 18 cfg0.N = specV m c :=
  (GateArrays.arr18 (Threads.E0 m) c).trans (funext fun i => by rw [eq_ix2 i]; exact wholeV_eq m c (i 0) (i 1))
theorem gateH : (Gate.dat (Threads.E0 m) c).arrAt 19 cfg0.N = specH m c :=
  (GateArrays.arr19 (Threads.E0 m) c).trans (funext fun i => by rw [eq_ix2 i]; exact wholeH_eq m c (i 0) (i 1))
theorem gateT : (Gate.dat (Threads.E0 m) c).arrAt 20 cfg0.N = specT m c :=
  (GateArrays.arr20 (Threads.E0 m) c).trans (funext fun i => by rw [eq_ix2 i]; exact wholeT_eq m c (i 0) (i 1))

/-! ## The last valuation at the four results -/

/-- The gate region's exit valuation at its three output arrays is what the region left there. -/
theorem V2_v14_0 (outs : Outs (F := Ideal)) : V2 m outs c main_v14_0 = outs 2 main_v14_0 c := by
  simp only [V2, Function.update_of_ne (StableHlo.devRef_ne_of_ne (by decide) : (Proc.devRef .tc main_v14_0 : DevRef τ sig) ≠ Proc.devRef .tc main_v14_2),
    Function.update_of_ne (StableHlo.devRef_ne_of_ne (by decide) : (Proc.devRef .tc main_v14_0 : DevRef τ sig) ≠ Proc.devRef .tc main_v14_1),
    Function.update_self]
theorem V2_v14_1 (outs : Outs (F := Ideal)) : V2 m outs c main_v14_1 = outs 2 main_v14_1 c := by
  simp only [V2, Function.update_of_ne (StableHlo.devRef_ne_of_ne (by decide) : (Proc.devRef .tc main_v14_1 : DevRef τ sig) ≠ Proc.devRef .tc main_v14_2),
    Function.update_self]
theorem V2_v14_2 (outs : Outs (F := Ideal)) : V2 m outs c main_v14_2 = outs 2 main_v14_2 c := by
  simp only [V2, Function.update_self]

theorem res_v14_0 : V3 m (Threads.outs m) c main_v14_0 = specV m c :=
  (V3_of m (Threads.outs m) c main_v14_0 (by decide)).trans <| (V2_v14_0 m c _).trans <| (Threads.outs_v14_0 m c).trans (gateV m c)
theorem res_v14_1 : V3 m (Threads.outs m) c main_v14_1 = specH m c :=
  (V3_of m (Threads.outs m) c main_v14_1 (by decide)).trans <| (V2_v14_1 m c _).trans <| (Threads.outs_v14_1 m c).trans (gateH m c)
theorem res_v14_2 : V3 m (Threads.outs m) c main_v14_2 = specT m c :=
  (V3_of m (Threads.outs m) c main_v14_2 (by decide)).trans <| (V2_v14_2 m c _).trans <| (Threads.outs_v14_2 m c).trans (gateT m c)

/-- The plasticity region's entry contents: the new hidden array, and the trace and plastic arguments unchanged. -/
theorem e1_v14_1 : Threads.E1 m c main_v14_1 = specH m c := by
  show V2 m (Threads.outsG m) c main_v14_1 = _
  rw [← Threads.V2_outs m c]
  exact (V2_v14_1 m c _).trans <| (Threads.outs_v14_1 m c).trans (gateH m c)
theorem e1_arg4 : Threads.E1 m c main_arg4 = m ((c : Thread nD τ).loc main_arg4) :=
  (V2_of m (Threads.outsG m) c main_arg4 (by decide)).trans (V1_of m c main_arg4 (by decide))
theorem e1_arg3 : Threads.E1 m c main_arg3 = m ((c : Thread nD τ).loc main_arg3) :=
  (V2_of m (Threads.outsG m) c main_arg3 (by decide)).trans (V1_of m c main_arg3 (by decide))

theorem res_v15 : V3 m (Threads.outs m) c main_v15 = specU m c := by
  have h3 : V3 m (Threads.outs m) c main_v15 = Threads.outs m 3 main_v15 c := by simp only [V3, Function.update_self]
  rw [h3, Threads.outs_v15, StdpArrays.arr5 (Threads.E1 m) c, e1_v14_1, e1_arg4, e1_arg3]

end Cert.KernelIdeal.Results

end
-- ==== Proof.RefValue.lean ====
import proofs.«137782_j89696097009958_1_alg».proof.Proof.Gen.ReferenceIdeal.Read
import proofs.«137782_j89696097009958_1_alg».proof.Proof.Spec
import Idealize.ShloMosaic.Lib.IdealHost
import Idealize.ShloMosaic.Lib.KernelVsHost

set_option maxRecDepth 16384

noncomputable section

/-!
  The reference's four results, as the cell functions of its argument arrays.

  The reference multiplies x and h against the WHOLE stacked weight matrices (after transposing them), adds the
  stacked biases, and only then slices the three gates out: entry (b, j) of gate g's slice is entry (b, g·2048 + j) of
  the product, which is row g·2048 + j of the weights against row b. It spells the logistic as
  1 / (1 + exp (-u)), which on the extended reals IS the library's logistic, the rectifier as max · 0, the clip as
  min 1 (max (-1) ·), and the two correlations as products of a transposed array with an array.
-/
namespace Cert.ReferenceIdeal.RefValue
open Cert.ReferenceIdeal Cert.ReferenceIdeal.Gen Cert.ReferenceIdeal.Read
open Idealize.ShloMosaic Idealize.ShloMosaic.TcCoe Idealize.ShloMosaic.ValueIdx Idealize.SL.Sem

variable (x0 : (⟨S512x1024, .f32⟩ : BufTy).Contents (Elt Ideal)) (x1 x2 : (⟨S512x2048, .f32⟩ : BufTy).Contents (Elt Ideal))
  (x3 : (⟨S2048x2048, .f32⟩ : BufTy).Contents (Elt Ideal)) (x4 : (⟨S512x2048, .f32⟩ : BufTy).Contents (Elt Ideal))
  (x5 : (⟨S6144x1024, .f32⟩ : BufTy).Contents (Elt Ideal)) (x6 : (⟨S6144, .f32⟩ : BufTy).Contents (Elt Ideal))
  (x7 : (⟨S6144x2048, .f32⟩ : BufTy).Contents (Elt Ideal)) (x8 : (⟨S6144, .f32⟩ : BufTy).Contents (Elt Ideal))
  (x9 : (⟨S1x2048, .f32⟩ : BufTy).Contents (Elt Ideal))

/-! ## Index bookkeeping: the composed index maps of the reference, at coordinates -/

theorem lidx1_ix (b : Fin 512) (n : Fin 6144) (k : Fin 1024) : lidx_main_v1 (ix2 b n) k = ix2 b k :=
  funext fun a => Fin.ext (by match a with | ⟨0, _⟩ => rfl | ⟨1, _⟩ => rfl)
theorem ridx1_ix (b : Fin 512) (n : Fin 6144) (k : Fin 1024) : idx_main_v0 (ridx_main_v1 (ix2 b n) k) = ix2 n k :=
  funext fun a => Fin.ext (by match a with | ⟨0, _⟩ => rfl | ⟨1, _⟩ => rfl)
theorem bidx3_ix (b : Fin 512) (n : Fin 6144) : idx_main_v2 (idx_main_v3 (ix2 b n)) = ix1 n :=
  funext fun a => Fin.ext (by match a with | ⟨0, _⟩ => rfl)
theorem lidx6_ix (b : Fin 512) (n : Fin 6144) (k : Fin 2048) : lidx_main_v6 (ix2 b n) k = ix2 b k :=
  funext fun a => Fin.ext (by match a with | ⟨0, _⟩ => rfl | ⟨1, _⟩ => rfl)
theorem ridx6_ix (b : Fin 512) (n : Fin 6144) (k : Fin 2048) : idx_main_v5 (ridx_main_v6 (ix2 b n) k) = ix2 n k :=
  funext fun a => Fin.ext (by match a with | ⟨0, _⟩ => rfl | ⟨1, _⟩ => rfl)
theorem bidx8_ix (b : Fin 512) (n : Fin 6144) : idx_main_v7 (idx_main_v8 (ix2 b n)) = ix1 n :=
  funext fun a => Fin.ext (by match a with | ⟨0, _⟩ => rfl)

/-- The input-side affine stage at (b, n): row b of x against row n of the stacked input weights, plus bias n. -/
theorem aff4 (b : Fin 512) (n : Fin 6144) :
    val_main_v4 (F := Ideal) x0 x5 x6 (ix2 b n)
      = Spec.dot (fun k => x0 (ix2 b k)) (fun k => x5 (ix2 n k)) + x6 (ix1 n) := by
  rw [val_main_v4_apply, val_main_v1_apply, val_main_v3_apply, val_main_v2_apply]
  simp only [val_main_v0_apply, lidx1_ix, ridx1_ix, bidx3_ix]
  rfl

/-- The hidden-side affine stage at (b, n). -/
theorem aff9 (b : Fin 512) (n : Fin 6144) :
    val_main_v9 (F := Ideal) x1 x7 x8 (ix2 b n)
      = Spec.dot (fun k => x1 (ix2 b k)) (fun k => x7 (ix2 n k)) + x8 (ix1 n) := by
  rw [val_main_v9_apply, val_main_v6_apply, val_main_v8_apply, val_main_v7_apply]
  simp only [val_main_v5_apply, lidx6_ix, ridx6_ix, bidx8_ix]
  rfl

/-! The three slices: column j of gate g's slice is column g·2048 + j of the stacked product. -/
theorem sl10_ix (b : Fin 512) (j : Fin 2048) : idx_main_v10 (ix2 b j) = ix2 b (Spec.row 0 j) :=
  funext fun a => Fin.ext (by match a with | ⟨0, _⟩ => rfl | ⟨1, _⟩ => simp)
theorem sl11_ix (b : Fin 512) (j : Fin 2048) : idx_main_v11 (ix2 b j) = ix2 b (Spec.row 0 j) :=
  funext fun a => Fin.ext (by match a with | ⟨0, _⟩ => rfl | ⟨1, _⟩ => simp)
theorem sl19_ix (b : Fin 512) (j : Fin 2048) : idx_main_v19 (ix2 b j) = ix2 b (Spec.row 1 j) :=
  funext fun a => Fin.ext (by match a with | ⟨0, _⟩ => rfl | ⟨1, _⟩ => simp)
theorem sl20_ix (b : Fin 512) (j : Fin 2048) : idx_main_v20 (ix2 b j) = ix2 b (Spec.row 1 j) :=
  funext fun a => Fin.ext (by match a with | ⟨0, _⟩ => rfl | ⟨1, _⟩ => simp)
theorem sl30_ix (b : Fin 512) (j : Fin 2048) : idx_main_v30 (ix2 b j) = ix2 b (Spec.row 2 j) :=
  funext fun a => Fin.ext (by match a with | ⟨0, _⟩ => rfl | ⟨1, _⟩ => simp)
theorem sl31_ix (b : Fin 512) (j : Fin 2048) : idx_main_v31 (ix2 b j) = ix2 b (Spec.row 2 j) :=
  funext fun a => Fin.ext (by match a with | ⟨0, _⟩ => rfl | ⟨1, _⟩ => simp)

/-- The one law: the quotient 1 / (1 + exp (-u)), with the numeral spelled as the float word, is the logistic. -/
theorem logistic_word (u : EReal) :
    Ideal.div (Ideal.ofBits .f32 0x3F800000#32) (Ideal.ofBits .f32 0x3F800000#32 + Ideal.exp (-u)) = Ideal.logistic u := by
  rw [Ideal.ofBits_one_f32]; rfl

/-- The update gate at (b, j). -/
theorem z18 (b : Fin 512) (j : Fin 2048) :
    val_main_v18 (F := Ideal) x0 x1 x5 x6 x7 x8 (ix2 b j)
      = Spec.cellZ (fun k => x0 (ix2 b k)) (fun k => x5 (ix2 (Spec.row 0 j) k)) (fun k => x1 (ix2 b k))
          (fun k => x7 (ix2 (Spec.row 0 j) k)) (x6 (ix1 (Spec.row 0 j))) (x8 (ix1 (Spec.row 0 j))) := by
  rw [val_main_v18_apply, val_main_v17_apply, val_main_cst_0_apply, val_main_v16_apply, val_main_v15_apply,
    val_main_cst_apply, val_main_v14_apply, val_main_v13_apply, val_main_v12_apply, val_main_v10_apply,
    val_main_v11_apply, sl10_ix, sl11_ix, aff4, aff9]
  unfold Spec.cellZ
  rw [← logistic_word]
  rfl

/-- The reset gate at (b, j). -/
theorem r27 (b : Fin 512) (j : Fin 2048) :
    val_main_v27 (F := Ideal) x0 x1 x5 x6 x7 x8 (ix2 b j)
      = Spec.cellR (fun k => x0 (ix2 b k)) (fun k => x5 (ix2 (Spec.row 1 j) k)) (fun k => x1 (ix2 b k))
          (fun k => x7 (ix2 (Spec.row 1 j) k)) (x6 (ix1 (Spec.row 1 j))) (x8 (ix1 (Spec.row 1 j))) := by
  rw [val_main_v27_apply, val_main_v26_apply, val_main_cst_2_apply, val_main_v25_apply, val_main_v24_apply,
    val_main_cst_1_apply, val_main_v23_apply, val_main_v22_apply, val_main_v21_apply, val_main_v19_apply,
    val_main_v20_apply, sl19_ix, sl20_ix, aff4, aff9]
  unfold Spec.cellR
  rw [← logistic_word]
  rfl

/-! ## The candidate drive, the membrane, the hidden value, the trace -/

theorem lidx29_ix (b : Fin 512) (j : Fin 2048) (k : Fin 2048) : lidx_main_v29 (ix2 b j) k = ix2 b k :=
  funext fun a => Fin.ext (by match a with | ⟨0, _⟩ => rfl | ⟨1, _⟩ => rfl)
theorem ridx29_ix (b : Fin 512) (j : Fin 2048) (k : Fin 2048) : idx_main_v28 (ridx_main_v29 (ix2 b j) k) = ix2 j k :=
  funext fun a => Fin.ext (by match a with | ⟨0, _⟩ => rfl | ⟨1, _⟩ => rfl)
theorem bidx33_ix (b : Fin 512) (j : Fin 2048) : idx_main_v33 (ix2 b j) = ix2 0 j :=
  funext fun a => Fin.ext (by match a with | ⟨0, _⟩ => rfl | ⟨1, _⟩ => rfl)

/-- The plastic product at (b, j): row b of h against row j of the plastic matrix. -/
theorem pl29 (b : Fin 512) (j : Fin 2048) :
    val_main_v29 (F := Ideal) x1 x3 (ix2 b j) = Spec.dot (fun k => x1 (ix2 b k)) (fun k => x3 (ix2 j k)) := by
  rw [val_main_v29_apply]
  simp only [val_main_v28_apply, lidx29_ix, ridx29_ix]
  rfl

/-- The candidate drive at (b, j). -/
theorem d37 (b : Fin 512) (j : Fin 2048) :
    val_main_v37 (F := Ideal) x0 x1 x3 x5 x6 x7 x8 x9 (ix2 b j)
      = Spec.cellD (fun k => x0 (ix2 b k)) (fun k => x5 (ix2 (Spec.row 1 j) k)) (fun k => x5 (ix2 (Spec.row 2 j) k))
          (fun k => x1 (ix2 b k)) (fun k => x7 (ix2 (Spec.row 1 j) k)) (fun k => x7 (ix2 (Spec.row 2 j) k))
          (fun k => x3 (ix2 j k)) (x6 (ix1 (Spec.row 1 j))) (x6 (ix1 (Spec.row 2 j)))
          (x8 (ix1 (Spec.row 1 j))) (x8 (ix1 (Spec.row 2 j))) (x9 (ix2 0 j)) := by
  rw [val_main_v37_apply, val_main_v30_apply, val_main_v36_apply, val_main_v35_apply, val_main_v31_apply,
    val_main_v34_apply, val_main_v33_apply, val_main_v32_apply, sl30_ix, sl31_ix, bidx33_ix, aff4, aff9, r27, pl29]
  rfl

/-- The new membrane value at (b, j). -/
theorem v42_at (b : Fin 512) (j : Fin 2048) :
    val_main_v42 (F := Ideal) x0 x1 x2 x3 x5 x6 x7 x8 x9 (ix2 b j) = Spec.newV x0 x1 x2 x3 x5 x6 x7 x8 x9 b j := by
  rw [val_main_v42_apply, val_main_v40_apply, val_main_v39_apply, val_main_v38_apply, val_main_cst_3_apply,
    val_main_v41_apply, z18, d37]
  rfl

/-- The new hidden value at (b, j). -/
theorem h47_at (b : Fin 512) (j : Fin 2048) :
    val_main_v47 (F := Ideal) x0 x1 x2 x3 x5 x6 x7 x8 x9 (ix2 b j) = Spec.newH x0 x1 x2 x3 x5 x6 x7 x8 x9 b j := by
  rw [val_main_v47_apply, val_main_v46_apply, val_main_cst_4_apply, val_main_v45_apply, val_main_v44_apply,
    val_main_v43_apply, val_main_call0_v0_apply, val_main_call0_cst_apply, v42_at]
  rfl

/-- The new trace at (b, j). -/
theorem t58_at (b : Fin 512) (j : Fin 2048) :
    val_main_v58 (F := Ideal) x0 x1 x2 x3 x4 x5 x6 x7 x8 x9 (ix2 b j) = Spec.newT x0 x1 x2 x4 x3 x5 x6 x7 x8 x9 b j := by
  rw [val_main_v58_apply, val_main_v55_apply, val_main_v54_apply, val_main_v53_apply, val_main_cst_5_apply,
    val_main_v57_apply, val_main_v56_apply, z18, r27, h47_at]
  rfl

/-! ## The plastic update: two correlations over the batch, decayed and clipped -/

theorem lidx49_ix (p q : Fin 2048) (k : Fin 512) : idx_main_v48 (lidx_main_v49 (ix2 p q) k) = ix2 k p :=
  funext fun a => Fin.ext (by match a with | ⟨0, _⟩ => rfl | ⟨1, _⟩ => rfl)
theorem ridx49_ix (p q : Fin 2048) (k : Fin 512) : ridx_main_v49 (ix2 p q) k = ix2 k q :=
  funext fun a => Fin.ext (by match a with | ⟨0, _⟩ => rfl | ⟨1, _⟩ => rfl)
theorem lidx51_ix (p q : Fin 2048) (k : Fin 512) : idx_main_v50 (lidx_main_v51 (ix2 p q) k) = ix2 k p :=
  funext fun a => Fin.ext (by match a with | ⟨0, _⟩ => rfl | ⟨1, _⟩ => rfl)
theorem ridx51_ix (p q : Fin 2048) (k : Fin 512) : ridx_main_v51 (ix2 p q) k = ix2 k q :=
  funext fun a => Fin.ext (by match a with | ⟨0, _⟩ => rfl | ⟨1, _⟩ => rfl)

/-- New hidden column p against trace column q. -/
theorem c49 (p q : Fin 2048) :
    val_main_v49 (F := Ideal) x0 x1 x2 x3 x4 x5 x6 x7 x8 x9 (ix2 p q)
      = Spec.dot (fun b => Spec.newH x0 x1 x2 x3 x5 x6 x7 x8 x9 b p) (fun b => x4 (ix2 b q)) := by
  rw [val_main_v49_apply]
  simp only [val_main_v48_apply, lidx49_ix, ridx49_ix, h47_at]
  rfl

/-- Trace column p against new hidden column q. -/
theorem c51 (p q : Fin 2048) :
    val_main_v51 (F := Ideal) x0 x1 x2 x3 x4 x5 x6 x7 x8 x9 (ix2 p q)
      = Spec.dot (fun b => x4 (ix2 b p)) (fun b => Spec.newH x0 x1 x2 x3 x5 x6 x7 x8 x9 b q) := by
  rw [val_main_v51_apply]
  simp only [val_main_v50_apply, lidx51_ix, ridx51_ix, h47_at]
  rfl

/-- The new plastic entry at (p, q). -/
theorem u64_at (p q : Fin 2048) :
    val_main_v64 (F := Ideal) x0 x1 x2 x3 x4 x5 x6 x7 x8 x9 (ix2 p q)
      = Spec.newU (fun j => Spec.newH x0 x1 x2 x3 x5 x6 x7 x8 x9 (j 0) (j 1)) x4 x3 p q := by
  rw [val_main_v64_apply, val_main_call1_v4_apply, val_main_call1_v3_apply, val_main_cst_9_apply,
    val_main_call1_v2_apply, val_main_call1_v1_apply, val_main_call1_v0_apply, val_main_cst_8_apply,
    val_main_v63_apply, val_main_v60_apply, val_main_v59_apply, val_main_cst_6_apply, val_main_v62_apply,
    val_main_v61_apply, val_main_cst_7_apply, val_main_v52_apply, c49, c51]
  rfl

/-- The new membrane array. -/
theorem newV_eq (i : S512x2048.Idx) :
    val_main_v42 (F := Ideal) x0 x1 x2 x3 x5 x6 x7 x8 x9 i = Spec.newV x0 x1 x2 x3 x5 x6 x7 x8 x9 (i 0) (i 1) := by
  obtain ⟨b, j, rfl⟩ : ∃ (b : Fin 512) (j : Fin 2048), i = ix2 b j := ⟨i 0, i 1, eq_ix2 i⟩
  exact v42_at x0 x1 x2 x3 x5 x6 x7 x8 x9 b j

/-- The new hidden array. -/
theorem newH_eq (i : S512x2048.Idx) :
    val_main_v47 (F := Ideal) x0 x1 x2 x3 x5 x6 x7 x8 x9 i = Spec.newH x0 x1 x2 x3 x5 x6 x7 x8 x9 (i 0) (i 1) := by
  obtain ⟨b, j, rfl⟩ : ∃ (b : Fin 512) (j : Fin 2048), i = ix2 b j := ⟨i 0, i 1, eq_ix2 i⟩
  exact h47_at x0 x1 x2 x3 x5 x6 x7 x8 x9 b j

/-- The new trace array. -/
theorem newT_eq (i : S512x2048.Idx) :
    val_main_v58 (F := Ideal) x0 x1 x2 x3 x4 x5 x6 x7 x8 x9 i = Spec.newT x0 x1 x2 x4 x3 x5 x6 x7 x8 x9 (i 0) (i 1) := by
  obtain ⟨b, j, rfl⟩ : ∃ (b : Fin 512) (j : Fin 2048), i = ix2 b j := ⟨i 0, i 1, eq_ix2 i⟩
  exact t58_at x0 x1 x2 x3 x4 x5 x6 x7 x8 x9 b j

/-- The new plastic matrix, from the new hidden array. -/
theorem newU_eq (i : S2048x2048.Idx) :
    val_main_v64 (F := Ideal) x0 x1 x2 x3 x4 x5 x6 x7 x8 x9 i
      = Spec.newU (fun j => Spec.newH x0 x1 x2 x3 x5 x6 x7 x8 x9 (j 0) (j 1)) x4 x3 (i 0) (i 1) := by
  obtain ⟨p, q, rfl⟩ : ∃ (p q : Fin 2048), i = ix2 p q := ⟨i 0, i 1, eq_ix2 i⟩
  exact u64_at x0 x1 x2 x3 x4 x5 x6 x7 x8 x9 p q

end Cert.ReferenceIdeal.RefValue

end
-- ==== Proof.lean ====
/-
  The certificate of one step of a gated recurrent cell with a plastic synapse: a kernel program in two regions
  against a reference program of plain array operations.

  The step (proof/Proof/Spec.lean says it in full): from an input x, a hidden state h, a membrane v, a trace, two
  stacked weight matrices with their biases, a plastic matrix dU and a row alpha, compute the update and reset gates
  z and r (logistics of affine maps of x and h), the candidate drive, the new membrane v' = (1 - z) v + z dv, the new
  hidden state h' = 1 - exp (-(max v' 0)), the new trace (1 - z) trace + z r h', and the new plastic matrix: dU decayed
  and moved by the antisymmetric correlation of h' with the trace, clipped to [-1, 1].

  The kernel program computes the first three results in one region, one grid point per 128 hidden units, from
  per-gate slices of the weights and biases that host operations cut first; and the plastic matrix in a second region,
  one grid point per 512 x 512 block, reading the new hidden array the first region wrote. The reference multiplies
  against the whole stacked matrices and slices afterwards, spells the logistic as 1 / (1 + exp (-u)), and forms the two
  correlations as products with transposed arrays.

  What is proved. Each program runs to the end from any memory, nothing faulting, its arguments unchanged (the three
  frames: for the kernel programs by the several-regions launch over the two regions' records, each region's body run
  at a generic grid point; for the reference by its run, operation by operation). The idealized kernel is the kernel's
  own text read at the exact instance, so there is nothing to preserve. And on the extended reals the two idealized
  programs end with the same four arrays: every entry of each is the SAME cell function of the same rows and entries of
  the arguments — a matrix product into a zero accumulator is the plain sum over the contracted axis on both sides, a
  change of float format is the identity, the kernel's logistic is the reference's quotient, `0 - u` is `-u`, a gate's
  slice of a stacked matrix at row j is the stacked matrix at row g·2048 + j, and the grid's blocks tile each output.
  No finiteness of the inputs is used: only associativity-free unfolding, so the equality holds at the infinities too.
-/
import proofs.«137782_j89696097009958_1_alg».proof.Defs
import proofs.«137782_j89696097009958_1_alg».proof.Proof.Gen.Kernel
import proofs.«137782_j89696097009958_1_alg».proof.Proof.Gen.KernelIdeal
import proofs.«137782_j89696097009958_1_alg».proof.Proof.Gen.ReferenceIdeal
import proofs.«137782_j89696097009958_1_alg».proof.Proof.Gen.Pre_finite_inputs
import proofs.«137782_j89696097009958_1_alg».proof.Proof.Gen.ReferenceIdeal.Run
import proofs.«137782_j89696097009958_1_alg».proof.Proof.Gen.ReferenceIdeal.Read
import proofs.«137782_j89696097009958_1_alg».proof.Proof.Bits.Launch
import proofs.«137782_j89696097009958_1_alg».proof.Proof.Results
import proofs.«137782_j89696097009958_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Launch.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Launch.frame m ρ

/-- The reference runs and leaves its arguments unchanged: its run, the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

/-- On the extended reals both idealized programs end with the specification's four arrays of the arguments: the
    kernel's last valuation read at its four results, the reference's four stages read as the same cell functions, the
    reference's arguments being the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Results.specV m c, fun c => Cert.KernelIdeal.Results.specH m c,
    fun c => Cert.KernelIdeal.Results.specU m c, fun c => Cert.KernelIdeal.Results.specT m c, ?_, ?_⟩
  · exact (θ_run Cert.KernelIdeal.defs _ _).mono (fun r h c =>
      ⟨(h c _ (Cert.KernelIdeal.Launch.mem_uc Cert.KernelIdeal.main_v14_0 (by decide))).trans (Cert.KernelIdeal.Results.res_v14_0 m c),
       (h c _ (Cert.KernelIdeal.Launch.mem_uc Cert.KernelIdeal.main_v14_1 (by decide))).trans (Cert.KernelIdeal.Results.res_v14_1 m c),
       (h c _ (Cert.KernelIdeal.Launch.mem_uc Cert.KernelIdeal.main_v15 (by decide))).trans (Cert.KernelIdeal.Results.res_v15 m c),
       (h c _ (Cert.KernelIdeal.Launch.mem_uc Cert.KernelIdeal.main_v14_2 (by decide))).trans (Cert.KernelIdeal.Results.res_v14_2 m c),
       (h c _ (Cert.KernelIdeal.Launch.mem_uc Cert.KernelIdeal.main_arg0 (by decide))).trans (Cert.KernelIdeal.Gen.V3_main_arg0 m _ c),
       (h c _ (Cert.KernelIdeal.Launch.mem_uc Cert.KernelIdeal.main_arg1 (by decide))).trans (Cert.KernelIdeal.Gen.V3_main_arg1 m _ c),
       (h c _ (Cert.KernelIdeal.Launch.mem_uc Cert.KernelIdeal.main_arg2 (by decide))).trans (Cert.KernelIdeal.Gen.V3_main_arg2 m _ c),
       (h c _ (Cert.KernelIdeal.Launch.mem_uc Cert.KernelIdeal.main_arg3 (by decide))).trans (Cert.KernelIdeal.Gen.V3_main_arg3 m _ c),
       (h c _ (Cert.KernelIdeal.Launch.mem_uc Cert.KernelIdeal.main_arg4 (by decide))).trans (Cert.KernelIdeal.Gen.V3_main_arg4 m _ c),
       (h c _ (Cert.KernelIdeal.Launch.mem_uc Cert.KernelIdeal.main_arg5 (by decide))).trans (Cert.KernelIdeal.Gen.V3_main_arg5 m _ c),
       (h c _ (Cert.KernelIdeal.Launch.mem_uc Cert.KernelIdeal.main_arg6 (by decide))).trans (Cert.KernelIdeal.Gen.V3_main_arg6 m _ c),
       (h c _ (Cert.KernelIdeal.Launch.mem_uc Cert.KernelIdeal.main_arg7 (by decide))).trans (Cert.KernelIdeal.Gen.V3_main_arg7 m _ c),
       (h c _ (Cert.KernelIdeal.Launch.mem_uc Cert.KernelIdeal.main_arg8 (by decide))).trans (Cert.KernelIdeal.Gen.V3_main_arg8 m _ c),
       (h c _ (Cert.KernelIdeal.Launch.mem_uc Cert.KernelIdeal.main_arg9 (by decide))).trans (Cert.KernelIdeal.Gen.V3_main_arg9 m _ c)⟩)
      (Cert.KernelIdeal.Launch.run_all m ρ)
  · refine (θ_run Cert.ReferenceIdeal.defs _ _).mono (fun r h c => ?_) (Cert.ReferenceIdeal.Value.run (F := Ideal) m' ρ')
    obtain ⟨h42, h47, h64, h58, hargs⟩ := h c
    obtain ⟨e0, e1, e2, e3, e4, e5, e6, e7, e8, e9⟩ := hagree c
    refine ⟨h42.trans ?_, h47.trans ?_, h64.trans ?_, h58.trans ?_, hargs⟩
    · rw [Cert.ReferenceIdeal.Read.val_main_v42_eq, e0, e1, e2, e3, e5, e6, e7, e8, e9]
      exact funext fun i => Cert.ReferenceIdeal.RefValue.newV_eq _ _ _ _ _ _ _ _ _ i
    · rw [Cert.ReferenceIdeal.Read.val_main_v47_eq, e0, e1, e2, e3, e5, e6, e7, e8, e9]
      exact funext fun i => Cert.ReferenceIdeal.RefValue.newH_eq _ _ _ _ _ _ _ _ _ i
    · rw [Cert.ReferenceIdeal.Read.val_main_v64_eq, e0, e1, e2, e3, e4, e5, e6, e7, e8, e9]
      exact funext fun i => Cert.ReferenceIdeal.RefValue.newU_eq _ _ _ _ _ _ _ _ _ _ i
    · rw [Cert.ReferenceIdeal.Read.val_main_v58_eq, e0, e1, e2, e3, e4, e5, e6, e7, e8, e9]
      exact funext fun i => Cert.ReferenceIdeal.RefValue.newT_eq _ _ _ _ _ _ _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
